-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S8x128 : Shape := ⟨2, ![8, 128]⟩
abbrev S8 : Shape := ⟨1, ![8]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_v48 : IVec S_ 1) (main_v49 : FVec F S8x128 .f32) (main_v50 : FVec F S8x128 .f32) : IVec S_ 1 :=
  let main_v51 : IVec S8x128 1 := cmpf .olt main_v49 main_v50
  let main_c_19 : IVec S_ 1 := constantI S_ 1 1#1
  let main_v52 : IVec S_ 1 := (fun x v => Host.reduce IntOp.andi x v reducesTo_S8x128_S_d0_1 h_S_) main_v51 main_c_19
  let main_v53 : IVec S_ 1 := andi main_v48 main_v52
  main_v53

def fn_part2 {F : FTy → Type} [FloatOps F] (main_arg8 : FVec F S128x128 .f32) (main_arg9 : FVec F S8x128 .f32) (main_arg10 : FVec F S8 .f32) (main_arg11 : FVec F S8x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S8x128 .f32 := Host.absf main_arg9
  let main_cst_14 : FVec F S_ .f32 := constant S_ .f32 0x7F800000#32
  let main_v40 : FVec F S8x128 .f32 := broadcastInDim S8x128 ![] bcast_S_S8x128 main_cst_14
  let main_v41 : IVec S8x128 1 := cmpf .olt main_v39 main_v40
  let main_c_15 : IVec S_ 1 := constantI S_ 1 1#1
  let main_v42 : IVec S_ 1 := (fun x v => Host.reduce IntOp.andi x v reducesTo_S8x128_S_d0_1 h_S_) main_v41 main_c_15
  let main_v43 : IVec S_ 1 := andi main_v38 main_v42
  let main_v44 : FVec F S8 .f32 := Host.absf main_arg10
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_v49 : FVec F S8x128 .f32 := Host.absf main_arg11
  let main_cst_18 : FVec F S_ .f32 := constant S_ .f32 0x7F800000#32
  let main_v50 : FVec F S8x128 .f32 := broadcastInDim S8x128 ![] bcast_S_S8x128 main_cst_18
  fn_part3 (F := F) main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S8x128 .f32) (main_arg10 : FVec F S8 .f32) (main_arg11 : FVec F S8x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S800000x1 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S8x128 .f32) (main_arg10 : FVec F S8 .f32) (main_arg11 : FVec F S8x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S8x128 : Shape := ⟨2, ![8, 128]⟩
abbrev S8 : Shape := ⟨1, ![8]⟩
abbrev S1x800000 : Shape := ⟨2, ![1, 800000]⟩
abbrev S800000 : Shape := ⟨1, ![800000]⟩
abbrev S_ : Shape := ⟨0, ![]⟩
abbrev S50000 : Shape := ⟨1, ![50000]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S1x8 : Shape := ⟨2, ![1, 8]⟩
abbrev S50000x8 : Shape := ⟨2, ![50000, 8]⟩
abbrev S5000x8 : Shape := ⟨2, ![5000, 8]⟩
abbrev S5000 : Shape := ⟨1, ![5000]⟩
abbrev S5000x1 : Shape := ⟨2, ![5000, 1]⟩

abbrev nBuf : Space → Nat
  | .hbm => 80
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S8x128, .f32⟩
  | .hbm, ⟨10, _⟩ => ⟨S8, .f32⟩
  | .hbm, ⟨11, _⟩ => ⟨S8x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S1x8, .f32⟩
  | .hbm, ⟨79, _⟩ => ⟨S50000x8, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S8x128, .f32⟩
  | .local _ .vmem, ⟨23, _⟩ => ⟨S1x8, .f32⟩
  | .local _ .vmem, ⟨24, _⟩ => ⟨S8x128, .f32⟩
  | .local _ .vmem, ⟨25, _⟩ => ⟨S5000x8, .f32⟩
  | .local _ .vmem, ⟨26, _⟩ => ⟨S5000x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S8_S1x8 : S8.ShapeCasts S1x8
  inb_S8x128_S8x128_0_0 : ∀ a, (![0, 0] : Fin 2 → Nat) a + S8x128.size a ≤ S8x128.size a
  h_S8x128 : 0 < S8x128.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  reduces_S5000x8_S5000 : S5000x8.Reduces [1] S5000
  shapeCasts_S5000_S5000x1 : S5000.ShapeCasts S5000x1
  broadcasts_S5000x1_S5000x8 : S5000x1.Broadcasts S5000x8
  inb_S5000x8_S5000x8_0_0 : ∀ a, (![0, 0] : Fin 2 → Nat) a + S5000x8.size a ≤ S5000x8.size a
  h_S5000x8 : 0 < S5000x8.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_1_0_0_n_n_wf : DotDims.WF S5000x128 S128x128 S5000x128 [1] [1] [0] [0] [] []
  dot_S5000x128_S8x128_S5000x8_1_1_0_0_n_n_wf : DotDims.WF S5000x128 S8x128 S5000x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x128.size a ≤ S8x128.size a
  hwx2_2 : ∀ i : grid2.Coords, EltTy.bits .f32 = 32 ∨ (Rect.block (s := S8x128) S8x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8.size a ≤ S1x8.size a
  hwx2_3 : ∀ i : grid2.Coords, EltTy.bits .f32 = 32 ∨ (Rect.block (s := S1x8) S1x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S8x128.size a ≤ S8x128.size a
  hwx2_4 : ∀ i : grid2.Coords, EltTy.bits .f32 = 32 ∨ (Rect.block (s := S8x128) S8x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x8.size a ≤ S50000x8.size a
  hwx2_5 : ∀ i : grid2.Coords, EltTy.bits .f32 = 32 ∨ (Rect.block (s := S50000x8) S5000x8.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def dot_S5000x128_S8x128_S5000x8_1_1_0_0_n_n : DotDims S5000x128 S8x128 S5000x8 where
  lhsContracting := [1]
  rhsContracting := [1]
  lhsNonContracting := [0]
  rhsNonContracting := [0]
  lhsBatch := []
  rhsBatch := []
  wf := dot_S5000x128_S8x128_S5000x8_1_1_0_0_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S8x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S8x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x8.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S8x128 : Shape := ⟨2, ![8, 128]⟩
abbrev S8 : Shape := ⟨1, ![8]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x8 : Shape := ⟨2, ![128, 8]⟩
abbrev S50000x8 : Shape := ⟨2, ![50000, 8]⟩
abbrev S1x8 : Shape := ⟨2, ![1, 8]⟩

abbrev nBuf : Space → Nat
  | .hbm => 148
  | .vmem => 0
  | .smem => 0
  | _ => 0

abbrev hbmTy0_0 (i : Nat) : BufTy := match i % 128 with
  | 0 => ⟨S50000x128, .f32⟩
  | 1 => ⟨S2x800000, .i32⟩
  | 2 => ⟨S800000x1, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S8x128, .f32⟩
  | 10 => ⟨S8, .f32⟩
  | 11 => ⟨S8x128, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S128x128, .f32⟩
  | 42 => ⟨S50000x128, .f32⟩
  | 43 => ⟨S1x128, .f32⟩
  | 44 => ⟨S50000x128, .f32⟩
  | 45 => ⟨S50000x128, .f32⟩
  | 46 => ⟨S128x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S_, .f32⟩
  | 66 => ⟨S800000, .f32⟩
  | 67 => ⟨S_, .f32⟩
  | 68 => ⟨S50000, .f32⟩
  | 69 => ⟨S800000x1, .i32⟩
  | 70 => ⟨S50000, .f32⟩
  | 71 => ⟨S_, .f32⟩
  | 72 => ⟨S50000, .f32⟩
  | 73 => ⟨S50000, .f32⟩
  | 74 => ⟨S50000x1, .f32⟩
  | 75 => ⟨S50000x128, .f32⟩
  | 76 => ⟨S50000x128, .f32⟩
  | 77 => ⟨S128x128, .f32⟩
  | 78 => ⟨S50000x128, .f32⟩
  | 79 => ⟨S1x128, .f32⟩
  | 80 => ⟨S50000x128, .f32⟩
  | 81 => ⟨S50000x128, .f32⟩
  | 82 => ⟨S128x128, .f32⟩
  | 83 => ⟨S50000x128, .f32⟩
  | 84 => ⟨S50000x128, .f32⟩
  | 85 => ⟨S_, .f32⟩
  | 86 => ⟨S50000x128, .f32⟩
  | 87 => ⟨S50000x128, .i1⟩
  | 88 => ⟨S_, .f32⟩
  | 89 => ⟨S50000x128, .f32⟩
  | 90 => ⟨S50000x128, .i1⟩
  | 91 => ⟨S_, .f32⟩
  | 92 => ⟨S_, .f32⟩
  | 93 => ⟨S50000x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S_, .f32⟩
  | 110 => ⟨S50000x128, .f32⟩
  | 111 => ⟨S800000x1, .i32⟩
  | 112 => ⟨S50000x128, .f32⟩
  | 113 => ⟨S_, .f32⟩
  | 114 => ⟨S800000, .f32⟩
  | 115 => ⟨S_, .f32⟩
  | 116 => ⟨S50000, .f32⟩
  | 117 => ⟨S800000x1, .i32⟩
  | 118 => ⟨S50000, .f32⟩
  | 119 => ⟨S_, .f32⟩
  | 120 => ⟨S50000, .f32⟩
  | 121 => ⟨S50000, .f32⟩
  | 122 => ⟨S50000x1, .f32⟩
  | 123 => ⟨S50000x128, .f32⟩
  | 124 => ⟨S50000x128, .f32⟩
  | 125 => ⟨S128x8, .f32⟩
  | 126 => ⟨S50000x8, .f32⟩
  | 127 => ⟨S1x8, .f32⟩
  | _ => ⟨S50000x128, .f32⟩

abbrev hbmTy0_1 (i : Nat) : BufTy := match i % 128 with
  | 0 => ⟨S50000x8, .f32⟩
  | 1 => ⟨S50000x8, .f32⟩
  | 2 => ⟨S128x8, .f32⟩
  | 3 => ⟨S50000x8, .f32⟩
  | 4 => ⟨S50000x8, .f32⟩
  | 5 => ⟨S_, .f32⟩
  | 6 => ⟨S50000, .f32⟩
  | 7 => ⟨S_, .f32⟩
  | 8 => ⟨S50000, .f32⟩
  | 9 => ⟨S50000, .f32⟩
  | 10 => ⟨S50000x1, .f32⟩
  | 11 => ⟨S50000x8, .f32⟩
  | 12 => ⟨S50000x8, .f32⟩
  | 13 => ⟨S50000x8, .f32⟩
  | 14 => ⟨S_, .f32⟩
  | 15 => ⟨S50000, .f32⟩
  | 16 => ⟨S50000x1, .f32⟩
  | 17 => ⟨S50000x1, .f32⟩
  | 18 => ⟨S50000x8, .f32⟩
  | 19 => ⟨S50000x8, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_cst_1 : Ref sig .tc := ⟨.hbm, 91, rfl⟩
abbrev main_call1_call0_v0 : Ref sig .tc := ⟨.hbm, 92, rfl⟩
abbrev main_call1_call0_v1 : Ref sig .tc := ⟨.hbm, 93, rfl⟩
abbrev main_call1_v4 : Ref sig .tc := ⟨.hbm, 94, rfl⟩
abbrev main_call1_v5 : Ref sig .tc := ⟨.hbm, 95, rfl⟩
abbrev main_call1_cst_2 : Ref sig .tc := ⟨.hbm, 96, rfl⟩
abbrev main_call1_v6 : Ref sig .tc := ⟨.hbm, 97, rfl⟩
abbrev main_call1_v7 : Ref sig .tc := ⟨.hbm, 98, rfl⟩
abbrev main_v59 : Ref sig .tc := ⟨.hbm, 99, rfl⟩
abbrev main_c_10 : Ref sig .tc := ⟨.hbm, 100, rfl⟩
abbrev main_v60 : Ref sig .tc := ⟨.hbm, 101, rfl⟩
abbrev main_v61 : Ref sig .tc := ⟨.hbm, 102, rfl⟩
abbrev main_c_11 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_12 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_13 : Ref sig .tc := ⟨.hbm, 113, rfl⟩
abbrev main_v70 : Ref sig .tc := ⟨.hbm, 114, rfl⟩
abbrev main_cst_14 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_cst_15 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_call2_cst : Ref sig .tc := ⟨.hbm, 133, rfl⟩
abbrev main_call2_v0 : Ref sig .tc := ⟨.hbm, 134, rfl⟩
abbrev main_call2_cst_0 : Ref sig .tc := ⟨.hbm, 135, rfl⟩
abbrev main_call2_v1 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_call2_v5 : Ref sig .tc := ⟨.hbm, 140, rfl⟩
abbrev main_call2_v6 : Ref sig .tc := ⟨.hbm, 141, rfl⟩
abbrev main_call2_cst_1 : Ref sig .tc := ⟨.hbm, 142, rfl⟩
abbrev main_call2_v7 : Ref sig .tc := ⟨.hbm, 143, rfl⟩
abbrev main_call2_v8 : Ref sig .tc := ⟨.hbm, 144, rfl⟩
abbrev main_call2_v9 : Ref sig .tc := ⟨.hbm, 145, rfl⟩
abbrev main_call2_v10 : Ref sig .tc := ⟨.hbm, 146, rfl⟩
abbrev main_v87 : Ref sig .tc := ⟨.hbm, 147, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S8x128_S128x8_1_0 : S8x128.Transposes [1, 0] S128x8
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  reducesTo_S50000x8_S50000_d1 : S50000x8.ReducesTo [1] S50000
  h_S_ : 0 < S_.numel
  bcast_S50000x1_S50000x8_0_1 : S50000x1.BroadcastsInDim S50000x8 (![0, 1] : Fin 2 → Fin S50000x8.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x8_S50000x8_1_0_0_1_n_n_wf : DotDims.WF S50000x128 S128x8 S50000x8 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x8_S50000x8_1_0_0_1_n_n : DotDims S50000x128 S128x8 S50000x8 where
  lhsContracting := [1]
  rhsContracting := [0]
  lhsNonContracting := [0]
  rhsNonContracting := [1]
  lhsBatch := []
  rhsBatch := []
  wf := dot_S50000x128_S128x8_S50000x8_1_0_0_1_n_n_wf

class Facts : Prop extends Facts₀ where

variable [Facts]
-- ==== Proof.KTerms.lean ====
/-
  The host side of the kernel's program as functions of arrays: the edge list's two rows (sources and destinations),
  the source rows with negative entries wrapped by the node count, the number of edges arriving at each node, its
  reciprocal with an empty neighbourhood counted as one, the sum over each node's incoming edges of the source's
  features, and that sum times the reciprocal: the neighbourhood mean as the kernel's program spells it.
-/
import proofs.«133615_j36567351558183_1_alg».proof.Proof.Gen.KernelIdeal

noncomputable section

namespace Cert.KernelIdeal.Hand

open Idealize.ShloMosaic Cert.KernelIdeal Cert.KernelIdeal.Gen

variable {F : FTy → Type} [FloatOps F]

/-- Row 0 of the edge list: each edge's source node. -/
def srcOf (ei : IVec S2x800000 32) : IVec S800000 32 :=
  shapeCast S800000 (extractStridedSlice S1x800000 ![0, 0] ei slices_S2x800000_S1x800000_0_0) shapeCasts_S1x800000_S800000

/-- Row 1 of the edge list: each edge's destination node. -/
def dstOf (ei : IVec S2x800000 32) : IVec S800000 32 :=
  shapeCast S800000 (extractStridedSlice S1x800000 ![1, 0] ei slices_S2x800000_S1x800000_1_0) shapeCasts_S1x800000_S800000

/-- A source index below zero counts from the end: the node count is added to it. -/
def wrapOf (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- How many edges arrive at each node: ones accumulated at the destinations. -/
def countOf (dst : IVec S800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- One over the number of arriving edges, a node with none counted as one, as a column. -/
def invCountOf (dst : IVec S800000 32) : FVec F S50000x1 .f32 :=
  broadcastInDim S50000x1 ![0] bcast_S50000_S50000x1_0
    (Host.divf (broadcastInDim S50000 ![] bcast_S_S50000 (constant S_ .f32 0x3F800000#32))
      (maximumf (countOf dst) (broadcastInDim S50000 ![] bcast_S_S50000 (constant S_ .f32 0x3F800000#32))))

/-- The features of each edge's source, accumulated at its destination. -/
def nbrSumOf (src dst : IVec S800000 32) (h : FVec F S50000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0 (wrapOf src)))

/-- The neighbourhood mean: the accumulated features times the reciprocal count, row by row. -/
def aggOf (src dst : IVec S800000 32) (inv : FVec F S50000x1 .f32) (h : FVec F S50000x128 .f32) : FVec F S50000x128 .f32 :=
  mulf (nbrSumOf src dst h) (broadcastInDim S50000x128 ![0, 1] bcast_S50000x1_S50000x128_0_1 inv)

/-- A bias vector of 128 entries as one row. -/
def biasRow128 (b : FVec F S128 .f32) : FVec F S1x128 .f32 := shapeCast S1x128 b shapeCasts_S128_S1x128

/-- A bias vector of 8 entries as one row. -/
def biasRow8 (b : FVec F S8 .f32) : FVec F S1x8 .f32 := shapeCast S1x8 b shapeCasts_S8_S1x8

end Cert.KernelIdeal.Hand

end
-- ==== Proof.Spec.lean ====
/-
  Three neighbourhood-mean graph-convolution layers as functions of whole arrays, over the extended reals
  (general in the sizes).

  One layer maps node features `h` ([R, K]) and their neighbourhood means `a` ([R, K]) to
  `act (a · wlᵀ + h · wrᵀ + b)`: entry (p, q) of the affine part is row p of `a` against row q of `wl`, plus
  row p of `h` against row q of `wr`, plus the bias at q (`lin`). The three activations are the positive part
  (`reluLayer`), the exponential linear unit `v ↦ v` for `v > 0` and `eᵛ − 1` otherwise (`eluLayer`), and the
  logarithm of the softmax along a row, taken after subtracting the row's maximum (`logSoftmaxLayer`). The network
  (`net`) feeds each layer's output and its neighbourhood mean to the next; the neighbourhood mean is a parameter
  `agg`, a function of a feature array, so that two spellings of it are compared once, apart from the layers.
  Every layer's entry (p, q) reads only row p of `a` and of `h` (`lin_congr`): a layer computed row block by row
  block is the layer of the whole arrays.
-/
import Idealize.ShloMosaic.PureOps.Ideal
import Idealize.ShloMosaic.Lib.ValueIdx

open scoped BigOperators

noncomputable section

namespace Cert.Sage

open Idealize.ShloMosaic Idealize.ShloMosaic.ValueIdx

variable {R K N : ℕ}

/-- The affine part at (p, q): `Σₖ a(p,k)·wl(q,k) + Σₖ h(p,k)·wr(q,k) + b(q)`. -/
def lin (a h : (⟨2, ![R, K]⟩ : Shape).Idx → EReal) (wl wr : (⟨2, ![N, K]⟩ : Shape).Idx → EReal) (b : Fin N → EReal)
    (p : Fin R) (q : Fin N) : EReal :=
  (∑ k : Fin K, a (ix2 p k) * wl (ix2 q k) + ∑ k : Fin K, h (ix2 p k) * wr (ix2 q k)) + b q

/-- The affine part at (p, q) reads `a` and `h` only along row p: arrays that agree with them there, at a row p',
    give the same value. -/
theorem lin_congr {R' : ℕ} (a h : (⟨2, ![R, K]⟩ : Shape).Idx → EReal) (a' h' : (⟨2, ![R', K]⟩ : Shape).Idx → EReal)
    (wl wr : (⟨2, ![N, K]⟩ : Shape).Idx → EReal) (b : Fin N → EReal) (p : Fin R) (p' : Fin R') (q : Fin N)
    (ha : ∀ k : Fin K, a' (ix2 p' k) = a (ix2 p k)) (hh : ∀ k : Fin K, h' (ix2 p' k) = h (ix2 p k)) :
    lin a' h' wl wr b p' q = lin a h wl wr b p q := by
  unfold lin
  rw [Finset.sum_congr rfl fun k _ => congrArg (· * wl (ix2 q k)) (ha k),
    Finset.sum_congr rfl fun k _ => congrArg (· * wr (ix2 q k)) (hh k)]

/-- The positive part of the affine part. -/
def reluLayer (a h : (⟨2, ![R, K]⟩ : Shape).Idx → EReal) (wl wr : (⟨2, ![N, K]⟩ : Shape).Idx → EReal) (b : Fin N → EReal) :
    (⟨2, ![R, N]⟩ : Shape).Idx → EReal :=
  fun j => max (lin a h wl wr b (j 0) (j 1)) (Ideal.ofBits .f32 0x00000000#32)

/-- The exponential linear unit at one value: the value itself where it is greater than zero, `eᵛ − 1` elsewhere. -/
def eluAt (v : EReal) : EReal :=
  Scalar.select (Ideal.cmp .ogt v (Ideal.ofBits .f32 0x00000000#32)) v (Ideal.exp v - 1)

/-- The exponential linear unit of the affine part. -/
def eluLayer (a h : (⟨2, ![R, K]⟩ : Shape).Idx → EReal) (wl wr : (⟨2, ![N, K]⟩ : Shape).Idx → EReal) (b : Fin N → EReal) :
    (⟨2, ![R, N]⟩ : Shape).Idx → EReal :=
  fun j => eluAt (lin a h wl wr b (j 0) (j 1))

/-- The maximum of a row, from `-∞`. -/
def rowMax (f : Fin N → EReal) : EReal :=
  (Finset.univ : Finset (Fin N)).fold max (Ideal.ofBits .f32 0xFF800000#32) f

/-- The logarithm of the softmax of a row at q: `(f q − M) − log Σⱼ e^(f j − M)` with `M` the row's maximum. -/
def logSoftmaxAt (f : Fin N → EReal) (q : Fin N) : EReal :=
  (f q - rowMax f) - Ideal.log (∑ j : Fin N, Ideal.exp (f j - rowMax f))

/-- The logarithm of the softmax along each row of the affine part. -/
def logSoftmaxLayer (a h : (⟨2, ![R, K]⟩ : Shape).Idx → EReal) (wl wr : (⟨2, ![N, K]⟩ : Shape).Idx → EReal) (b : Fin N → EReal) :
    (⟨2, ![R, N]⟩ : Shape).Idx → EReal :=
  fun j => logSoftmaxAt (fun q => lin a h wl wr b (j 0) q) (j 1)

/-- The three layers in sequence over a neighbourhood-mean operator `agg`: positive part, exponential linear unit,
    logarithm of the softmax. -/
def net (agg : ((⟨2, ![R, K]⟩ : Shape).Idx → EReal) → (⟨2, ![R, K]⟩ : Shape).Idx → EReal)
    (x : (⟨2, ![R, K]⟩ : Shape).Idx → EReal)
    (w1l w1r : (⟨2, ![K, K]⟩ : Shape).Idx → EReal) (b1 : Fin K → EReal)
    (whl whr : (⟨2, ![K, K]⟩ : Shape).Idx → EReal) (bh : Fin K → EReal)
    (w2l w2r : (⟨2, ![N, K]⟩ : Shape).Idx → EReal) (b2 : Fin N → EReal) : (⟨2, ![R, N]⟩ : Shape).Idx → EReal :=
  logSoftmaxLayer (agg (eluLayer (agg (reluLayer (agg x) x w1l w1r b1)) (reluLayer (agg x) x w1l w1r b1) whl whr bh))
    (eluLayer (agg (reluLayer (agg x) x w1l w1r b1)) (reluLayer (agg x) x w1l w1r b1) whl whr bh) w2l w2r b2

end Cert.Sage

end
-- ==== Proof.LibDotRowsRows.lean ====
/-
  A matrix product of a matrix with the transpose of another, read at an entry (general in the sizes).

  For a left operand `[R, K]`, a right operand `[N, K]` and a result `[R, N]`, when both operands contract their
  second axis, neither has a batch axis, and the result's axes are the left operand's rows then the right operand's
  rows, the sum over the contraction index at the entry `(p, q)` is the sum over `k : Fin K` of
  `l (p, k) * r (q, k)`: row `p` of the left operand against row `q` of the right one. Stated once for any such
  record of dimension numbers, it reads a kernel's matrix product into a zero accumulator and a host's general dot
  product the same way.
-/
import Idealize.ShloMosaic.Lib.ValueIdx
import Idealize.ShloMosaic.PureOps.Ideal.Laws

open scoped BigOperators

namespace Idealize.ShloMosaic.DotRowsRows

open Idealize.ShloMosaic Idealize.ShloMosaic.ValueIdx

variable {R K N : ℕ}

/-- The dimension numbers of `[R, K] · [N, K]ᵀ → [R, N]`: each operand contracts its columns, no batch axes, the left
    operand's rows before the right operand's rows in the result. -/
structure IsRowsRows (d : DotDims (⟨2, ![R, K]⟩ : Shape) (⟨2, ![N, K]⟩ : Shape) (⟨2, ![R, N]⟩ : Shape)) : Prop where
  lc : d.lhsContracting = [1]
  rc : d.rhsContracting = [1]
  ln : d.lhsNonContracting = [0]
  rn : d.rhsNonContracting = [0]
  lb : d.lhsBatch = []
  rb : d.rhsBatch = []

variable {d : DotDims (⟨2, ![R, K]⟩ : Shape) (⟨2, ![N, K]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsRowsRows d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsRowsRows d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the result's column. -/
theorem rhs_row (h : IsRowsRows d) (j : (⟨2, ![R, N]⟩ : Shape).Idx) (k : d.contr.Idx) :
    (d.rhsIdx j k (0 : Fin 2)).val = (j (1 : Fin 2)).val := by
  have hb : (0 : Fin 2) ∉ d.rhsBatch := by rw [h.rb]; exact List.not_mem_nil
  have hn : (0 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

/-- The right operand's column is the contraction coordinate. -/
theorem rhs_col (h : IsRowsRows d) (j : (⟨2, ![R, N]⟩ : Shape).Idx) (k : d.contr.Idx) :
    (d.rhsIdx j k (1 : Fin 2)).val = (k ⟨0, by rw [d.rank_contr, ← d.length_contracting, h.rc]; exact Nat.one_pos⟩).val :=
  d.rhsIdx_val_of_single h.rc j k

theorem contr_rank (h : IsRowsRows d) : d.contr.rank = 1 := by rw [d.rank_contr, h.lc]; rfl

theorem contr_size (h : IsRowsRows d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsRowsRows d) (l : (⟨2, ![R, K]⟩ : Shape).Idx → EReal) (r : (⟨2, ![N, K]⟩ : Shape).Idx → EReal)
    (p : Fin R) (q : Fin N) :
    ∑ k : d.contr.Idx, l (d.lhsIdx (ix2 p q) k) * r (d.rhsIdx (ix2 p q) k) = ∑ k : Fin K, l (ix2 p k) * r (ix2 q k) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 q k := by
    funext a
    refine Fin.ext ?_
    match a with
    | ⟨0, _⟩ => exact rhs_row h _ _
    | ⟨1, _⟩ => exact (rhs_col h _ _).trans (contrEquiv1_symm_val d K (contr_rank h) (contr_size h) k)
  rw [hl, hr]

/-- A kernel's matrix product into the zero accumulator, at the ideal values, read at `(p, q)`. -/
theorem matmul_zero_apply (h : IsRowsRows d) (prec : Option ContractPrecision)
    (l : FVec Ideal (⟨2, ![R, K]⟩ : Shape) .f32) (r : FVec Ideal (⟨2, ![N, K]⟩ : Shape) .f32) (p : Fin R) (q : Fin N) :
    FloatOps.matmul d prec l r (constant (⟨2, ![R, N]⟩ : Shape) .f32 0x00000000#32) (ix2 p q)
      = ∑ k : Fin K, l (ix2 p k) * r (ix2 q k) :=
  (Ideal.matmul_constant_zero_apply d prec l r (ix2 p q)).trans (sum_contr h l r p q)

/-- A host's general dot product, at the ideal values, read at `(p, q)`. -/
theorem dotGeneral_apply (h : IsRowsRows d) (prec : Option ContractPrecision) (sched : HostSchedule)
    (l : FVec Ideal (⟨2, ![R, K]⟩ : Shape) .f32) (r : FVec Ideal (⟨2, ![N, K]⟩ : Shape) .f32) (p : Fin R) (q : Fin N) :
    FloatOps.dotGeneral d prec sched l r (ix2 p q) = ∑ k : Fin K, l (ix2 p k) * r (ix2 q k) :=
  (Ideal.dotGeneral_apply d prec sched l r (ix2 p q)).trans (sum_contr h l r p q)

end Idealize.ShloMosaic.DotRowsRows
-- ==== Proof.LibRowSpread.lean ====
/-
  A vector spread over the rows of a matrix, read at an entry (general in the sizes and the element type).

  A vector `[n]` recast as the one-row matrix `[1, n]` keeps its entries (`asRow_apply`), and the one-row matrix
  broadcast to `[m, n]` has that row in every row (`spreadRows_apply`); together, the entry `(p, q)` of the
  spread vector is the vector's entry `q` (`spread_asRow_apply`). This is what adding a per-column bias to every row
  of a matrix prints in a kernel.
-/
import Idealize.ShloMosaic.Lib.ValueIdx
import Idealize.ShloMosaic.Lib.Pipeline.Value

namespace Cert.Lib.RowSpread

open Idealize.ShloMosaic Idealize.ShloMosaic.ValueIdx

variable {m n : ℕ} {α : Type}

/-- The vector as a one-row matrix: the entry `(0, q)` is the vector's entry `q`. -/
theorem asRow_apply (v : (⟨1, ![n]⟩ : Shape).Idx → α) (h : (⟨1, ![n]⟩ : Shape).ShapeCasts (⟨2, ![1, n]⟩ : Shape))
    (z : Fin 1) (q : Fin n) : shapeCast (⟨2, ![1, n]⟩ : Shape) v h (ix2 z q) = v (ix1 q) := by
  refine shapeCast_apply v h _ _ ?_
  rw [Shape.rowMajor_val_one, Shape.rowMajor_val_two]
  obtain rfl : z = 0 := Subsingleton.elim _ _
  show q.val = 0 * n + q.val
  rw [Nat.zero_mul, Nat.zero_add]

/-- The one-row matrix broadcast down `m` rows: the entry `(p, q)` is the row's entry `q`. -/
theorem spreadRows_apply (x : (⟨2, ![1, n]⟩ : Shape).Idx → α) (h : (⟨2, ![1, n]⟩ : Shape).Broadcasts (⟨2, ![m, n]⟩ : Shape))
    (p : Fin m) (q : Fin n) : broadcastTo (⟨2, ![m, n]⟩ : Shape) x h (ix2 p q) = x (ix2 (0 : Fin 1) q) := by
  refine broadcastTo_apply x h _ _ fun a => ?_
  match a with
  | ⟨0, _⟩ => exact (if_pos rfl).symm
  | ⟨1, _⟩ =>
    show q.val = if n = 1 then 0 else q.val
    by_cases hn : n = 1
    · rw [if_pos hn]; have := q.isLt; omega
    · rw [if_neg hn]

/-- The vector spread over the rows: the entry `(p, q)` is the vector's entry `q`. -/
theorem spread_asRow_apply (v : (⟨1, ![n]⟩ : Shape).Idx → α) (h : (⟨1, ![n]⟩ : Shape).ShapeCasts (⟨2, ![1, n]⟩ : Shape))
    (hb : (⟨2, ![1, n]⟩ : Shape).Broadcasts (⟨2, ![m, n]⟩ : Shape)) (p : Fin m) (q : Fin n) :
    broadcastTo (⟨2, ![m, n]⟩ : Shape) (shapeCast (⟨2, ![1, n]⟩ : Shape) v h) hb (ix2 p q) = v (ix1 q) :=
  (spreadRows_apply _ hb p q).trans (asRow_apply v h 0 q)

end Cert.Lib.RowSpread
-- ==== Proof.KBlocks0.lean ====
/-
  Region 0 of the kernel's program as one function of the arrays it is entered with: what its output array holds
  after the region is the reluLayer layer of the whole input arrays.

  The body at a grid point works on blocks of 5000 rows: it multiplies the block of neighbourhood means and the block
  of node features, row against row, with the two whole weight matrices, adds the two products and the bias row,
  and takes the positive part. Entry (p, q) of the result block reads only row p of each of the two row blocks, and
  row p of block t is row 5000·t + p of the array, so the block the point writes back is block t of the layer of the
  whole arrays; the ten blocks tile the 50000 rows, so the array ends holding that layer.
-/
import proofs.«133615_j36567351558183_1_alg».proof.Proof.Gen.KernelIdeal.Frame
import proofs.«133615_j36567351558183_1_alg».proof.Proof.Spec
import proofs.«133615_j36567351558183_1_alg».proof.Proof.LibDotRowsRows
import proofs.«133615_j36567351558183_1_alg».proof.Proof.LibRowSpread
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Hand.R0

open Cert.KernelIdeal Cert.KernelIdeal.Gen

/-! ## The body's arithmetic at an entry -/

theorem hz : (![0, 0] : Fin 2 → Nat) = fun _ => 0 := funext fun a => by fin_cases a <;> rfl

/-- Both products contract the second axis of both operands. -/
theorem rowsRows : DotRowsRows.IsRowsRows dot_S5000x128_S128x128_S5000x128_1_1_0_0_n_n := ⟨rfl, rfl, rfl, rfl, rfl, rfl⟩

/-- Entry (p, q) of what the body computes from its loaded blocks: the positive part of the affine part of the
    blocks, the bias read off the one row of its block. A change of float format is the identity here. -/
theorem pay_apply (x0 x1 : Vec Ideal S5000x128 .f32) (x2 x4 : Vec Ideal S128x128 .f32) (x3 : Vec Ideal S1x128 .f32)
    (p : Fin 5000) (q : Fin 128) :
    k0_pay1 (F := Ideal) x0 x1 x2 x4 x3 (ix2 p q)
      = max (Cert.Sage.lin x0 x1 x2 x4 (fun q => x3 (ix2 (0 : Fin 1) q)) p q) (Ideal.ofBits .f32 0x00000000#32) := by
  unfold k0_pay1
  simp only [shapeCast_self]
  show max ((FloatOps.matmul (F := Ideal) dot_S5000x128_S128x128_S5000x128_1_1_0_0_n_n none x0 x2 (constant (F := Ideal) S5000x128 .f32 0x00000000#32) (ix2 p q)
      + FloatOps.matmul (F := Ideal) dot_S5000x128_S128x128_S5000x128_1_1_0_0_n_n none x1 x4 (constant (F := Ideal) S5000x128 .f32 0x00000000#32) (ix2 p q))
      + broadcastTo S5000x128 x3 broadcasts_S1x128_S5000x128 (ix2 p q)) (Ideal.ofBits .f32 0x00000000#32) = _
  unfold Cert.Sage.lin
  exact congrArg₂ max (congrArg₂ (· + ·) (congrArg₂ (· + ·) (DotRowsRows.matmul_zero_apply rowsRows none x0 x2 p q)
    (DotRowsRows.matmul_zero_apply rowsRows none x1 x4 p q)) (Cert.Lib.RowSpread.spreadRows_apply x3 broadcasts_S1x128_S5000x128 p q)) rfl

/-- The one store of the body covers its buffer, so the buffer ends holding the stored value. -/
theorem out_eq (x0 x1 : Vec Ideal S5000x128 .f32) (x2 x4 : Vec Ideal S128x128 .f32) (x3 : Vec Ideal S1x128 .f32) :
    out0_5 (F := Ideal) x0 x1 x2 x3 x4 = k0_pay1 (F := Ideal) x0 x1 x2 x4 x3 := by
  unfold out0_5
  rw [View.canon_unit_zero hz]
  simp only [View.ld_unit_zero (S := S5000x128) hz, View.ld_unit_zero (S := S128x128) hz, View.ld_unit_zero (S := S1x128) hz]

/-- Entry (p, q) of the result block, when row p of each row block is row r of its array and the other blocks are
    their whole arrays, is entry (r, q) of the layer of the whole arrays. -/
theorem point_eq (A H : S50000x128.Idx → EReal) (WL WR : S128x128.Idx → EReal) (B : S1x128.Idx → EReal)
    (x0 x1 : Vec Ideal S5000x128 .f32) (x2 x4 : Vec Ideal S128x128 .f32) (x3 : Vec Ideal S1x128 .f32)
    (p : Fin 5000) (q : Fin 128) (r : Fin 50000)
    (h0 : ∀ k : Fin 128, x0 (ix2 p k) = A (ix2 r k)) (h1 : ∀ k : Fin 128, x1 (ix2 p k) = H (ix2 r k))
    (h2 : x2 = WL) (h4 : x4 = WR) (h3 : x3 = B) :
    out0_5 (F := Ideal) x0 x1 x2 x3 x4 (ix2 p q) = Cert.Sage.reluLayer A H WL WR (fun q => B (ix2 (0 : Fin 1) q)) (ix2 r q) := by
  rw [out_eq, pay_apply]
  subst h2 h4 h3
  exact congrArg (max · _) (Cert.Sage.lin_congr A H x0 x1 x2 x4 (fun q => x3 (ix2 (0 : Fin 1) q)) r p q h0 h1)

variable (V : (c : Dev nD) → (b : Ref sig .tc) → Buf (Elt Ideal) ((c : Thread nD τ).loc b))

/-! ## From the blocks to the array -/

/-- The layer of the whole arrays the region is entered with. -/
abbrev layer (c : Dev nD) : S50000x128.Idx → EReal :=
  Cert.Sage.reluLayer (V c (Pipeline.arrRef spec0 0)) (V c (Pipeline.arrRef spec0 1)) (V c (Pipeline.arrRef spec0 2)) (V c (Pipeline.arrRef spec0 4))
    (fun q => V c (Pipeline.arrRef spec0 3) (ix2 (0 : Fin 1) q))

/-- The block indices over the grid: the two row-blocked inputs and the output are at block (t, 0) at point t, the
    weight matrices and the bias row at block (0, 0) at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT t WRITES BACK is block t of the layer of the whole arrays: an element of a block sits in its array, on
    each axis, at the block index times the block's size plus its coordinate in the block. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  obtain ⟨e00, e01, e10, e11, e20, e21, e30, e31, e40, e41, e50, e51⟩ := idx_facts t
  have hN : grid0.N = 10 := N_0
  have ht : t.val < 10 := hN ▸ t.isLt
  funext j
  obtain ⟨p, q, rfl⟩ : ∃ (p : Fin 5000) (q : Fin 128), j = ix2 p q := ⟨j 0, j 1, eq_ix2 j⟩
  have hr : t.val * 5000 + p.val < 50000 := by have := p.isLt; omega
  refine (point_eq (V c (Pipeline.arrRef spec0 0)) (V c (Pipeline.arrRef spec0 1)) (V c (Pipeline.arrRef spec0 2)) (V c (Pipeline.arrRef spec0 4)) (V c (Pipeline.arrRef spec0 3))
    (iblk0 V c 0 t) (iblk0 V c 1 t) (iblk0 V c 2 t) (iblk0 V c 4 t) (iblk0 V c 3 t) p q ⟨t.val * 5000 + p.val, hr⟩ ?_ ?_ ?_ ?_ ?_).trans ?_
  · intro k
    show V c (Pipeline.arrRef spec0 0) (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k
    show V c (Pipeline.arrRef spec0 1) (((cfg0.win 1).blk t).view.emb (ix2 p k)) = _
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega
  · funext y
    show V c (Pipeline.arrRef spec0 2) (((cfg0.win 2).blk t).view.emb y) = _
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c (Pipeline.arrRef spec0 4) (((cfg0.win 4).blk t).view.emb y) = _
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show V c (Pipeline.arrRef spec0 3) (((cfg0.win 3).blk t).view.emb y) = _
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  · show layer V c _ = layer V c (((cfg0.win 5).blk t).view.emb (ix2 p q))
    refine congrArg _ (funext fun a => Fin.ext ?_)
    match a with
    | ⟨0, _⟩ => show t.val * 5000 + p.val = win0_5.index t (0 : Fin 2) * 5000 + 1 * p.val; omega
    | ⟨1, _⟩ => show q.val = win0_5.index t (1 : Fin 2) * 128 + 1 * q.val; omega

/-- An index of the array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every row of the array is in some point's block: row r in that of point r / 5000. -/
theorem cover (i : S50000x128.Idx) : ∃ t : Fin cfg0.N, (cfg0.win 5).flush t = true ∧ i ∈ ((cfg0.win 5).blk t).view.set := by
  have hN : grid0.N = 10 := N_0
  have hi0 : (i 0).val < 50000 := (i 0).isLt
  have hi1 : (i 1).val < 128 := (i 1).isLt
  refine ⟨⟨(i 0).val / 5000, by rw [show cfg0.N = 10 from hN]; omega⟩, flush0_5 _, ?_⟩
  rw [mem_blk]
  obtain ⟨-, -, -, -, -, -, -, -, -, -, e50, e51⟩ := idx_facts ⟨(i 0).val / 5000, by rw [show cfg0.N = 10 from hN]; omega⟩
  intro a
  match a with
  | ⟨0, _⟩ =>
    show win0_5.index _ (0 : Fin 2) * 5000 ≤ (i 0).val ∧ (i 0).val < win0_5.index _ (0 : Fin 2) * 5000 + 5000
    rw [e50]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e51]; omega

/-- After region 0 its output array holds the reluLayer layer of the arrays the region was entered with. -/
theorem final (c : Dev nD) : (dat0 V c).arrAt 5 cfg0.N
    = Cert.Sage.reluLayer (V c (Pipeline.arrRef spec0 0)) (V c (Pipeline.arrRef spec0 1)) (V c (Pipeline.arrRef spec0 2)) (V c (Pipeline.arrRef spec0 4))
        (fun q => V c (Pipeline.arrRef spec0 3) (ix2 (0 : Fin 1) q)) :=
  (dat0 V c).arrAt_eq_of_cover 5 (layer V c) (fun t _ => flushed_eq V c t) cover

end Cert.KernelIdeal.Hand.R0

end
-- ==== Proof.LibERealArith.lean ====
/-
  Extended-real arithmetic on REAL inputs, moved into ℝ.

  At the ideal reading every float is an extended real and every float operation is the exact operation on
  [-∞, +∞]. When every operand is (the coercion of) a real number, each such operation answers the coercion of
  the corresponding real operation; the lemmas below say so, operation by operation, with the extended-real
  form on the LEFT, so that rewriting with them pushes a whole expression under one coercion, where `ring`,
  `field_simp` and the `Finset` algebra of ℝ apply. The float literals the two programs spell are evaluated
  here once, as real numbers.
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Tactic.NormNum
import Mathlib.Tactic.Ring
import Mathlib.Tactic.Linarith

noncomputable section

namespace Cert.Lib.ERealArith

open Idealize.ShloMosaic
open scoped BigOperators

/-! ### Sums, products, differences, maxima of coercions -/

/-- A finite sum of coercions is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- `sum_coe` over a whole finite type. -/
theorem univ_sum_coe {ι : Type*} [Fintype ι] (f : ι → ℝ) :
    (∑ i, ((f i : ℝ) : EReal)) = ((∑ i, f i : ℝ) : EReal) := sum_coe _ f

/-- A finite sum whose every term is known to be a coercion is the coercion of the real sum. -/
theorem sum_eq_coe {ι : Type*} (s : Finset ι) (g : ι → EReal) (f : ι → ℝ) (h : ∀ i ∈ s, g i = ((f i : ℝ) : EReal)) :
    (∑ i ∈ s, g i) = ((∑ i ∈ s, f i : ℝ) : EReal) := by
  rw [Finset.sum_congr rfl h, sum_coe]

/-- The sum of two coercions. -/
theorem add_coe (a b : ℝ) : (a : EReal) + (b : EReal) = ((a + b : ℝ) : EReal) := (EReal.coe_add a b).symm

/-- The difference of two coercions. -/
theorem sub_coe (a b : ℝ) : (a : EReal) - (b : EReal) = ((a - b : ℝ) : EReal) := (EReal.coe_sub a b).symm

/-- The product of two coercions. -/
theorem mul_coe (a b : ℝ) : (a : EReal) * (b : EReal) = ((a * b : ℝ) : EReal) := (EReal.coe_mul a b).symm

/-- The negative of a coercion. -/
theorem neg_coe (a : ℝ) : -(a : EReal) = ((-a : ℝ) : EReal) := (EReal.coe_neg a).symm

/-- The maximum of two coercions. -/
theorem max_coe (a b : ℝ) : max (a : EReal) (b : EReal) = ((max a b : ℝ) : EReal) := (EReal.coe_strictMono.monotone.map_max (a := a) (b := b)).symm

/-- The minimum of two coercions. -/
theorem min_coe (a b : ℝ) : min (a : EReal) (b : EReal) = ((min a b : ℝ) : EReal) := (EReal.coe_strictMono.monotone.map_min (a := a) (b := b)).symm

/-- The extended zero is the coercion of the real zero. -/
theorem zero_eq_coe : (0 : EReal) = ((0 : ℝ) : EReal) := EReal.coe_zero.symm
/-- The extended one is the coercion of the real one. -/
theorem one_eq_coe : (1 : EReal) = ((1 : ℝ) : EReal) := EReal.coe_one.symm

/-- A coercion is not `+∞`. -/
theorem coe_ne_top' (a : ℝ) : (a : EReal) ≠ ⊤ := EReal.coe_ne_top a
/-- A coercion is not `-∞`. -/
theorem coe_ne_bot' (a : ℝ) : (a : EReal) ≠ ⊥ := EReal.coe_ne_bot a

/-! ### Quotient and the square roots -/

/-- The quotient of two coercions by a nonzero divisor is the coercion of the real quotient. -/
theorem div_coe {b : ℝ} (hb : b ≠ 0) (a : ℝ) : Ideal.div (a : EReal) (b : EReal) = ((a / b : ℝ) : EReal) := by
  rw [Ideal.div_coe hb, ← EReal.coe_mul, mul_one_div]

/-- The reciprocal square root of a positive real. -/
theorem rsqrt_coe {r : ℝ} (hr : 0 < r) : Ideal.rsqrt (r : EReal) = (((Real.sqrt r)⁻¹ : ℝ) : EReal) := by
  rw [Ideal.rsqrt_coe, if_neg (not_lt.mpr hr.le), if_neg hr.ne']

/-- The square root of a nonnegative real. -/
theorem sqrt_coe {r : ℝ} (hr : 0 ≤ r) : Ideal.sqrt (r : EReal) = ((Real.sqrt r : ℝ) : EReal) := by
  rw [Ideal.sqrt_coe, if_neg (not_lt.mpr hr)]

/-- A real square root is nonnegative. -/
theorem sqrt_nonneg' (r : ℝ) : 0 ≤ Real.sqrt r := Real.sqrt_nonneg r

/-- The real square root of a positive real is positive. -/
theorem sqrt_pos' {r : ℝ} (hr : 0 < r) : 0 < Real.sqrt r := Real.sqrt_pos.mpr hr
/-- The real square root of a positive real is nonzero. -/
theorem sqrt_ne_zero'' {r : ℝ} (hr : 0 < r) : Real.sqrt r ≠ 0 := (Real.sqrt_pos.mpr hr).ne'

/-! ### The same, spelled with the float operations at the ideal reading -/

section FloatOpsForms
variable {φ : FTy}

/-- `addf` of two reals. -/
theorem addf_coe (a b : ℝ) : FloatOps.addf (F := Ideal) (φ := φ) ((a : ℝ) : EReal) ((b : ℝ) : EReal) = ((a + b : ℝ) : EReal) :=
  add_coe a b

/-- `subf` of two reals. -/
theorem subf_coe (a b : ℝ) : FloatOps.subf (F := Ideal) (φ := φ) ((a : ℝ) : EReal) ((b : ℝ) : EReal) = ((a - b : ℝ) : EReal) :=
  sub_coe a b

/-- `mulf` of two reals. -/
theorem mulf_coe (a b : ℝ) : FloatOps.mulf (F := Ideal) (φ := φ) ((a : ℝ) : EReal) ((b : ℝ) : EReal) = ((a * b : ℝ) : EReal) :=
  mul_coe a b

/-- `maximumf` of two reals. -/
theorem maximumf_coe (a b : ℝ) :
    FloatOps.maximumf (F := Ideal) (φ := φ) ((a : ℝ) : EReal) ((b : ℝ) : EReal) = ((max a b : ℝ) : EReal) :=
  max_coe a b

/-- `divf` of two reals, the divisor nonzero. -/
theorem divf_coe {b : ℝ} (hb : b ≠ 0) (a : ℝ) :
    FloatOps.divf (F := Ideal) (φ := φ) ((a : ℝ) : EReal) ((b : ℝ) : EReal) = ((a / b : ℝ) : EReal) :=
  div_coe hb a

/-- The host's quotient of two reals, the divisor nonzero. -/
theorem hostDivf_coe {b : ℝ} (hb : b ≠ 0) (a : ℝ) :
    FloatOps.hostDivf (F := Ideal) (φ := φ) ((a : ℝ) : EReal) ((b : ℝ) : EReal) = ((a / b : ℝ) : EReal) :=
  div_coe hb a

/-- The kernel's reciprocal square root of a positive real. -/
theorem rsqrtf_coe {r : ℝ} (hr : 0 < r) :
    FloatOps.rsqrt (F := Ideal) (φ := φ) ((r : ℝ) : EReal) = (((Real.sqrt r)⁻¹ : ℝ) : EReal) := rsqrt_coe hr

/-- The host's reciprocal square root of a positive real. -/
theorem hostRsqrt_coe {r : ℝ} (hr : 0 < r) :
    FloatOps.hostUnary (F := Ideal) (φ := φ) .rsqrt ((r : ℝ) : EReal) = (((Real.sqrt r)⁻¹ : ℝ) : EReal) := rsqrt_coe hr

/-- The kernel's square root of a nonnegative real. -/
theorem sqrtf_coe {r : ℝ} (hr : 0 ≤ r) :
    FloatOps.sqrt (F := Ideal) (φ := φ) ((r : ℝ) : EReal) = ((Real.sqrt r : ℝ) : EReal) := sqrt_coe hr

/-- The host's square root of a nonnegative real. -/
theorem hostSqrt_coe {r : ℝ} (hr : 0 ≤ r) :
    FloatOps.hostUnary (F := Ideal) (φ := φ) .sqrt ((r : ℝ) : EReal) = ((Real.sqrt r : ℝ) : EReal) := sqrt_coe hr

/-- A signed integer read as a float is the coercion of that integer. -/
theorem sitofp_coe {w : Nat} (b : BitVec w) :
    FloatOps.sitofp (F := Ideal) φ b = (((b.toInt : ℤ) : ℝ) : EReal) := rfl

end FloatOpsForms

/-! ### Comparisons of coercions -/

/-- Strict order between coercions is the real one. -/
theorem coe_lt_coe {a b : ℝ} : (a : EReal) < (b : EReal) ↔ a < b := EReal.coe_lt_coe_iff

/-- Order between coercions is the real one. -/
theorem coe_le_coe {a b : ℝ} : (a : EReal) ≤ (b : EReal) ↔ a ≤ b := EReal.coe_le_coe_iff

/-- Equality between coercions is the real one. -/
theorem coe_eq_coe {a b : ℝ} : (a : EReal) = (b : EReal) ↔ a = b := EReal.coe_eq_coe_iff

/-- The float comparison "greater than" of two reals answers the real comparison. -/
theorem cmp_ogt_coe (a b : ℝ) : Ideal.cmp .ogt (a : EReal) (b : EReal) = BitVec.ofBool (decide (b < a)) := by
  simp only [Ideal.cmp, EReal.coe_lt_coe_iff]

/-- "Greater than" holds between reals in that order: the comparison's bit is set. -/
theorem cmp_ogt_coe_of_lt {a b : ℝ} (h : b < a) : Ideal.cmp .ogt (a : EReal) (b : EReal) = 1#1 := by
  rw [cmp_ogt_coe, decide_eq_true h]; rfl

/-- The same through the float operation's name. -/
theorem cmpf_ogt_coe_of_lt {φ : FTy} {a b : ℝ} (h : b < a) :
    FloatOps.cmpf (F := Ideal) (φ := φ) .ogt ((a : ℝ) : EReal) ((b : ℝ) : EReal) = 1#1 :=
  cmp_ogt_coe_of_lt h

/-! ### The float literals of the two programs, as reals -/

/-- `0.0`. -/
theorem ofBits_zero : Ideal.ofBits .f32 0x00000000#32 = ((0 : ℝ) : EReal) := by
  rw [Ideal.ofBits_zero_f32, EReal.coe_zero]

/-- `1.0`. -/
theorem ofBits_one : Ideal.ofBits .f32 0x3F800000#32 = ((1 : ℝ) : EReal) := by
  simp [Ideal.ofBits, Ideal.ieee, -EReal.coe_mul]; norm_num

/-- `100000.0`. -/
theorem ofBits_100000 : Ideal.ofBits .f32 0x47C35000#32 = ((100000 : ℝ) : EReal) := by
  simp [Ideal.ofBits, Ideal.ieee, -EReal.coe_mul]; norm_num

/-- `2000.0`. -/
theorem ofBits_2000 : Ideal.ofBits .f32 0x44FA0000#32 = ((2000 : ℝ) : EReal) := by
  simp [Ideal.ofBits, Ideal.ieee, -EReal.coe_mul]; norm_num

/-- `5000.0`. -/
theorem ofBits_5000 : Ideal.ofBits .f32 0x459C4000#32 = ((5000 : ℝ) : EReal) := by
  simp [Ideal.ofBits, Ideal.ieee, -EReal.coe_mul]; norm_num

/-- `3000.0`. -/
theorem ofBits_3000 : Ideal.ofBits .f32 0x453B8000#32 = ((3000 : ℝ) : EReal) := by
  simp [Ideal.ofBits, Ideal.ieee, -EReal.coe_mul]; norm_num

/-- The quiet-NaN pattern denotes the junk value `⊥`. -/
theorem ofBits_nan : Ideal.ofBits .f32 0x7FC00000#32 = ⊥ := by
  simp [Ideal.ofBits, Ideal.ieee]

/-- The single-precision number nearest `10⁻⁵`: `10995116 · 2⁻⁴⁰`. -/
def eps5 : ℝ := 10995116 / 2 ^ 40

/-- The single-precision number nearest `10⁻¹²`: `9223372 · 2⁻⁶³`. -/
def eps12 : ℝ := 9223372 / 2 ^ 63

/-- `eps5` is positive. -/
theorem eps5_pos : 0 < eps5 := by unfold eps5; positivity

/-- `eps12` is positive. -/
theorem eps12_pos : 0 < eps12 := by unfold eps12; positivity

/-- The literal `1e-5`. -/
theorem ofBits_eps5 : Ideal.ofBits .f32 0x3727C5AC#32 = ((eps5 : ℝ) : EReal) := by
  simp [Ideal.ofBits, Ideal.ieee, -EReal.coe_mul, eps5]; norm_num

/-- The literal `1e-12`. -/
theorem ofBits_eps12 : Ideal.ofBits .f32 0x2B8CBCCC#32 = ((eps12 : ℝ) : EReal) := by
  simp [Ideal.ofBits, Ideal.ieee, -EReal.coe_mul, eps12]; norm_num

end Cert.Lib.ERealArith

end
-- ==== Proof.KBlocks1.lean ====
/-
  Region 1 of the kernel's program as one function of the arrays it is entered with: what its output array holds
  after the region is the eluLayer layer of the whole input arrays.

  The body at a grid point works on blocks of 5000 rows: it multiplies the block of neighbourhood means and the block
  of node features, row against row, with the two whole weight matrices, adds the two products and the bias row,
  and applies the exponential linear unit: the value where it is greater than zero, its exponential less one
  elsewhere. Entry (p, q) of the result block reads only row p of each of the two row blocks, and row p of block t is
  row 5000·t + p of the array, so the block the point writes back is block t of the layer of the whole arrays; the
  ten blocks tile the 50000 rows, so the array ends holding that layer.
-/
import proofs.«133615_j36567351558183_1_alg».proof.Proof.Gen.KernelIdeal.Frame
import proofs.«133615_j36567351558183_1_alg».proof.Proof.Spec
import proofs.«133615_j36567351558183_1_alg».proof.Proof.LibDotRowsRows
import proofs.«133615_j36567351558183_1_alg».proof.Proof.LibRowSpread
import proofs.«133615_j36567351558183_1_alg».proof.Proof.LibERealArith
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Hand.R1

open Cert.KernelIdeal Cert.KernelIdeal.Gen

/-! ## The body's arithmetic at an entry -/

theorem hz : (![0, 0] : Fin 2 → Nat) = fun _ => 0 := funext fun a => by fin_cases a <;> rfl

/-- Both products contract the second axis of both operands. -/
theorem rowsRows : DotRowsRows.IsRowsRows dot_S5000x128_S128x128_S5000x128_1_1_0_0_n_n := ⟨rfl, rfl, rfl, rfl, rfl, rfl⟩

/-- The body's last four operations on a block, at an entry: the exponential linear unit of the entry. The literal
    subtracted from the exponential is the number one. -/
theorem elu_apply (v : FVec Ideal S5000x128 .f32) (j : S5000x128.Idx) :
    select (cmpf .ogt v (broadcast S5000x128 (Scalar.ofBits (F := Ideal) .f32 0x00000000#32))) v
        (subf (exp v) (broadcast S5000x128 (Scalar.ofBits (F := Ideal) .f32 0x3F800000#32))) j
      = Cert.Sage.eluAt (v j) := by
  unfold Cert.Sage.eluAt
  show Scalar.select (Ideal.cmp .ogt (v j) (Ideal.ofBits .f32 0x00000000#32)) (v j) (Ideal.exp (v j) - Ideal.ofBits .f32 0x3F800000#32) = _
  rw [Cert.Lib.ERealArith.ofBits_one, EReal.coe_one]

/-- Entry (p, q) of what the body computes from its loaded blocks: the exponential linear unit of the affine part of
    the blocks, the bias read off the one row of its block. A change of float format is the identity here. -/
theorem pay_apply (x0 x1 : Vec Ideal S5000x128 .f32) (x2 x4 : Vec Ideal S128x128 .f32) (x3 : Vec Ideal S1x128 .f32)
    (p : Fin 5000) (q : Fin 128) :
    k1_pay1 (F := Ideal) x0 x1 x2 x4 x3 (ix2 p q)
      = Cert.Sage.eluAt (Cert.Sage.lin x0 x1 x2 x4 (fun q => x3 (ix2 (0 : Fin 1) q)) p q) := by
  unfold k1_pay1
  simp only [shapeCast_self]
  refine (elu_apply _ (ix2 p q)).trans (congrArg Cert.Sage.eluAt ?_)
  show (FloatOps.matmul (F := Ideal) dot_S5000x128_S128x128_S5000x128_1_1_0_0_n_n none x0 x2 (constant (F := Ideal) S5000x128 .f32 0x00000000#32) (ix2 p q)
      + FloatOps.matmul (F := Ideal) dot_S5000x128_S128x128_S5000x128_1_1_0_0_n_n none x1 x4 (constant (F := Ideal) S5000x128 .f32 0x00000000#32) (ix2 p q))
      + broadcastTo S5000x128 x3 broadcasts_S1x128_S5000x128 (ix2 p q) = _
  unfold Cert.Sage.lin
  exact congrArg₂ (· + ·) (congrArg₂ (· + ·) (DotRowsRows.matmul_zero_apply rowsRows none x0 x2 p q)
    (DotRowsRows.matmul_zero_apply rowsRows none x1 x4 p q)) (Cert.Lib.RowSpread.spreadRows_apply x3 broadcasts_S1x128_S5000x128 p q)

/-- The one store of the body covers its buffer, so the buffer ends holding the stored value. -/
theorem out_eq (x0 x1 : Vec Ideal S5000x128 .f32) (x2 x4 : Vec Ideal S128x128 .f32) (x3 : Vec Ideal S1x128 .f32) :
    out1_5 (F := Ideal) x0 x1 x2 x3 x4 = k1_pay1 (F := Ideal) x0 x1 x2 x4 x3 := by
  unfold out1_5
  rw [View.canon_unit_zero hz]
  simp only [View.ld_unit_zero (S := S5000x128) hz, View.ld_unit_zero (S := S128x128) hz, View.ld_unit_zero (S := S1x128) hz]

/-- Entry (p, q) of the result block, when row p of each row block is row r of its array and the other blocks are
    their whole arrays, is entry (r, q) of the layer of the whole arrays. -/
theorem point_eq (A H : S50000x128.Idx → EReal) (WL WR : S128x128.Idx → EReal) (B : S1x128.Idx → EReal)
    (x0 x1 : Vec Ideal S5000x128 .f32) (x2 x4 : Vec Ideal S128x128 .f32) (x3 : Vec Ideal S1x128 .f32)
    (p : Fin 5000) (q : Fin 128) (r : Fin 50000)
    (h0 : ∀ k : Fin 128, x0 (ix2 p k) = A (ix2 r k)) (h1 : ∀ k : Fin 128, x1 (ix2 p k) = H (ix2 r k))
    (h2 : x2 = WL) (h4 : x4 = WR) (h3 : x3 = B) :
    out1_5 (F := Ideal) x0 x1 x2 x3 x4 (ix2 p q) = Cert.Sage.eluLayer A H WL WR (fun q => B (ix2 (0 : Fin 1) q)) (ix2 r q) := by
  rw [out_eq, pay_apply]
  subst h2 h4 h3
  exact congrArg Cert.Sage.eluAt (Cert.Sage.lin_congr A H x0 x1 x2 x4 (fun q => x3 (ix2 (0 : Fin 1) q)) r p q h0 h1)

variable (V : (c : Dev nD) → (b : Ref sig .tc) → Buf (Elt Ideal) ((c : Thread nD τ).loc b))

/-! ## From the blocks to the array -/

/-- The layer of the whole arrays the region is entered with. -/
abbrev layer (c : Dev nD) : S50000x128.Idx → EReal :=
  Cert.Sage.eluLayer (V c (Pipeline.arrRef spec1 0)) (V c (Pipeline.arrRef spec1 1)) (V c (Pipeline.arrRef spec1 2)) (V c (Pipeline.arrRef spec1 4))
    (fun q => V c (Pipeline.arrRef spec1 3) (ix2 (0 : Fin 1) q))

/-- The block indices over the grid: the two row-blocked inputs and the output are at block (t, 0) at point t, the
    weight matrices and the bias row at block (0, 0) at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT t WRITES BACK is block t of the layer of the whole arrays: an element of a block sits in its array, on
    each axis, at the block index times the block's size plus its coordinate in the block. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  obtain ⟨e00, e01, e10, e11, e20, e21, e30, e31, e40, e41, e50, e51⟩ := idx_facts t
  have hN : grid1.N = 10 := N_1
  have ht : t.val < 10 := hN ▸ t.isLt
  funext j
  obtain ⟨p, q, rfl⟩ : ∃ (p : Fin 5000) (q : Fin 128), j = ix2 p q := ⟨j 0, j 1, eq_ix2 j⟩
  have hr : t.val * 5000 + p.val < 50000 := by have := p.isLt; omega
  refine (point_eq (V c (Pipeline.arrRef spec1 0)) (V c (Pipeline.arrRef spec1 1)) (V c (Pipeline.arrRef spec1 2)) (V c (Pipeline.arrRef spec1 4)) (V c (Pipeline.arrRef spec1 3))
    (iblk1 V c 0 t) (iblk1 V c 1 t) (iblk1 V c 2 t) (iblk1 V c 4 t) (iblk1 V c 3 t) p q ⟨t.val * 5000 + p.val, hr⟩ ?_ ?_ ?_ ?_ ?_).trans ?_
  · intro k
    show V c (Pipeline.arrRef spec1 0) (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    show V c (Pipeline.arrRef spec1 1) (((cfg1.win 1).blk t).view.emb (ix2 p k)) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · funext y
    show V c (Pipeline.arrRef spec1 2) (((cfg1.win 2).blk t).view.emb y) = _
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c (Pipeline.arrRef spec1 4) (((cfg1.win 4).blk t).view.emb y) = _
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  · funext y
    show V c (Pipeline.arrRef spec1 3) (((cfg1.win 3).blk t).view.emb y) = _
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · show layer V c _ = layer V c (((cfg1.win 5).blk t).view.emb (ix2 p q))
    refine congrArg _ (funext fun a => Fin.ext ?_)
    match a with
    | ⟨0, _⟩ => show t.val * 5000 + p.val = win1_5.index t (0 : Fin 2) * 5000 + 1 * p.val; omega
    | ⟨1, _⟩ => show q.val = win1_5.index t (1 : Fin 2) * 128 + 1 * q.val; omega

/-- An index of the array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- Every row of the array is in some point's block: row r in that of point r / 5000. -/
theorem cover (i : S50000x128.Idx) : ∃ t : Fin cfg1.N, (cfg1.win 5).flush t = true ∧ i ∈ ((cfg1.win 5).blk t).view.set := by
  have hN : grid1.N = 10 := N_1
  have hi0 : (i 0).val < 50000 := (i 0).isLt
  have hi1 : (i 1).val < 128 := (i 1).isLt
  refine ⟨⟨(i 0).val / 5000, by rw [show cfg1.N = 10 from hN]; omega⟩, flush1_5 _, ?_⟩
  rw [mem_blk]
  obtain ⟨-, -, -, -, -, -, -, -, -, -, e50, e51⟩ := idx_facts ⟨(i 0).val / 5000, by rw [show cfg1.N = 10 from hN]; omega⟩
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e51]; omega

/-- After region 1 its output array holds the eluLayer layer of the arrays the region was entered with. -/
theorem final (c : Dev nD) : (dat1 V c).arrAt 5 cfg1.N
    = Cert.Sage.eluLayer (V c (Pipeline.arrRef spec1 0)) (V c (Pipeline.arrRef spec1 1)) (V c (Pipeline.arrRef spec1 2)) (V c (Pipeline.arrRef spec1 4))
        (fun q => V c (Pipeline.arrRef spec1 3) (ix2 (0 : Fin 1) q)) :=
  (dat1 V c).arrAt_eq_of_cover 5 (layer V c) (fun t _ => flushed_eq V c t) cover

end Cert.KernelIdeal.Hand.R1

end
-- ==== Proof.LibRowReduce.lean ====
/-
  A reduction over the columns of a matrix, read at a row (general in the sizes).

  A matrix `[R, N]` reduced over its second axis to a vector `[R]`, at the ideal values. The MAXIMUM — a kernel's
  multi-reduction from its accumulator's value, a host's reduce with a maximum body from its initial value — is at
  row `p` the fold of `max` over the row's `N` entries. The SUM — a kernel's multi-reduction, a host's add-reduce —
  is at row `p` the sum of the row's `N` entries (the host's, its initial value plus that sum). In each the row's
  entries are named by their coordinates `(p, k)`: the source index that lies over row `p` with `k` on the reduced
  axis is `(p, k)` (`lift_eq`), so a kernel's and a host's reduction of the same rows are one expression.
-/
import Idealize.ShloMosaic.Lib.ValueIdx
import Idealize.ShloMosaic.PureOps.Ideal.Laws

open scoped BigOperators

noncomputable section

namespace Idealize.ShloMosaic.RowReduce

open Idealize.ShloMosaic Idealize.ShloMosaic.ValueIdx

variable {R N : ℕ} {φ : FTy}

/-- Over row `p`, with `k` on the reduced axis: the entry `(p, k)`. -/
theorem lift_eq (h : (⟨2, ![R, N]⟩ : Shape).Reduces [1] (⟨1, ![R]⟩ : Shape)) (p : Fin R) (k : Fin N) :
    h.lift (ix1 p) k = ix2 p k := by
  funext c; apply Fin.ext
  match c with
  | ⟨0, _⟩ => rfl
  | ⟨1, _⟩ => rfl

/-- A kernel's maximum over the columns, at row `p`: the fold of `max` from the accumulator's value over the row. -/
theorem multiReduction_max_row (src : FVec Ideal (⟨2, ![R, N]⟩ : Shape) φ) (acc : BitVec φ.bits)
    (h : (⟨2, ![R, N]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin N)).fold max (Ideal.ofBits φ acc) (fun k => src (ix2 p k)) := by
  refine (Ideal.multiReduction_maximumf_single src acc h hφ hacc (ix1 p)).trans ?_
  exact congrArg (fun f => (Finset.univ : Finset (Fin N)).fold max (Ideal.ofBits φ acc) f)
    (funext fun k => congrArg src (lift_eq h p k))

/-- A kernel's sum over the columns, at row `p`: the sum of the row. -/
theorem multiReduction_add_row (src : FVec Ideal (⟨2, ![R, N]⟩ : Shape) φ) (acc : BitVec φ.bits)
    (h : (⟨2, ![R, N]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin N, src (ix2 p k) := by
  refine (Ideal.multiReduction_add_single src acc h hφ hacc (ix1 p)).trans ?_
  exact Finset.sum_congr rfl fun k _ => congrArg src (lift_eq h p k)

/-- A host's reduce with a maximum body over the columns, at row `p`: the fold of `max` from its initial value over the row. -/
theorem hostReduce_max_row {u : Shape} (x : FVec Ideal (⟨2, ![R, N]⟩ : Shape) φ) (init : u.Idx → Ideal φ)
    (h' : (⟨2, ![R, N]⟩ : Shape).ReducesTo [1] (⟨1, ![R]⟩ : Shape))
    (h : (⟨2, ![R, N]⟩ : Shape).Reduces [1] (⟨1, ![R]⟩ : Shape)) (hu : 0 < u.numel) (p : Fin R) :
    Host.reduce (FloatOps.maximumf (F := Ideal) (φ := φ)) x init h' hu (ix1 p)
      = (Finset.univ : Finset (Fin N)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin N)).fold max (init (Shape.Idx.first hu)) f)
    (funext fun k => congrArg x (lift_eq h p k))

/-- A host's add-reduce over the columns, at row `p`: its initial value plus the sum of the row. -/
theorem hostReduceAdd_row {u : Shape} (x : FVec Ideal (⟨2, ![R, N]⟩ : Shape) φ) (init : u.Idx → Ideal φ)
    (h' : (⟨2, ![R, N]⟩ : Shape).ReducesTo [1] (⟨1, ![R]⟩ : Shape))
    (h : (⟨2, ![R, N]⟩ : Shape).Reduces [1] (⟨1, ![R]⟩ : Shape)) (hu : 0 < u.numel) (p : Fin R) :
    Host.reduceAdd x init h' hu (ix1 p) = init (Shape.Idx.first hu) + ∑ k : Fin N, x (ix2 p k) := by
  simp only [Host.reduceAdd, Ideal.hostReduceAdd_def]
  rw [Ideal.hostReduceAdd_single h' h]
  exact congrArg (_ + ·) (Finset.sum_congr rfl fun k _ => congrArg x (lift_eq h p k))

end Idealize.ShloMosaic.RowReduce

end
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.KBlocks2.lean ====
/-
  Region 2 of the kernel's program as one function of the arrays it is entered with: what its output array holds
  after the region is the logSoftmaxLayer layer of the whole input arrays.

  The body, on one block of 5000 rows: the two row blocks against the transposed weight arrays, summed, plus the bias
  row on every row (the affine part); then, row by row, the entry minus the row's maximum, minus the logarithm of the
  row's sum of exponentials of those differences. Read at an entry (p, q) this is the logarithm of the softmax of row p
  of the affine part at q, and the affine part at (p, j) reads the row blocks only along row p. Point t of the ten
  holds rows 5000·t … 5000·t + 4999 of the two node arrays and the whole weight and bias arrays, so what it writes
  back is rows 5000·t … 5000·t + 4999 of the layer of the whole arrays; row r of the output lies in the block of the
  point r / 5000, so the ten blocks fill the output array.
-/
import proofs.«133615_j36567351558183_1_alg».proof.Proof.Gen.KernelIdeal.Frame
import proofs.«133615_j36567351558183_1_alg».proof.Proof.Spec
import proofs.«133615_j36567351558183_1_alg».proof.Proof.LibDotRowsRows
import proofs.«133615_j36567351558183_1_alg».proof.Proof.LibRowReduce
import proofs.«133615_j36567351558183_1_alg».proof.Proof.LibColumn
import proofs.«133615_j36567351558183_1_alg».proof.Proof.LibRowSpread
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Hand.R2

open Cert.KernelIdeal Cert.KernelIdeal.Gen

variable (V : (c : Dev nD) → (b : Ref sig .tc) → Buf (Elt Ideal) ((c : Thread nD τ).loc b))

/-! ## The body on one block, read at an entry -/

/-- The affine part as the body builds it: the two row blocks against the transposed weights, each into a zero
    accumulator, their sum, plus the bias row spread over the rows. -/
def affine (x0 x1 : Vec Ideal S5000x128 .f32) (x2 x4 : Vec Ideal S8x128 .f32) (x3 : Vec Ideal S1x8 .f32) :
    FVec Ideal S5000x8 .f32 :=
  addf
    (addf
      (matmul dot_S5000x128_S8x128_S5000x8_1_1_0_0_n_n none
        (truncf .bf16 (shapeCast S5000x128 x0 shapeCasts_S5000x128_S5000x128) bitsLt_bf16_f32)
        (truncf .bf16 x2 bitsLt_bf16_f32) (constant S5000x8 .f32 0x00000000#32))
      (matmul dot_S5000x128_S8x128_S5000x8_1_1_0_0_n_n none
        (truncf .bf16 (shapeCast S5000x128 x1 shapeCasts_S5000x128_S5000x128) bitsLt_bf16_f32)
        (truncf .bf16 x4 bitsLt_bf16_f32) (constant S5000x8 .f32 0x00000000#32)))
    (broadcastTo S5000x8 (shapeCast S1x8 x3 shapeCasts_S1x8_S1x8) broadcasts_S1x8_S5000x8)

/-- The maximum of each row of a block, from -∞, kept as a column and spread over the row. -/
def rowMaxSpread (z : FVec Ideal S5000x8 .f32) : FVec Ideal S5000x8 .f32 :=
  broadcastTo S5000x8
    (shapeCast S5000x1 (multiReduction .maximumf [1] S5000 z 0xFF800000#32 reduces_S5000x8_S5000 (.inl rfl) rfl)
      shapeCasts_S5000_S5000x1) broadcasts_S5000x1_S5000x8

/-- The logarithm of each row's sum, kept as a column and spread over the row. -/
def logRowSumSpread (e : FVec Ideal S5000x8 .f32) : FVec Ideal S5000x8 .f32 :=
  broadcastTo S5000x8
    (log (shapeCast S5000x1 (multiReduction .add [1] S5000 e 0x00000000#32 reduces_S5000x8_S5000 (.inl rfl) rfl)
      shapeCasts_S5000_S5000x1)) broadcasts_S5000x1_S5000x8

/-- What the body does with the affine part: each entry minus its row's maximum, minus the logarithm of the row's sum
    of the exponentials of those differences. -/
def logSoftmaxRows (z : FVec Ideal S5000x8 .f32) : FVec Ideal S5000x8 .f32 :=
  subf (subf z (rowMaxSpread z)) (logRowSumSpread (exp (subf z (rowMaxSpread z))))

/-- The body's payload is the row-wise logarithm of the softmax of the affine part. -/
theorem payload_split (x0 x1 : Vec Ideal S5000x128 .f32) (x2 x4 : Vec Ideal S8x128 .f32) (x3 : Vec Ideal S1x8 .f32) :
    k2_pay1 x0 x1 x2 x4 x3 = logSoftmaxRows (affine x0 x1 x2 x4 x3) := rfl

/-- Both products contract the second axis of both operands: rows against rows. -/
theorem rowsRows : DotRowsRows.IsRowsRows dot_S5000x128_S8x128_S5000x8_1_1_0_0_n_n :=
  ⟨rfl, rfl, rfl, rfl, rfl, rfl⟩

/-- The affine part at (p, q): row p of each row block against row q of its weight array, plus the bias at q. -/
theorem affine_apply (x0 x1 : Vec Ideal S5000x128 .f32) (x2 x4 : Vec Ideal S8x128 .f32) (x3 : Vec Ideal S1x8 .f32)
    (p : Fin 5000) (q : Fin 8) :
    affine x0 x1 x2 x4 x3 (ix2 p q) = Cert.Sage.lin x0 x1 x2 x4 (fun q => x3 (ix2 (0 : Fin 1) q)) p q := by
  have e1 := DotRowsRows.matmul_zero_apply rowsRows none (x0 : FVec Ideal S5000x128 .f32) (x2 : FVec Ideal S8x128 .f32) p q
  have e2 := DotRowsRows.matmul_zero_apply rowsRows none (x1 : FVec Ideal S5000x128 .f32) (x4 : FVec Ideal S8x128 .f32) p q
  have e3 := Cert.Lib.RowSpread.spreadRows_apply (x3 : FVec Ideal S1x8 .f32) broadcasts_S1x8_S5000x8 p q
  unfold affine Cert.Sage.lin
  simp only [shapeCast_self]
  exact congrArg₂ (· + ·) (congrArg₂ (· + ·) e1 e2) e3

/-- The spread row maximum at (p, q) is the maximum of row p. -/
theorem rowMaxSpread_apply (z : FVec Ideal S5000x8 .f32) (p : Fin 5000) (q : Fin 8) :
    rowMaxSpread z (ix2 p q) = Cert.Sage.rowMax (fun j => z (ix2 p j)) := by
  unfold rowMaxSpread Cert.Sage.rowMax
  refine (ValueLayout.broadcastTo_a1_ab_apply (by decide) _ broadcasts_S5000x1_S5000x8 p q).trans ?_
  refine (ValueLayout.shapeCast_a_a1_apply _ shapeCasts_S5000_S5000x1 p 0).trans ?_
  exact RowReduce.multiReduction_max_row z 0xFF800000#32 reduces_S5000x8_S5000 (.inl rfl) rfl p

/-- The spread logarithm of the row sums at (p, q) is the logarithm of the sum of row p. -/
theorem logRowSumSpread_apply (e : FVec Ideal S5000x8 .f32) (p : Fin 5000) (q : Fin 8) :
    logRowSumSpread e (ix2 p q) = Ideal.log (∑ j : Fin 8, e (ix2 p j)) := by
  unfold logRowSumSpread
  refine (ValueLayout.broadcastTo_a1_ab_apply (by decide) _ broadcasts_S5000x1_S5000x8 p q).trans ?_
  refine congrArg Ideal.log ?_
  refine (ValueLayout.shapeCast_a_a1_apply _ shapeCasts_S5000_S5000x1 p 0).trans ?_
  exact RowReduce.multiReduction_add_row e 0x00000000#32 reduces_S5000x8_S5000 (.inl rfl) rfl p

/-- The row-wise logarithm of the softmax at (p, q) is that of row p, at q. -/
theorem logSoftmaxRows_apply (z : FVec Ideal S5000x8 .f32) (p : Fin 5000) (q : Fin 8) :
    logSoftmaxRows z (ix2 p q) = Cert.Sage.logSoftmaxAt (fun j => z (ix2 p j)) q := by
  unfold logSoftmaxRows Cert.Sage.logSoftmaxAt
  show (z (ix2 p q) - rowMaxSpread z (ix2 p q)) - logRowSumSpread (exp (subf z (rowMaxSpread z))) (ix2 p q) = _
  rw [logRowSumSpread_apply, rowMaxSpread_apply]
  refine congrArg (fun s => (z (ix2 p q) - Cert.Sage.rowMax (fun j => z (ix2 p j))) - Ideal.log s) ?_
  refine Finset.sum_congr rfl fun j _ => ?_
  show Ideal.exp (z (ix2 p j) - rowMaxSpread z (ix2 p j)) = _
  rw [rowMaxSpread_apply]

/-- The body's payload at (p, q): the logarithm of the softmax, at q, of row p of the affine part. -/
theorem payload_apply (x0 x1 : Vec Ideal S5000x128 .f32) (x2 x4 : Vec Ideal S8x128 .f32) (x3 : Vec Ideal S1x8 .f32)
    (p : Fin 5000) (q : Fin 8) :
    k2_pay1 x0 x1 x2 x4 x3 (ix2 p q)
      = Cert.Sage.logSoftmaxAt (fun j => Cert.Sage.lin x0 x1 x2 x4 (fun q => x3 (ix2 (0 : Fin 1) q)) p j) q := by
  rw [payload_split]
  refine (logSoftmaxRows_apply _ p q).trans ?_
  exact congrArg (fun f => Cert.Sage.logSoftmaxAt f q) (funext fun j => affine_apply x0 x1 x2 x4 x3 p j)

/-- When the two row blocks are rows T·5000 … T·5000 + 4999 of the node arrays and the other three blocks are the whole
    weight and bias arrays, the payload at a block index is the layer of the whole arrays at the array index T·5000
    rows further down: the layer at (r, q) reads the node arrays only along row r. -/
theorem block_layer (A H : S50000x128.Idx → EReal) (WL WR : S8x128.Idx → EReal) (B : S1x8.Idx → EReal)
    (x0 x1 : Vec Ideal S5000x128 .f32) (x2 x4 : Vec Ideal S8x128 .f32) (x3 : Vec Ideal S1x8 .f32) (T : ℕ)
    (h0 : ∀ (p : Fin 5000) (k : Fin 128) (r : Fin 50000), r.val = T * 5000 + p.val → x0 (ix2 p k) = A (ix2 r k))
    (h1 : ∀ (p : Fin 5000) (k : Fin 128) (r : Fin 50000), r.val = T * 5000 + p.val → x1 (ix2 p k) = H (ix2 r k))
    (h2 : x2 = WL) (h4 : x4 = WR) (h3 : x3 = B)
    (y : S5000x8.Idx) (i : S50000x8.Idx) (hi0 : (i 0).val = T * 5000 + (y 0).val) (hi1 : (i 1).val = (y 1).val) :
    k2_pay1 x0 x1 x2 x4 x3 y = Cert.Sage.logSoftmaxLayer A H WL WR (fun q => B (ix2 (0 : Fin 1) q)) i := by
  subst h2 h4 h3
  obtain ⟨p, q, rfl⟩ : ∃ (p : Fin 5000) (q : Fin 8), y = ix2 p q := ⟨y 0, y 1, eq_ix2 y⟩
  obtain ⟨r, q', rfl⟩ : ∃ (r : Fin 50000) (q' : Fin 8), i = ix2 r q' := ⟨i 0, i 1, eq_ix2 i⟩
  obtain rfl : q = q' := (Fin.ext hi1).symm
  rw [payload_apply]
  unfold Cert.Sage.logSoftmaxLayer
  exact congrArg (fun f => Cert.Sage.logSoftmaxAt f q)
    (funext fun j => Cert.Sage.lin_congr A H x0 x1 x2 x4 _ r p j (fun k => h0 p k r hi0) (fun k => h1 p k r hi0))

/-! ## The blocks at a point -/

theorem zeroOffsets : (![0, 0] : Fin 2 → Nat) = fun _ => 0 := funext fun a => by fin_cases a <;> rfl

/-- The block indices over the ten points: windows 0, 1 and 5 move down the rows with the point, windows 2, 3 and 4
    stay at the origin. -/
theorem blockIndices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point t, at (p, k), is the array at (5000·t + p, k). -/
theorem rowBlock0_apply (c : Dev nD) (t : Fin cfg2.N) (p : Fin 5000) (k : Fin 128) (r : Fin 50000)
    (hr : r.val = t.val * 5000 + p.val) :
    (iblk2 V c 0 t : Vec Ideal S5000x128 .f32) (ix2 p k)
      = (V c (Pipeline.arrRef spec2 0) : S50000x128.Idx → EReal) (ix2 r k) := by
  obtain ⟨e00, e01, -⟩ := blockIndices t
  unfold iblk2
  rw [View.read_apply]
  refine congrArg (V c (Pipeline.arrRef spec2 0) : S50000x128.Idx → EReal) ?_
  funext a
  apply Fin.ext
  match a with
  | ⟨0, _⟩ => show win2_0.index t (0 : Fin 2) * 5000 + 1 * p.val = r.val; omega
  | ⟨1, _⟩ => show win2_0.index t (1 : Fin 2) * 128 + 1 * k.val = k.val; omega

/-- Window 1's block at point t, at (p, k), is the array at (5000·t + p, k). -/
theorem rowBlock1_apply (c : Dev nD) (t : Fin cfg2.N) (p : Fin 5000) (k : Fin 128) (r : Fin 50000)
    (hr : r.val = t.val * 5000 + p.val) :
    (iblk2 V c 1 t : Vec Ideal S5000x128 .f32) (ix2 p k)
      = (V c (Pipeline.arrRef spec2 1) : S50000x128.Idx → EReal) (ix2 r k) := by
  obtain ⟨-, -, e10, e11, -⟩ := blockIndices t
  unfold iblk2
  rw [View.read_apply]
  refine congrArg (V c (Pipeline.arrRef spec2 1) : S50000x128.Idx → EReal) ?_
  funext a
  apply Fin.ext
  match a with
  | ⟨0, _⟩ => show win2_1.index t (0 : Fin 2) * 5000 + 1 * p.val = r.val; omega
  | ⟨1, _⟩ => show win2_1.index t (1 : Fin 2) * 128 + 1 * k.val = k.val; omega

/-- Window 2's block at every point is its whole array. -/
theorem wholeBlock2 (c : Dev nD) (t : Fin cfg2.N) :
    (iblk2 V c 2 t : Vec Ideal S8x128 .f32) = (V c (Pipeline.arrRef spec2 2) : S8x128.Idx → EReal) := by
  obtain ⟨-, -, -, -, e20, e21, -⟩ := blockIndices t
  funext x
  unfold iblk2
  rw [View.read_apply]
  refine congrArg (V c (Pipeline.arrRef spec2 2) : S8x128.Idx → EReal) ?_
  funext a
  apply Fin.ext
  match a with
  | ⟨0, _⟩ => show win2_2.index t (0 : Fin 2) * 8 + 1 * (x 0).val = (x 0).val; omega
  | ⟨1, _⟩ => show win2_2.index t (1 : Fin 2) * 128 + 1 * (x 1).val = (x 1).val; omega

/-- Window 4's block at every point is its whole array. -/
theorem wholeBlock4 (c : Dev nD) (t : Fin cfg2.N) :
    (iblk2 V c 4 t : Vec Ideal S8x128 .f32) = (V c (Pipeline.arrRef spec2 4) : S8x128.Idx → EReal) := by
  obtain ⟨-, -, -, -, -, -, -, -, e40, e41, -⟩ := blockIndices t
  funext x
  unfold iblk2
  rw [View.read_apply]
  refine congrArg (V c (Pipeline.arrRef spec2 4) : S8x128.Idx → EReal) ?_
  funext a
  apply Fin.ext
  match a with
  | ⟨0, _⟩ => show win2_4.index t (0 : Fin 2) * 8 + 1 * (x 0).val = (x 0).val; omega
  | ⟨1, _⟩ => show win2_4.index t (1 : Fin 2) * 128 + 1 * (x 1).val = (x 1).val; omega

/-- Window 3's block at every point is its whole array. -/
theorem wholeBlock3 (c : Dev nD) (t : Fin cfg2.N) :
    (iblk2 V c 3 t : Vec Ideal S1x8 .f32) = (V c (Pipeline.arrRef spec2 3) : S1x8.Idx → EReal) := by
  obtain ⟨-, -, -, -, -, -, e30, e31, -⟩ := blockIndices t
  funext x
  unfold iblk2
  rw [View.read_apply]
  refine congrArg (V c (Pipeline.arrRef spec2 3) : S1x8.Idx → EReal) ?_
  funext a
  apply Fin.ext
  match a with
  | ⟨0, _⟩ => show win2_3.index t (0 : Fin 2) * 1 + 1 * (x 0).val = (x 0).val; omega
  | ⟨1, _⟩ => show win2_3.index t (1 : Fin 2) * 8 + 1 * (x 1).val = (x 1).val; omega

/-! ## From the blocks to the array -/

/-- What point t writes back is block t of the layer of the whole arrays. -/
theorem writeBack_eq (c : Dev nD) (t : Fin cfg2.N) :
    (dat2 V c).flushed 5 t = ((cfg2.win 5).blk t).view.read (Elt Ideal)
      (Cert.Sage.logSoftmaxLayer (V c (Pipeline.arrRef spec2 0)) (V c (Pipeline.arrRef spec2 1)) (V c (Pipeline.arrRef spec2 2)) (V c (Pipeline.arrRef spec2 4))
        (fun q => V c (Pipeline.arrRef spec2 3) (ix2 (0 : Fin 1) q))) := by
  show (cfg2.win 5).cut (grid2.coords t) ((dat2 V c).after 5 t) = _
  rw [after2_5]
  unfold out2_5
  rw [View.canon_unit_zero zeroOffsets]
  simp only [View.ld_unit_zero (S := S5000x128) zeroOffsets, View.ld_unit_zero (S := S8x128) zeroOffsets,
    View.ld_unit_zero (S := S1x8) zeroOffsets]
  obtain ⟨-, -, -, -, -, -, -, -, -, -, e50, e51⟩ := blockIndices t
  funext j
  rw [View.read_apply]
  refine block_layer _ _ _ _ _ _ _ _ _ _ t.val (fun p k r hr => rowBlock0_apply V c t p k r hr)
    (fun p k r hr => rowBlock1_apply V c t p k r hr) (wholeBlock2 V c t) (wholeBlock4 V c t) (wholeBlock3 V c t) _ _ ?_ ?_
  · show win2_5.index t (0 : Fin 2) * 5000 + 1 * (j 0).val = t.val * 5000 + (j 0).val; omega
  · show win2_5.index t (1 : Fin 2) * 8 + 1 * (j 1).val = (j 1).val; omega

/-- An index of the output array is in point t's block iff each coordinate is in the block's range on its axis. -/
theorem mem_block_iff (t : Fin cfg2.N) (i : S50000x8.Idx) :
    i ∈ ((cfg2.win 5).blk t).view.set ↔ ∀ a : Fin 2, win2_5.index t a * S5000x8.size a ≤ (i a).val
      ∧ (i a).val < win2_5.index t a * S5000x8.size a + S5000x8.size a := by
  show i ∈ ((View.whole main_v54).slice (win2_5.rect t)).set ↔ _
  rw [View.set_slice_whole, Rect.mem_set_unit]
  exact Iff.rfl

/-- Every index of the output array is in some point's block: row r is in the block of the point r / 5000. -/
theorem rows_covered (i : S50000x8.Idx) :
    ∃ t : Fin cfg2.N, (cfg2.win 5).flush t = true ∧ i ∈ ((cfg2.win 5).blk t).view.set := by
  have hi0 : (i 0).val < 50000 := (i 0).isLt
  have hi1 : (i 1).val < 8 := (i 1).isLt
  have hN : grid2.N = 10 := N_2
  obtain ⟨t, ht⟩ : ∃ t : Fin cfg2.N, t.val = (i 0).val / 5000 :=
    ⟨⟨(i 0).val / 5000, by show (i 0).val / 5000 < grid2.N; rw [hN]; omega⟩, rfl⟩
  obtain ⟨-, -, -, -, -, -, -, -, -, -, e50, e51⟩ := blockIndices t
  refine ⟨t, flush2_5 t, ?_⟩
  rw [mem_block_iff]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 8 ≤ (i 1).val ∧ (i 1).val < win2_5.index t (1 : Fin 2) * 8 + 8
    omega

/-- After region 2 its output array holds the logSoftmaxLayer layer of the arrays the region was entered with. -/
theorem final (c : Dev nD) : (dat2 V c).arrAt 5 cfg2.N
    = Cert.Sage.logSoftmaxLayer (V c (Pipeline.arrRef spec2 0)) (V c (Pipeline.arrRef spec2 1)) (V c (Pipeline.arrRef spec2 2)) (V c (Pipeline.arrRef spec2 4))
        (fun q => V c (Pipeline.arrRef spec2 3) (ix2 (0 : Fin 1) q)) :=
  (dat2 V c).arrAt_eq_of_cover 5 _ (fun t _ => writeBack_eq V c t) rows_covered

end Cert.KernelIdeal.Hand.R2

end
-- ==== Proof.KChain.lean ====
/-
  The kernel program's result as the three layers of the launch arrays.

  Between the regions the program's host operations compute, from the arrays a region left, the arrays the next one
  reads: the edge list's rows, the reciprocal arrival counts (once, before the first region), and before each region the
  neighbourhood mean of the features it is about to transform. Each region leaves in its output array one layer of the
  arrays it was entered with. Read in order from the launch memory, the last region's output is the third layer over the
  second over the first, each fed its own neighbourhood mean: `Cert.Sage.net` over the kernel program's spelling of the
  mean.
-/
import proofs.«133615_j36567351558183_1_alg».proof.Proof.Gen.KernelIdeal.Frame
import proofs.«133615_j36567351558183_1_alg».proof.Proof.KTerms
import proofs.«133615_j36567351558183_1_alg».proof.Proof.KBlocks0
import proofs.«133615_j36567351558183_1_alg».proof.Proof.KBlocks1
import proofs.«133615_j36567351558183_1_alg».proof.Proof.KBlocks2
import proofs.«133615_j36567351558183_1_alg».proof.Proof.KRun
import Idealize.ShloMosaic.Lib.StableHlo.Run

noncomputable section

namespace Cert.KernelIdeal.Hand

open Idealize.ShloMosaic Idealize.ShloMosaic.TcCoe Idealize.SL.Sem Idealize.ShloMosaic.StableHlo Idealize.ShloMosaic.ValueIdx
open Cert.KernelIdeal Cert.KernelIdeal.Gen

/-! ## The host stretches, from any contents -/

section Host

variable {F : FTy → Type} [FloatOps F] (W : Valuation τ sig (Elt F))

/-- Before the first region: the sources. -/
theorem host0_v1 : after hostOps0 W (Proc.devRef .tc main_v1) = srcOf (W (Proc.devRef .tc main_arg1)) := by
  after_results_simp
  rfl
/-- The destinations. -/
theorem host0_v3 : after hostOps0 W (Proc.devRef .tc main_v3) = dstOf (W (Proc.devRef .tc main_arg1)) := by
  after_results_simp
  rfl
/-- The reciprocal arrival counts. -/
theorem host0_v12 : after hostOps0 W (Proc.devRef .tc main_v12) = invCountOf (F := F) (dstOf (W (Proc.devRef .tc main_arg1))) := by
  after_results_simp
  rfl
/-- The neighbourhood mean of the input features. -/
theorem host0_v24 : after hostOps0 W (Proc.devRef .tc main_v24)
    = aggOf (srcOf (W (Proc.devRef .tc main_arg1))) (dstOf (W (Proc.devRef .tc main_arg1))) (invCountOf (F := F) (dstOf (W (Proc.devRef .tc main_arg1)))) (W (Proc.devRef .tc main_arg0)) := by
  after_results_simp
  rfl
/-- The first bias as a row. -/
theorem host0_v25 : after hostOps0 W (Proc.devRef .tc main_v25) = biasRow128 (W (Proc.devRef .tc main_arg4)) := by
  after_results_simp
  rfl
theorem host0_arg0 : after hostOps0 W (Proc.devRef .tc main_arg0) = W (Proc.devRef .tc main_arg0) := by
  after_results_simp
theorem host0_arg3 : after hostOps0 W (Proc.devRef .tc main_arg3) = W (Proc.devRef .tc main_arg3) := by
  after_results_simp
theorem host0_arg5 : after hostOps0 W (Proc.devRef .tc main_arg5) = W (Proc.devRef .tc main_arg5) := by
  after_results_simp
theorem host0_arg6 : after hostOps0 W (Proc.devRef .tc main_arg6) = W (Proc.devRef .tc main_arg6) := by
  after_results_simp
theorem host0_arg7 : after hostOps0 W (Proc.devRef .tc main_arg7) = W (Proc.devRef .tc main_arg7) := by
  after_results_simp
theorem host0_arg8 : after hostOps0 W (Proc.devRef .tc main_arg8) = W (Proc.devRef .tc main_arg8) := by
  after_results_simp
theorem host0_arg9 : after hostOps0 W (Proc.devRef .tc main_arg9) = W (Proc.devRef .tc main_arg9) := by
  after_results_simp
theorem host0_arg10 : after hostOps0 W (Proc.devRef .tc main_arg10) = W (Proc.devRef .tc main_arg10) := by
  after_results_simp
theorem host0_arg11 : after hostOps0 W (Proc.devRef .tc main_arg11) = W (Proc.devRef .tc main_arg11) := by
  after_results_simp

/-- Before the second region: the neighbourhood mean of the first layer's output. -/
theorem host1_v38 : after hostOps1 W (Proc.devRef .tc main_v38)
    = aggOf (W (Proc.devRef .tc main_v1)) (W (Proc.devRef .tc main_v3)) (W (Proc.devRef .tc main_v12)) (W (Proc.devRef .tc main_v26)) := by
  after_results_simp
  rfl
/-- The second bias as a row. -/
theorem host1_v39 : after hostOps1 W (Proc.devRef .tc main_v39) = biasRow128 (W (Proc.devRef .tc main_arg7)) := by
  after_results_simp
  rfl
theorem host1_v1 : after hostOps1 W (Proc.devRef .tc main_v1) = W (Proc.devRef .tc main_v1) := by
  after_results_simp
theorem host1_v3 : after hostOps1 W (Proc.devRef .tc main_v3) = W (Proc.devRef .tc main_v3) := by
  after_results_simp
theorem host1_v12 : after hostOps1 W (Proc.devRef .tc main_v12) = W (Proc.devRef .tc main_v12) := by
  after_results_simp
theorem host1_v26 : after hostOps1 W (Proc.devRef .tc main_v26) = W (Proc.devRef .tc main_v26) := by
  after_results_simp
theorem host1_arg6 : after hostOps1 W (Proc.devRef .tc main_arg6) = W (Proc.devRef .tc main_arg6) := by
  after_results_simp
theorem host1_arg8 : after hostOps1 W (Proc.devRef .tc main_arg8) = W (Proc.devRef .tc main_arg8) := by
  after_results_simp
theorem host1_arg9 : after hostOps1 W (Proc.devRef .tc main_arg9) = W (Proc.devRef .tc main_arg9) := by
  after_results_simp
theorem host1_arg10 : after hostOps1 W (Proc.devRef .tc main_arg10) = W (Proc.devRef .tc main_arg10) := by
  after_results_simp
theorem host1_arg11 : after hostOps1 W (Proc.devRef .tc main_arg11) = W (Proc.devRef .tc main_arg11) := by
  after_results_simp

/-- Before the third region: the neighbourhood mean of the second layer's output. -/
theorem host2_v52 : after hostOps2 W (Proc.devRef .tc main_v52)
    = aggOf (W (Proc.devRef .tc main_v1)) (W (Proc.devRef .tc main_v3)) (W (Proc.devRef .tc main_v12)) (W (Proc.devRef .tc main_v40)) := by
  after_results_simp
  rfl
/-- The third bias as a row. -/
theorem host2_v53 : after hostOps2 W (Proc.devRef .tc main_v53) = biasRow8 (W (Proc.devRef .tc main_arg10)) := by
  after_results_simp
  rfl
theorem host2_v40 : after hostOps2 W (Proc.devRef .tc main_v40) = W (Proc.devRef .tc main_v40) := by
  after_results_simp
theorem host2_arg9 : after hostOps2 W (Proc.devRef .tc main_arg9) = W (Proc.devRef .tc main_arg9) := by
  after_results_simp
theorem host2_arg11 : after hostOps2 W (Proc.devRef .tc main_arg11) = W (Proc.devRef .tc main_arg11) := by
  after_results_simp

end Host

/-! ## The boundaries' contents, from the launch memory -/

variable (m : (ℓ : Loc nD τ sig) → Buf (Elt Ideal) ℓ) (ρ : Dev nD → PrngReg) (c : Dev nD)

/-- The neighbourhood mean over the launch edge list, as the kernel's program spells it. -/
abbrev aggK : FVec Ideal S50000x128 .f32 → FVec Ideal S50000x128 .f32 := aggOf (F := Ideal) (srcOf (m ((c : Thread nD τ).loc main_arg1))) (dstOf (m ((c : Thread nD τ).loc main_arg1))) (invCountOf (F := Ideal) (dstOf (m ((c : Thread nD τ).loc main_arg1))))

/-- The first layer's output. -/
def h1K : FVec Ideal S50000x128 .f32 :=
  Cert.Sage.reluLayer (aggK m c (m ((c : Thread nD τ).loc main_arg0))) (m ((c : Thread nD τ).loc main_arg0)) (m ((c : Thread nD τ).loc main_arg3)) (m ((c : Thread nD τ).loc main_arg5))
    (fun q => biasRow128 (F := Ideal) (m ((c : Thread nD τ).loc main_arg4)) (ix2 (0 : Fin 1) q))

/-- The second layer's output. -/
def h2K : FVec Ideal S50000x128 .f32 :=
  Cert.Sage.eluLayer (aggK m c (h1K m c)) (h1K m c) (m ((c : Thread nD τ).loc main_arg6)) (m ((c : Thread nD τ).loc main_arg8))
    (fun q => biasRow128 (F := Ideal) (m ((c : Thread nD τ).loc main_arg7)) (ix2 (0 : Fin 1) q))

/-- The third layer's output. -/
def outK : FVec Ideal S50000x8 .f32 :=
  Cert.Sage.logSoftmaxLayer (aggK m c (h2K m c)) (h2K m c) (m ((c : Thread nD τ).loc main_arg9)) (m ((c : Thread nD τ).loc main_arg11))
    (fun q => biasRow8 (F := Ideal) (m ((c : Thread nD τ).loc main_arg10)) (ix2 (0 : Fin 1) q))

/-! ### At the first region's entry -/
theorem W1_v1 : W1 m ρ c (Proc.devRef .tc main_v1) = srcOf (m ((c : Thread nD τ).loc main_arg1)) := host0_v1 (W0 m ρ c)
theorem W1_v3 : W1 m ρ c (Proc.devRef .tc main_v3) = dstOf (m ((c : Thread nD τ).loc main_arg1)) := host0_v3 (W0 m ρ c)
theorem W1_v12 : W1 m ρ c (Proc.devRef .tc main_v12) = invCountOf (F := Ideal) (dstOf (m ((c : Thread nD τ).loc main_arg1))) := host0_v12 (W0 m ρ c)
theorem W1_v24 : W1 m ρ c (Proc.devRef .tc main_v24) = aggK m c (m ((c : Thread nD τ).loc main_arg0)) := host0_v24 (W0 m ρ c)
theorem W1_v25 : W1 m ρ c (Proc.devRef .tc main_v25) = biasRow128 (F := Ideal) (m ((c : Thread nD τ).loc main_arg4)) := host0_v25 (W0 m ρ c)
theorem W1_arg0 : W1 m ρ c (Proc.devRef .tc main_arg0) = m ((c : Thread nD τ).loc main_arg0) := host0_arg0 (W0 m ρ c)
theorem W1_arg3 : W1 m ρ c (Proc.devRef .tc main_arg3) = m ((c : Thread nD τ).loc main_arg3) := host0_arg3 (W0 m ρ c)
theorem W1_arg5 : W1 m ρ c (Proc.devRef .tc main_arg5) = m ((c : Thread nD τ).loc main_arg5) := host0_arg5 (W0 m ρ c)
theorem W1_arg6 : W1 m ρ c (Proc.devRef .tc main_arg6) = m ((c : Thread nD τ).loc main_arg6) := host0_arg6 (W0 m ρ c)
theorem W1_arg7 : W1 m ρ c (Proc.devRef .tc main_arg7) = m ((c : Thread nD τ).loc main_arg7) := host0_arg7 (W0 m ρ c)
theorem W1_arg8 : W1 m ρ c (Proc.devRef .tc main_arg8) = m ((c : Thread nD τ).loc main_arg8) := host0_arg8 (W0 m ρ c)
theorem W1_arg9 : W1 m ρ c (Proc.devRef .tc main_arg9) = m ((c : Thread nD τ).loc main_arg9) := host0_arg9 (W0 m ρ c)
theorem W1_arg10 : W1 m ρ c (Proc.devRef .tc main_arg10) = m ((c : Thread nD τ).loc main_arg10) := host0_arg10 (W0 m ρ c)
theorem W1_arg11 : W1 m ρ c (Proc.devRef .tc main_arg11) = m ((c : Thread nD τ).loc main_arg11) := host0_arg11 (W0 m ρ c)

/-! ### At the first region's exit -/
theorem W2_v26 : W2 m ρ c (Proc.devRef .tc main_v26) = h1K m c := by
  refine (W2_arr m ρ c 5).trans ((R0.final (V1 m ρ) c).trans ?_)
  show Cert.Sage.reluLayer (W1 m ρ c (Proc.devRef .tc main_v24)) (W1 m ρ c (Proc.devRef .tc main_arg0)) (W1 m ρ c (Proc.devRef .tc main_arg3))
    (W1 m ρ c (Proc.devRef .tc main_arg5)) (fun q => W1 m ρ c (Proc.devRef .tc main_v25) (ix2 (0 : Fin 1) q)) = _
  rw [W1_v24, W1_arg0, W1_arg3, W1_arg5, W1_v25]
  rfl
theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_v12 : W2 m ρ c (Proc.devRef .tc main_v12) = W1 m ρ c (Proc.devRef .tc main_v12) := W2_of_ne m ρ c main_v12 (by decide)
theorem W2_arg6 : W2 m ρ c (Proc.devRef .tc main_arg6) = W1 m ρ c (Proc.devRef .tc main_arg6) := W2_of_ne m ρ c main_arg6 (by decide)
theorem W2_arg7 : W2 m ρ c (Proc.devRef .tc main_arg7) = W1 m ρ c (Proc.devRef .tc main_arg7) := W2_of_ne m ρ c main_arg7 (by decide)
theorem W2_arg8 : W2 m ρ c (Proc.devRef .tc main_arg8) = W1 m ρ c (Proc.devRef .tc main_arg8) := W2_of_ne m ρ c main_arg8 (by decide)
theorem W2_arg9 : W2 m ρ c (Proc.devRef .tc main_arg9) = W1 m ρ c (Proc.devRef .tc main_arg9) := W2_of_ne m ρ c main_arg9 (by decide)
theorem W2_arg10 : W2 m ρ c (Proc.devRef .tc main_arg10) = W1 m ρ c (Proc.devRef .tc main_arg10) := W2_of_ne m ρ c main_arg10 (by decide)
theorem W2_arg11 : W2 m ρ c (Proc.devRef .tc main_arg11) = W1 m ρ c (Proc.devRef .tc main_arg11) := W2_of_ne m ρ c main_arg11 (by decide)

/-! ### At the second region's entry -/
theorem W3_v38 : W3 m ρ c (Proc.devRef .tc main_v38) = aggK m c (h1K m c) := by
  refine (host1_v38 (W2 m ρ c)).trans ?_
  rw [W2_v1, W2_v3, W2_v12, W2_v26, W1_v1, W1_v3, W1_v12]
theorem W3_v39 : W3 m ρ c (Proc.devRef .tc main_v39) = biasRow128 (F := Ideal) (m ((c : Thread nD τ).loc main_arg7)) := by
  refine (host1_v39 (W2 m ρ c)).trans ?_
  rw [W2_arg7, W1_arg7]
theorem W3_v26 : W3 m ρ c (Proc.devRef .tc main_v26) = h1K m c := (host1_v26 (W2 m ρ c)).trans (W2_v26 m ρ c)
theorem W3_v1 : W3 m ρ c (Proc.devRef .tc main_v1) = W1 m ρ c (Proc.devRef .tc main_v1) := (host1_v1 (W2 m ρ c)).trans (W2_v1 m ρ c)
theorem W3_v3 : W3 m ρ c (Proc.devRef .tc main_v3) = W1 m ρ c (Proc.devRef .tc main_v3) := (host1_v3 (W2 m ρ c)).trans (W2_v3 m ρ c)
theorem W3_v12 : W3 m ρ c (Proc.devRef .tc main_v12) = W1 m ρ c (Proc.devRef .tc main_v12) := (host1_v12 (W2 m ρ c)).trans (W2_v12 m ρ c)
theorem W3_arg6 : W3 m ρ c (Proc.devRef .tc main_arg6) = W1 m ρ c (Proc.devRef .tc main_arg6) := (host1_arg6 (W2 m ρ c)).trans (W2_arg6 m ρ c)
theorem W3_arg8 : W3 m ρ c (Proc.devRef .tc main_arg8) = W1 m ρ c (Proc.devRef .tc main_arg8) := (host1_arg8 (W2 m ρ c)).trans (W2_arg8 m ρ c)
theorem W3_arg9 : W3 m ρ c (Proc.devRef .tc main_arg9) = W1 m ρ c (Proc.devRef .tc main_arg9) := (host1_arg9 (W2 m ρ c)).trans (W2_arg9 m ρ c)
theorem W3_arg10 : W3 m ρ c (Proc.devRef .tc main_arg10) = W1 m ρ c (Proc.devRef .tc main_arg10) := (host1_arg10 (W2 m ρ c)).trans (W2_arg10 m ρ c)
theorem W3_arg11 : W3 m ρ c (Proc.devRef .tc main_arg11) = W1 m ρ c (Proc.devRef .tc main_arg11) := (host1_arg11 (W2 m ρ c)).trans (W2_arg11 m ρ c)

/-! ### At the second region's exit -/
theorem W4_v40 : W4 m ρ c (Proc.devRef .tc main_v40) = h2K m c := by
  refine (W4_arr m ρ c 5).trans ((R1.final (V3 m ρ) c).trans ?_)
  show Cert.Sage.eluLayer (W3 m ρ c (Proc.devRef .tc main_v38)) (W3 m ρ c (Proc.devRef .tc main_v26)) (W3 m ρ c (Proc.devRef .tc main_arg6))
    (W3 m ρ c (Proc.devRef .tc main_arg8)) (fun q => W3 m ρ c (Proc.devRef .tc main_v39) (ix2 (0 : Fin 1) q)) = _
  rw [W3_v38, W3_v26, W3_arg6, W3_arg8, W3_v39, W1_arg6, W1_arg8]
  rfl
theorem W4_v1 : W4 m ρ c (Proc.devRef .tc main_v1) = W1 m ρ c (Proc.devRef .tc main_v1) := (W4_of_ne m ρ c main_v1 (by decide)).trans (W3_v1 m ρ c)
theorem W4_v3 : W4 m ρ c (Proc.devRef .tc main_v3) = W1 m ρ c (Proc.devRef .tc main_v3) := (W4_of_ne m ρ c main_v3 (by decide)).trans (W3_v3 m ρ c)
theorem W4_v12 : W4 m ρ c (Proc.devRef .tc main_v12) = W1 m ρ c (Proc.devRef .tc main_v12) := (W4_of_ne m ρ c main_v12 (by decide)).trans (W3_v12 m ρ c)
theorem W4_arg9 : W4 m ρ c (Proc.devRef .tc main_arg9) = W1 m ρ c (Proc.devRef .tc main_arg9) := (W4_of_ne m ρ c main_arg9 (by decide)).trans (W3_arg9 m ρ c)
theorem W4_arg10 : W4 m ρ c (Proc.devRef .tc main_arg10) = W1 m ρ c (Proc.devRef .tc main_arg10) := (W4_of_ne m ρ c main_arg10 (by decide)).trans (W3_arg10 m ρ c)
theorem W4_arg11 : W4 m ρ c (Proc.devRef .tc main_arg11) = W1 m ρ c (Proc.devRef .tc main_arg11) := (W4_of_ne m ρ c main_arg11 (by decide)).trans (W3_arg11 m ρ c)

/-! ### At the third region's entry -/
theorem W5_v52 : W5 m ρ c (Proc.devRef .tc main_v52) = aggK m c (h2K m c) := by
  refine (host2_v52 (W4 m ρ c)).trans ?_
  rw [W4_v1, W4_v3, W4_v12, W4_v40, W1_v1, W1_v3, W1_v12]
theorem W5_v53 : W5 m ρ c (Proc.devRef .tc main_v53) = biasRow8 (F := Ideal) (m ((c : Thread nD τ).loc main_arg10)) := by
  refine (host2_v53 (W4 m ρ c)).trans ?_
  rw [W4_arg10, W1_arg10]
theorem W5_v40 : W5 m ρ c (Proc.devRef .tc main_v40) = h2K m c := (host2_v40 (W4 m ρ c)).trans (W4_v40 m ρ c)
theorem W5_arg9 : W5 m ρ c (Proc.devRef .tc main_arg9) = m ((c : Thread nD τ).loc main_arg9) := ((host2_arg9 (W4 m ρ c)).trans (W4_arg9 m ρ c)).trans (W1_arg9 m ρ c)
theorem W5_arg11 : W5 m ρ c (Proc.devRef .tc main_arg11) = m ((c : Thread nD τ).loc main_arg11) := ((host2_arg11 (W4 m ρ c)).trans (W4_arg11 m ρ c)).trans (W1_arg11 m ρ c)

/-! ### At the third region's exit -/
theorem W6_v54 : W6 m ρ c (Proc.devRef .tc main_v54) = outK m c := by
  refine (W6_arr m ρ c 5).trans ((R2.final (V5 m ρ) c).trans ?_)
  show Cert.Sage.logSoftmaxLayer (W5 m ρ c (Proc.devRef .tc main_v52)) (W5 m ρ c (Proc.devRef .tc main_v40)) (W5 m ρ c (Proc.devRef .tc main_arg9))
    (W5 m ρ c (Proc.devRef .tc main_arg11)) (fun q => W5 m ρ c (Proc.devRef .tc main_v53) (ix2 (0 : Fin 1) q)) = _
  rw [W5_v52, W5_v40, W5_arg9, W5_arg11, W5_v53]
  rfl

/-- The third layer's output is the network over the kernel program's neighbourhood mean. -/
theorem outK_eq : outK m c
    = Cert.Sage.net (aggK m c) (m ((c : Thread nD τ).loc main_arg0)) (m ((c : Thread nD τ).loc main_arg3)) (m ((c : Thread nD τ).loc main_arg5))
        (fun q => biasRow128 (F := Ideal) (m ((c : Thread nD τ).loc main_arg4)) (ix2 (0 : Fin 1) q))
        (m ((c : Thread nD τ).loc main_arg6)) (m ((c : Thread nD τ).loc main_arg8)) (fun q => biasRow128 (F := Ideal) (m ((c : Thread nD τ).loc main_arg7)) (ix2 (0 : Fin 1) q))
        (m ((c : Thread nD τ).loc main_arg9)) (m ((c : Thread nD τ).loc main_arg11)) (fun q => biasRow8 (F := Ideal) (m ((c : Thread nD τ).loc main_arg10)) (ix2 (0 : Fin 1) q)) := rfl

/-! ## The run, read -/

/-- Every weakly fair execution of the kernel's program terminates with the result array at the three layers of the
    launch arrays and the arguments unchanged. -/
theorem run : θ_run defs (onTc (τ := τ) (main (F := Ideal))) ⟨m, fun _ => 0, ρ⟩ (fun r => ∀ c : Dev nD,
      r.2.mem ((c.tc : Thread nD τ).loc main_v54) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W6_v54 m ρ c), (h c).2⟩) (Cert.KernelIdeal.GenP.run_out m ρ)

end Cert.KernelIdeal.Hand

end
-- ==== Proof.RTerms.lean ====
/-
  The reference program as functions of arrays: the edge list's rows, the wrapped sources, the arrival counts, the
  accumulated source features divided by the count (an empty neighbourhood counted as one) — the neighbourhood mean as
  the reference spells it —, one layer's affine part `a · wlᵀ + b + h · wrᵀ` through transposed weights, the three
  activations as jax outlines them, and the three layers in sequence.
-/
import proofs.«133615_j36567351558183_1_alg».proof.Proof.Gen.ReferenceIdeal

noncomputable section

namespace Cert.ReferenceIdeal.Hand

open Idealize.ShloMosaic Cert.ReferenceIdeal Cert.ReferenceIdeal.Gen

variable {F : FTy → Type} [FloatOps F]

/-- Row 0 of the edge list: each edge's source node. -/
def srcOf (ei : IVec S2x800000 32) : IVec S800000 32 :=
  shapeCast S800000 (extractStridedSlice S1x800000 ![0, 0] ei slices_S2x800000_S1x800000_0_0) shapeCasts_S1x800000_S800000

/-- Row 1 of the edge list: each edge's destination node. -/
def dstOf (ei : IVec S2x800000 32) : IVec S800000 32 :=
  shapeCast S800000 (extractStridedSlice S1x800000 ![1, 0] ei slices_S2x800000_S1x800000_1_0) shapeCasts_S1x800000_S800000

/-- A source index below zero counts from the end: the node count is added to it. -/
def wrapOf (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- How many edges arrive at each node: ones accumulated at the destinations. -/
def countOf (dst : IVec S800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- The features of each edge's source, accumulated at its destination. -/
def nbrSumOf (src dst : IVec S800000 32) (h : FVec F S50000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0 (wrapOf src)))

/-- The neighbourhood mean: the accumulated features divided by the arrival count, an empty neighbourhood counted as
    one. -/
def meanOf (src dst : IVec S800000 32) (h : FVec F S50000x128 .f32) : FVec F S50000x128 .f32 :=
  Host.divf (nbrSumOf src dst h)
    (broadcastInDim S50000x128 ![0, 1] bcast_S50000x1_S50000x128_0_1
      (broadcastInDim S50000x1 ![0] bcast_S50000_S50000x1_0
        (maximumf (countOf dst) (broadcastInDim S50000 ![] bcast_S_S50000 (constant S_ .f32 0x3F800000#32)))))

/-- A wide layer's affine part: `a · wlᵀ + b + h · wrᵀ`. -/
def lin128Of (a h : FVec F S50000x128 .f32) (wl : FVec F S128x128 .f32) (b : FVec F S128 .f32) (wr : FVec F S128x128 .f32) :
    FVec F S50000x128 .f32 :=
  addf
    (addf (Host.dotGeneral dot_S50000x128_S128x128_S50000x128_1_0_0_1_n_n none a
        (transpose S128x128 [1, 0] wl transposes_S128x128_S128x128_1_0))
      (broadcastInDim S50000x128 ![0, 1] bcast_S1x128_S50000x128_0_1 (broadcastInDim S1x128 ![1] bcast_S128_S1x128_1 b)))
    (Host.dotGeneral dot_S50000x128_S128x128_S50000x128_1_0_0_1_n_n none h
      (transpose S128x128 [1, 0] wr transposes_S128x128_S128x128_1_0))

/-- The last layer's affine part, eight columns wide. -/
def lin8Of (a h : FVec F S50000x128 .f32) (wl : FVec F S8x128 .f32) (b : FVec F S8 .f32) (wr : FVec F S8x128 .f32) :
    FVec F S50000x8 .f32 :=
  addf
    (addf (Host.dotGeneral dot_S50000x128_S128x8_S50000x8_1_0_0_1_n_n none a
        (transpose S128x8 [1, 0] wl transposes_S8x128_S128x8_1_0))
      (broadcastInDim S50000x8 ![0, 1] bcast_S1x8_S50000x8_0_1 (broadcastInDim S1x8 ![1] bcast_S8_S1x8_1 b)))
    (Host.dotGeneral dot_S50000x128_S128x8_S50000x8_1_0_0_1_n_n none h
      (transpose S128x8 [1, 0] wr transposes_S8x128_S128x8_1_0))

/-- The positive part. -/
def reluOf (x : FVec F S50000x128 .f32) : FVec F S50000x128 .f32 :=
  maximumf x (broadcastInDim S50000x128 ![] bcast_S_S50000x128 (constant S_ .f32 0x00000000#32))

/-- The exponential linear unit as jax outlines it: where the value is not above zero, `1 · expm1` of the value
    (zero put in its place where it is above zero, so that the exponential is not taken there). -/
def eluOf (x : FVec F S50000x128 .f32) : FVec F S50000x128 .f32 :=
  select (cmpf .ogt x (broadcastInDim S50000x128 ![] bcast_S_S50000x128 (constant S_ .f32 0x00000000#32))) x
    (mulf (broadcastInDim S50000x128 ![] bcast_S_S50000x128 (constant S_ .f32 0x3F800000#32))
      (Host.expm1 (select (cmpf .ogt x (broadcastInDim S50000x128 ![] bcast_S_S50000x128 (constant S_ .f32 0x00000000#32)))
        (broadcastInDim S50000x128 ![] bcast_S_S50000x128 (constant S_ .f32 0x00000000#32)) x)))

/-- The row maximum (from `-∞`, then once more against `-∞`), spread back over the row. -/
def rowMaxOf (x : FVec F S50000x8 .f32) : FVec F S50000x8 .f32 :=
  broadcastInDim S50000x8 ![0, 1] bcast_S50000x1_S50000x8_0_1
    (broadcastInDim S50000x1 ![0] bcast_S50000_S50000x1_0
      (maximumf (broadcastInDim S50000 ![] bcast_S_S50000 (constant S_ .f32 0xFF800000#32))
        (Host.reduce FloatOps.maximumf x (constant S_ .f32 0xFF800000#32) reducesTo_S50000x8_S50000_d1 h_S_)))

/-- The logarithm of the softmax along each row, the row maximum subtracted first. -/
def logSoftmaxOf (x : FVec F S50000x8 .f32) : FVec F S50000x8 .f32 :=
  subf (subf x (rowMaxOf x))
    (broadcastInDim S50000x8 ![0, 1] bcast_S50000x1_S50000x8_0_1
      (Host.log (broadcastInDim S50000x1 ![0] bcast_S50000_S50000x1_0
        (Host.reduceAdd (Host.exp (subf x (rowMaxOf x))) (constant S_ .f32 0x00000000#32) reducesTo_S50000x8_S50000_d1 h_S_))))

/-- The first layer's output. -/
def h1Of (ei : IVec S2x800000 32) (x : FVec F S50000x128 .f32) (w1l : FVec F S128x128 .f32) (b1 : FVec F S128 .f32)
    (w1r : FVec F S128x128 .f32) : FVec F S50000x128 .f32 :=
  reluOf (lin128Of (meanOf (srcOf ei) (dstOf ei) x) x w1l b1 w1r)

/-- The second layer's output, from the first's. -/
def h2Of (ei : IVec S2x800000 32) (h1 : FVec F S50000x128 .f32) (whl : FVec F S128x128 .f32) (bh : FVec F S128 .f32)
    (whr : FVec F S128x128 .f32) : FVec F S50000x128 .f32 :=
  eluOf (lin128Of (meanOf (srcOf ei) (dstOf ei) h1) h1 whl bh whr)

/-- The third layer's output, from the second's: the program's result. -/
def outOf (ei : IVec S2x800000 32) (h2 : FVec F S50000x128 .f32) (w2l : FVec F S8x128 .f32) (b2 : FVec F S8 .f32)
    (w2r : FVec F S8x128 .f32) : FVec F S50000x8 .f32 :=
  logSoftmaxOf (lin8Of (meanOf (srcOf ei) (dstOf ei) h2) h2 w2l b2 w2r)

end Cert.ReferenceIdeal.Hand

end
-- ==== Proof.RRun.lean ====
/-
  The reference program's run read back: every execution ends with the result array at the three layers of the
  argument arrays, as the program spells them, and the arguments unchanged.
-/
import proofs.«133615_j36567351558183_1_alg».proof.Proof.RTerms
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first layer, its activation's three operations in line: up to the first layer's output. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    unary main_arg3 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v24 main_v26 main_v27 (addf : (⟨S50000x128, .f32⟩ : BufTy).Contents (Elt F) → (⟨S50000x128, .f32⟩ : BufTy).Contents (Elt F) → (⟨S50000x128, .f32⟩ : BufTy).Contents (Elt F)),
    unary main_arg5 main_v28 ((transpose S128x128 [1, 0] · transposes_S128x128_S128x128_1_0) : (⟨S128x128, .f32⟩ : BufTy).Contents (Elt F) → (⟨S128x128, .f32⟩ : BufTy).Contents (Elt F)),
    binary main_arg0 main_v28 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v27 main_v29 main_v30 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v30 : TRef sig ⟨S50000x128, .f32⟩) main_call0.v0 main_call0.v1 maximumf ]

/-- The second layer's neighbourhood sums and counts. -/
abbrev opsB1 : List (HloOp τ sig (Elt F)) :=
  [ nullary main_c_4 (constantI S_ 32 0#32),
    unary main_c_4 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v39 (broadcastInDim S50000x128 ![] bcast_S_S50000x128 : (⟨S_, .f32⟩ : BufTy).Contents (Elt F) → (⟨S50000x128, .f32⟩ : BufTy).Contents (Elt F)),
    unary main_v3 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_7 (constant S_ .f32 0x3F800000#32),
    unary main_cst_7 main_v42 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v43 (broadcastInDim S50000 ![] bcast_S_S50000 : (⟨S_, .f32⟩ : BufTy).Contents (Elt F) → (⟨S50000, .f32⟩ : BufTy).Contents (Elt F)),
    unary main_v3 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v46 (broadcastInDim S50000 ![] bcast_S_S50000 : (⟨S_, .f32⟩ : BufTy).Contents (Elt F) → (⟨S50000, .f32⟩ : BufTy).Contents (Elt F)),
    binary main_v45 main_v46 main_v47 (maximumf : (⟨S50000, .f32⟩ : BufTy).Contents (Elt F) → (⟨S50000, .f32⟩ : BufTy).Contents (Elt F) → (⟨S50000, .f32⟩ : BufTy).Contents (Elt F)) ]

/-- The rest of the second layer, its activation's fifteen operations in line (two selections nested in it). -/
abbrev opsB2 : List (HloOp τ sig (Elt F)) :=
  [ unary main_v47 main_v48 (broadcastInDim S50000x1 ![0] bcast_S50000_S50000x1_0 : (⟨S50000, .f32⟩ : BufTy).Contents (Elt F) → (⟨S50000x1, .f32⟩ : BufTy).Contents (Elt F)),
    unary main_v48 main_v49 (broadcastInDim S50000x128 ![0, 1] bcast_S50000x1_S50000x128_0_1 : (⟨S50000x1, .f32⟩ : BufTy).Contents (Elt F) → (⟨S50000x128, .f32⟩ : BufTy).Contents (Elt F)),
    binary main_v41 main_v49 main_v50 (Host.divf : (⟨S50000x128, .f32⟩ : BufTy).Contents (Elt F) → (⟨S50000x128, .f32⟩ : BufTy).Contents (Elt F) → (⟨S50000x128, .f32⟩ : BufTy).Contents (Elt F)),
    unary main_arg6 main_v51 ((transpose S128x128 [1, 0] · transposes_S128x128_S128x128_1_0) : (⟨S128x128, .f32⟩ : BufTy).Contents (Elt F) → (⟨S128x128, .f32⟩ : BufTy).Contents (Elt F)),
    binary main_v50 main_v51 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v52 main_v54 main_v55 (addf : (⟨S50000x128, .f32⟩ : BufTy).Contents (Elt F) → (⟨S50000x128, .f32⟩ : BufTy).Contents (Elt F) → (⟨S50000x128, .f32⟩ : BufTy).Contents (Elt F)),
    unary main_arg8 main_v56 ((transpose S128x128 [1, 0] · transposes_S128x128_S128x128_1_0) : (⟨S128x128, .f32⟩ : BufTy).Contents (Elt F) → (⟨S128x128, .f32⟩ : BufTy).Contents (Elt F)),
    binary main_v31 main_v56 main_v57 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v55 main_v57 main_v58 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v58 : TRef sig ⟨S50000x128, .f32⟩) main_call1.v0 main_call1.v1 (cmpf .ogt),
    TRef.nullary main_call1.cst_0 (constant S_ .f32 0x00000000#32),
    TRef.unary main_call1.cst_0 main_call1.v2 (broadcastInDim S50000x128 ![] bcast_S_S50000x128),
    TRef.binary (.of main_v58 : TRef sig ⟨S50000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x128 ![] bcast_S_S50000x128),
    TRef.ternary main_call1.v3 main_call1.call0.v1 (.of main_v58 : TRef sig ⟨S50000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S50000x128 ![] bcast_S_S50000x128),
    TRef.binary main_call1.v6 main_call1.v5 main_call1.v7 mulf,
    TRef.ternary main_call1.v1 (.of main_v58 : TRef sig ⟨S50000x128, .f32⟩) main_call1.v7 main_call1.call1.v0 select ]

/-- The third layer, the row-wise logarithm of the softmax's fifteen operations in line. -/
abbrev opsC : List (HloOp τ sig (Elt F)) :=
  [ nullary main_c_10 (constantI S_ 32 0#32),
    unary main_c_10 main_v60 (broadcastInDim S800000 ![] bcast_S_S800000 : (⟨S_, .i32⟩ : BufTy).Contents (Elt F) → (⟨S800000, .i32⟩ : BufTy).Contents (Elt F)),
    binary main_v1 main_v60 main_v61 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v62 (broadcastInDim S800000 ![] bcast_S_S800000 : (⟨S_, .i32⟩ : BufTy).Contents (Elt F) → (⟨S800000, .i32⟩ : BufTy).Contents (Elt F)),
    binary main_v1 main_v62 main_v63 (addi : (⟨S800000, .i32⟩ : BufTy).Contents (Elt F) → (⟨S800000, .i32⟩ : BufTy).Contents (Elt F) → (⟨S800000, .i32⟩ : BufTy).Contents (Elt F)),
    ternary main_v61 main_v63 main_v1 main_v64 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v64 main_v65 (broadcastInDim S800000x1 ![0] bcast_S800000_S800000x1_0 : (⟨S800000, .i32⟩ : BufTy).Contents (Elt F) → (⟨S800000x1, .i32⟩ : BufTy).Contents (Elt F)),
    binary main_v59 main_v65 main_v66 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v67 (broadcastInDim S50000x128 ![] bcast_S_S50000x128 : (⟨S_, .f32⟩ : BufTy).Contents (Elt F) → (⟨S50000x128, .f32⟩ : BufTy).Contents (Elt F)),
    unary main_v3 main_v68 (broadcastInDim S800000x1 ![0] bcast_S800000_S800000x1_0 : (⟨S800000, .i32⟩ : BufTy).Contents (Elt F) → (⟨S800000x1, .i32⟩ : BufTy).Contents (Elt F)),
    ternary main_v67 main_v68 main_v66 main_v69 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_13 (constant S_ .f32 0x3F800000#32),
    unary main_cst_13 main_v70 (broadcastInDim S800000 ![] bcast_S_S800000 : (⟨S_, .f32⟩ : BufTy).Contents (Elt F) → (⟨S800000, .f32⟩ : BufTy).Contents (Elt F)),
    nullary main_cst_14 (constant S_ .f32 0x00000000#32),
    unary main_cst_14 main_v71 (broadcastInDim S50000 ![] bcast_S_S50000 : (⟨S_, .f32⟩ : BufTy).Contents (Elt F) → (⟨S50000, .f32⟩ : BufTy).Contents (Elt F)),
    unary main_v3 main_v72 (broadcastInDim S800000x1 ![0] bcast_S800000_S800000x1_0 : (⟨S800000, .i32⟩ : BufTy).Contents (Elt F) → (⟨S800000x1, .i32⟩ : BufTy).Contents (Elt F)),
    ternary main_v71 main_v72 main_v70 main_v73 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_15 (constant S_ .f32 0x3F800000#32),
    unary main_cst_15 main_v74 (broadcastInDim S50000 ![] bcast_S_S50000 : (⟨S_, .f32⟩ : BufTy).Contents (Elt F) → (⟨S50000, .f32⟩ : BufTy).Contents (Elt F)),
    binary main_v73 main_v74 main_v75 (maximumf : (⟨S50000, .f32⟩ : BufTy).Contents (Elt F) → (⟨S50000, .f32⟩ : BufTy).Contents (Elt F) → (⟨S50000, .f32⟩ : BufTy).Contents (Elt F)),
    unary main_v75 main_v76 (broadcastInDim S50000x1 ![0] bcast_S50000_S50000x1_0 : (⟨S50000, .f32⟩ : BufTy).Contents (Elt F) → (⟨S50000x1, .f32⟩ : BufTy).Contents (Elt F)),
    unary main_v76 main_v77 (broadcastInDim S50000x128 ![0, 1] bcast_S50000x1_S50000x128_0_1 : (⟨S50000x1, .f32⟩ : BufTy).Contents (Elt F) → (⟨S50000x128, .f32⟩ : BufTy).Contents (Elt F)),
    binary main_v69 main_v77 main_v78 (Host.divf : (⟨S50000x128, .f32⟩ : BufTy).Contents (Elt F) → (⟨S50000x128, .f32⟩ : BufTy).Contents (Elt F) → (⟨S50000x128, .f32⟩ : BufTy).Contents (Elt F)),
    unary main_arg9 main_v79 ((transpose S128x8 [1, 0] · transposes_S8x128_S128x8_1_0) : (⟨S8x128, .f32⟩ : BufTy).Contents (Elt F) → (⟨S128x8, .f32⟩ : BufTy).Contents (Elt F)),
    binary main_v78 main_v79 main_v80 ((fun l r => Host.dotGeneral dot_S50000x128_S128x8_S50000x8_1_0_0_1_n_n none l r) : (⟨S50000x128, .f32⟩ : BufTy).Contents (Elt F) → (⟨S128x8, .f32⟩ : BufTy).Contents (Elt F) → (⟨S50000x8, .f32⟩ : BufTy).Contents (Elt F)),
    unary main_arg10 main_v81 (broadcastInDim S1x8 ![1] bcast_S8_S1x8_1 : (⟨S8, .f32⟩ : BufTy).Contents (Elt F) → (⟨S1x8, .f32⟩ : BufTy).Contents (Elt F)),
    unary main_v81 main_v82 (broadcastInDim S50000x8 ![0, 1] bcast_S1x8_S50000x8_0_1 : (⟨S1x8, .f32⟩ : BufTy).Contents (Elt F) → (⟨S50000x8, .f32⟩ : BufTy).Contents (Elt F)),
    binary main_v80 main_v82 main_v83 (addf : (⟨S50000x8, .f32⟩ : BufTy).Contents (Elt F) → (⟨S50000x8, .f32⟩ : BufTy).Contents (Elt F) → (⟨S50000x8, .f32⟩ : BufTy).Contents (Elt F)),
    unary main_arg11 main_v84 ((transpose S128x8 [1, 0] · transposes_S8x128_S128x8_1_0) : (⟨S8x128, .f32⟩ : BufTy).Contents (Elt F) → (⟨S128x8, .f32⟩ : BufTy).Contents (Elt F)),
    binary main_v59 main_v84 main_v85 ((fun l r => Host.dotGeneral dot_S50000x128_S128x8_S50000x8_1_0_0_1_n_n none l r) : (⟨S50000x128, .f32⟩ : BufTy).Contents (Elt F) → (⟨S128x8, .f32⟩ : BufTy).Contents (Elt F) → (⟨S50000x8, .f32⟩ : BufTy).Contents (Elt F)),
    binary main_v83 main_v85 main_v86 (addf : (⟨S50000x8, .f32⟩ : BufTy).Contents (Elt F) → (⟨S50000x8, .f32⟩ : BufTy).Contents (Elt F) → (⟨S50000x8, .f32⟩ : BufTy).Contents (Elt F)),
    TRef.nullary main_call2.cst (constant S_ .f32 0xFF800000#32),
    TRef.binary (.of main_v86 : TRef sig ⟨S50000x8, .f32⟩) main_call2.cst main_call2.v0 (fun x v => Host.reduce FloatOps.maximumf x v reducesTo_S50000x8_S50000_d1 h_S_),
    TRef.nullary main_call2.cst_0 (constant S_ .f32 0xFF800000#32),
    TRef.unary main_call2.cst_0 main_call2.v1 (broadcastInDim S50000 ![] bcast_S_S50000),
    TRef.binary main_call2.v1 main_call2.v0 main_call2.v2 maximumf,
    TRef.unary main_call2.v2 main_call2.v3 (broadcastInDim S50000x1 ![0] bcast_S50000_S50000x1_0),
    TRef.unary main_call2.v3 main_call2.v4 (broadcastInDim S50000x8 ![0, 1] bcast_S50000x1_S50000x8_0_1),
    TRef.binary (.of main_v86 : TRef sig ⟨S50000x8, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S50000x8_S50000_d1 h_S_),
    TRef.unary main_call2.v7 main_call2.v8 (broadcastInDim S50000x1 ![0] bcast_S50000_S50000x1_0),
    TRef.unary main_call2.v8 main_call2.v9 Host.log,
    TRef.unary main_call2.v9 main_call2.v10 (broadcastInDim S50000x8 ![0, 1] bcast_S50000x1_S50000x8_0_1),
    TRef.binary main_call2.v5 main_call2.v10 main_call2.v11 subf ]

/-- The whole program's 136 operations, in order. -/
abbrev ops : List (HloOp τ sig (Elt F)) := (opsA ++ opsB1) ++ (opsB2 ++ opsC)

/-! ## The program is that line -/

set_option maxRecDepth 4096 in
set_option maxHeartbeats 4000000 in
/-- The first window: the first layer and the second's sums, the positive part's body unfolded at its call. -/
theorem part0_eq (c : Dev nD) : main_part0 (F := F) c = seq (opsA ++ opsB1) := by
  simp only [main_part0, fn_relu.body, opsA, opsB1, List.cons_append, List.nil_append, seq, bind_assoc, pure_bind]
  rfl

set_option maxRecDepth 4096 in
set_option maxHeartbeats 4000000 in
/-- The second window: the rest, the two activations' bodies (and the selections inside the first) unfolded at their calls. -/
theorem part1_eq (c : Dev nD) : main_part1 (F := F) c = seq (opsB2 ++ opsC) := by
  simp only [main_part1, fn_elu.body, fn_where.body, fn_where_0.body, fn_log_softmax.body, opsB2, opsC, List.cons_append,
    List.nil_append, seq, bind_assoc, pure_bind]

theorem main_eq (c : Dev nD) : main (F := F) c = seq ops := by
  rw [show (ops : List (HloOp τ sig (Elt F))) = (opsA ++ opsB1) ++ (opsB2 ++ opsC) from rfl, seq_append, ← part0_eq c, ← part1_eq c]
  rfl

/-! ## Side conditions of the run -/

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., reshape_bufs_sub .., unary_bufs_sub .., reshape_bufs_sub .., nullary_bufs_sub ..,
    unary_bufs_sub .., binary_bufs_sub .., nullary_bufs_sub .., unary_bufs_sub .., binary_bufs_sub ..,
    ternary_bufs_sub .., unary_bufs_sub .., binary_bufs_sub .., nullary_bufs_sub .., unary_bufs_sub ..,
    unary_bufs_sub .., ternary_bufs_sub .., nullary_bufs_sub .., unary_bufs_sub .., nullary_bufs_sub ..,
    unary_bufs_sub .., unary_bufs_sub .., ternary_bufs_sub .., nullary_bufs_sub .., unary_bufs_sub ..,
    binary_bufs_sub .., unary_bufs_sub .., unary_bufs_sub .., binary_bufs_sub .., unary_bufs_sub ..,
    binary_bufs_sub .., unary_bufs_sub .., unary_bufs_sub .., binary_bufs_sub .., unary_bufs_sub ..,
    binary_bufs_sub .., binary_bufs_sub .., nullary_bufs_sub .., unary_bufs_sub .., binary_bufs_sub ..⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩

theorem opsB1_sub : (opsB1 : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., unary_bufs_sub .., ternary_bufs_sub .., nullary_bufs_sub .., unary_bufs_sub ..,
    nullary_bufs_sub .., unary_bufs_sub .., unary_bufs_sub .., ternary_bufs_sub .., nullary_bufs_sub ..,
    unary_bufs_sub .., binary_bufs_sub ..⟩

theorem opsB1_fresh : (opsB1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem opsB2_sub : (opsB2 : List (HloOp τ sig (Elt F))).Forall fun op => op.bufs ⊆ tcRefs τ sig :=
  ⟨unary_bufs_sub .., unary_bufs_sub .., binary_bufs_sub .., unary_bufs_sub .., binary_bufs_sub .., unary_bufs_sub ..,
    unary_bufs_sub .., binary_bufs_sub .., unary_bufs_sub .., binary_bufs_sub .., binary_bufs_sub ..,
    nullary_bufs_sub .., unary_bufs_sub .., binary_bufs_sub .., nullary_bufs_sub .., unary_bufs_sub ..,
    binary_bufs_sub .., nullary_bufs_sub .., unary_bufs_sub .., unary_bufs_sub .., ternary_bufs_sub ..,
    unary_bufs_sub .., nullary_bufs_sub .., unary_bufs_sub .., binary_bufs_sub .., ternary_bufs_sub ..⟩

theorem opsB2_fresh : (opsB2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
    rfl, rfl, rfl⟩

theorem opsC_sub : (opsC : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., unary_bufs_sub .., ternary_bufs_sub .., nullary_bufs_sub .., unary_bufs_sub ..,
    nullary_bufs_sub .., unary_bufs_sub .., unary_bufs_sub .., ternary_bufs_sub .., nullary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., unary_bufs_sub ..,
    binary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., unary_bufs_sub ..,
    binary_bufs_sub ..⟩

theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl,
    rfl, rfl⟩

theorem ops_sub : (ops : List (HloOp τ sig (Elt F))).Forall fun op => op.bufs ⊆ tcRefs τ sig :=
  List.forall_append.2 ⟨List.forall_append.2 ⟨opsA_sub, opsB1_sub⟩, List.forall_append.2 ⟨opsB2_sub, opsC_sub⟩⟩

theorem ops_fresh : ∀ op ∈ (ops : List (HloOp τ sig (Elt F))), op.fresh = ∅ :=
  List.forall_iff_forall_mem.1
    (List.forall_append.2 ⟨List.forall_append.2 ⟨opsA_fresh, opsB1_fresh⟩, List.forall_append.2 ⟨opsB2_fresh, opsC_fresh⟩⟩)

/-! ## What each stretch leaves, from any contents -/

attribute [local irreducible] Host.gather Host.scatterAdd Host.divf in
set_option maxRecDepth 8192 in
set_option maxHeartbeats 1000000 in
/-- After the first stretch the first layer's output is the first layer at the arguments. -/
theorem A_v31 (V : Valuation τ sig (Elt F)) :
    after opsA V (main_v31 : DevRef τ sig)
      = h1Of (V (main_arg1 : DevRef τ sig)) (V (main_arg0 : DevRef τ sig)) (V (main_arg3 : DevRef τ sig)) (V (main_arg4 : DevRef τ sig)) (V (main_arg5 : DevRef τ sig)) := by
  after_results_simp <;> (try simp only [TRef.ofBuf, TRef.toBuf, cast_eq]) <;> rfl

set_option maxRecDepth 8192 in
/-- … and the two rows of the edge list sit where the later layers read them. -/
theorem A_v1 (V : Valuation τ sig (Elt F)) : after opsA V (main_v1 : DevRef τ sig) = srcOf (V (main_arg1 : DevRef τ sig)) := by
  after_results_simp <;> rfl

set_option maxRecDepth 8192 in
theorem A_v3 (V : Valuation τ sig (Elt F)) : after opsA V (main_v3 : DevRef τ sig) = dstOf (V (main_arg1 : DevRef τ sig)) := by
  after_results_simp <;> rfl

set_option maxRecDepth 8192 in
/-- The first stretch writes no argument. -/
theorem A_args (V : Valuation τ sig (Elt F)) :
    after opsA V (main_arg0 : DevRef τ sig) = V (main_arg0 : DevRef τ sig)
    ∧ after opsA V (main_arg1 : DevRef τ sig) = V (main_arg1 : DevRef τ sig)
    ∧ after opsA V (main_arg2 : DevRef τ sig) = V (main_arg2 : DevRef τ sig)
    ∧ after opsA V (main_arg3 : DevRef τ sig) = V (main_arg3 : DevRef τ sig)
    ∧ after opsA V (main_arg4 : DevRef τ sig) = V (main_arg4 : DevRef τ sig)
    ∧ after opsA V (main_arg5 : DevRef τ sig) = V (main_arg5 : DevRef τ sig)
    ∧ after opsA V (main_arg6 : DevRef τ sig) = V (main_arg6 : DevRef τ sig)
    ∧ after opsA V (main_arg7 : DevRef τ sig) = V (main_arg7 : DevRef τ sig)
    ∧ after opsA V (main_arg8 : DevRef τ sig) = V (main_arg8 : DevRef τ sig)
    ∧ after opsA V (main_arg9 : DevRef τ sig) = V (main_arg9 : DevRef τ sig)
    ∧ after opsA V (main_arg10 : DevRef τ sig) = V (main_arg10 : DevRef τ sig)
    ∧ after opsA V (main_arg11 : DevRef τ sig) = V (main_arg11 : DevRef τ sig) := by
  refine ⟨?_, ?_, ?_, ?_, ?_, ?_, ?_, ?_, ?_, ?_, ?_, ?_⟩ <;> after_results_simp

attribute [local irreducible] Host.gather Host.scatterAdd Host.divf Host.expm1 in
set_option maxRecDepth 8192 in
set_option maxHeartbeats 1000000 in
/-- After the second stretch the second layer's output is the second layer at the first's output, the edge rows and the
    arguments as the stretch found them. -/
theorem B_v59 (V : Valuation τ sig (Elt F)) :
    after opsB2 (after opsB1 V) (main_v59 : DevRef τ sig)
      = eluOf (lin128Of (meanOf (V (main_v1 : DevRef τ sig)) (V (main_v3 : DevRef τ sig)) (V (main_v31 : DevRef τ sig))) (V (main_v31 : DevRef τ sig))
          (V (main_arg6 : DevRef τ sig)) (V (main_arg7 : DevRef τ sig)) (V (main_arg8 : DevRef τ sig))) := by
  after_results_simp <;> (try simp only [TRef.ofBuf, TRef.toBuf, cast_eq]) <;> rfl

set_option maxRecDepth 8192 in
/-- The second stretch writes neither edge row nor any argument. -/
theorem B_keeps (V : Valuation τ sig (Elt F)) :
    after opsB2 (after opsB1 V) (main_v1 : DevRef τ sig) = V (main_v1 : DevRef τ sig)
    ∧ after opsB2 (after opsB1 V) (main_v3 : DevRef τ sig) = V (main_v3 : DevRef τ sig)
    ∧ after opsB2 (after opsB1 V) (main_arg0 : DevRef τ sig) = V (main_arg0 : DevRef τ sig)
    ∧ after opsB2 (after opsB1 V) (main_arg1 : DevRef τ sig) = V (main_arg1 : DevRef τ sig)
    ∧ after opsB2 (after opsB1 V) (main_arg2 : DevRef τ sig) = V (main_arg2 : DevRef τ sig)
    ∧ after opsB2 (after opsB1 V) (main_arg3 : DevRef τ sig) = V (main_arg3 : DevRef τ sig)
    ∧ after opsB2 (after opsB1 V) (main_arg4 : DevRef τ sig) = V (main_arg4 : DevRef τ sig)
    ∧ after opsB2 (after opsB1 V) (main_arg5 : DevRef τ sig) = V (main_arg5 : DevRef τ sig)
    ∧ after opsB2 (after opsB1 V) (main_arg6 : DevRef τ sig) = V (main_arg6 : DevRef τ sig)
    ∧ after opsB2 (after opsB1 V) (main_arg7 : DevRef τ sig) = V (main_arg7 : DevRef τ sig)
    ∧ after opsB2 (after opsB1 V) (main_arg8 : DevRef τ sig) = V (main_arg8 : DevRef τ sig)
    ∧ after opsB2 (after opsB1 V) (main_arg9 : DevRef τ sig) = V (main_arg9 : DevRef τ sig)
    ∧ after opsB2 (after opsB1 V) (main_arg10 : DevRef τ sig) = V (main_arg10 : DevRef τ sig)
    ∧ after opsB2 (after opsB1 V) (main_arg11 : DevRef τ sig) = V (main_arg11 : DevRef τ sig) := by
  refine ⟨?_, ?_, ?_, ?_, ?_, ?_, ?_, ?_, ?_, ?_, ?_, ?_, ?_, ?_⟩ <;> after_results_simp

attribute [local irreducible] Host.gather Host.scatterAdd Host.divf Host.reduce Host.reduceAdd Host.exp Host.log in
set_option maxRecDepth 8192 in
set_option maxHeartbeats 1000000 in
/-- After the third stretch the result is the third layer at the second's output. -/
theorem C_v87 (V : Valuation τ sig (Elt F)) :
    after opsC V (main_v87 : DevRef τ sig)
      = logSoftmaxOf (lin8Of (meanOf (V (main_v1 : DevRef τ sig)) (V (main_v3 : DevRef τ sig)) (V (main_v59 : DevRef τ sig))) (V (main_v59 : DevRef τ sig))
          (V (main_arg9 : DevRef τ sig)) (V (main_arg10 : DevRef τ sig)) (V (main_arg11 : DevRef τ sig))) := by
  after_results_simp <;> (try simp only [TRef.ofBuf, TRef.toBuf, cast_eq]) <;> rfl

set_option maxRecDepth 8192 in
/-- The third stretch writes no argument. -/
theorem C_args (V : Valuation τ sig (Elt F)) :
    after opsC V (main_arg0 : DevRef τ sig) = V (main_arg0 : DevRef τ sig)
    ∧ after opsC V (main_arg1 : DevRef τ sig) = V (main_arg1 : DevRef τ sig)
    ∧ after opsC V (main_arg2 : DevRef τ sig) = V (main_arg2 : DevRef τ sig)
    ∧ after opsC V (main_arg3 : DevRef τ sig) = V (main_arg3 : DevRef τ sig)
    ∧ after opsC V (main_arg4 : DevRef τ sig) = V (main_arg4 : DevRef τ sig)
    ∧ after opsC V (main_arg5 : DevRef τ sig) = V (main_arg5 : DevRef τ sig)
    ∧ after opsC V (main_arg6 : DevRef τ sig) = V (main_arg6 : DevRef τ sig)
    ∧ after opsC V (main_arg7 : DevRef τ sig) = V (main_arg7 : DevRef τ sig)
    ∧ after opsC V (main_arg8 : DevRef τ sig) = V (main_arg8 : DevRef τ sig)
    ∧ after opsC V (main_arg9 : DevRef τ sig) = V (main_arg9 : DevRef τ sig)
    ∧ after opsC V (main_arg10 : DevRef τ sig) = V (main_arg10 : DevRef τ sig)
    ∧ after opsC V (main_arg11 : DevRef τ sig) = V (main_arg11 : DevRef τ sig) := by
  refine ⟨?_, ?_, ?_, ?_, ?_, ?_, ?_, ?_, ?_, ?_, ?_, ?_⟩ <;> after_results_simp

/-! ## The whole line -/

theorem after_ops (V : Valuation τ sig (Elt F)) :
    after ops V = after opsC (after opsB2 (after opsB1 (after opsA V))) := by
  rw [show (ops : List (HloOp τ sig (Elt F))) = (opsA ++ opsB1) ++ (opsB2 ++ opsC) from rfl,
    StableHlo.after_append, StableHlo.after_append, StableHlo.after_append]

/-- From any contents, the whole line leaves the result at the three layers of the arguments. -/
theorem out_eq (V : Valuation τ sig (Elt F)) :
    after ops V (main_v87 : DevRef τ sig)
      = outOf (V (main_arg1 : DevRef τ sig))
          (h2Of (V (main_arg1 : DevRef τ sig))
            (h1Of (V (main_arg1 : DevRef τ sig)) (V (main_arg0 : DevRef τ sig)) (V (main_arg3 : DevRef τ sig)) (V (main_arg4 : DevRef τ sig)) (V (main_arg5 : DevRef τ sig)))
            (V (main_arg6 : DevRef τ sig)) (V (main_arg7 : DevRef τ sig)) (V (main_arg8 : DevRef τ sig)))
          (V (main_arg9 : DevRef τ sig)) (V (main_arg10 : DevRef τ sig)) (V (main_arg11 : DevRef τ sig)) := by
  obtain ⟨bv1, bv3, -, -, -, -, -, -, -, -, -, b9, b10, b11⟩ := B_keeps (F := F) (after opsA V)
  obtain ⟨-, -, -, -, -, -, a6, a7, a8, a9, a10, a11⟩ := A_args (F := F) V
  rw [after_ops, C_v87, bv1, bv3, b9, b10, b11, B_v59, A_v1, A_v3, A_v31, a6, a7, a8, a9, a10, a11]
  rfl

/-- From any contents, the whole line leaves every argument as it found it. -/
theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig) := by
  obtain ⟨c0, c1, c2, c3, c4, c5, c6, c7, c8, c9, c10, c11⟩ := C_args (F := F) (after opsB2 (after opsB1 (after opsA V)))
  obtain ⟨-, -, b0, b1, b2, b3, b4, b5, b6, b7, b8, b9, b10, b11⟩ := B_keeps (F := F) (after opsA V)
  obtain ⟨a0, a1, a2, a3, a4, a5, a6, a7, a8, a9, a10, a11⟩ := A_args (F := F) V
  rw [after_ops]
  exact ⟨c0.trans (b0.trans a0), c1.trans (b1.trans a1), c2.trans (b2.trans a2), c3.trans (b3.trans a3), c4.trans (b4.trans a4), c5.trans (b5.trans a5), c6.trans (b6.trans a6), c7.trans (b7.trans a7), c8.trans (b8.trans a8), c9.trans (b9.trans a9), c10.trans (b10.trans a10), c11.trans (b11.trans a11)⟩

/-! ## The run -/
/-- On every device, for any float values, from any memory with zero counters: every weakly fair execution of @main
    terminates with the result at the three layers of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87)
          = outOf (m ((c.tc : Thread nD τ).loc main_arg1))
              (h2Of (m ((c.tc : Thread nD τ).loc main_arg1))
                (h1Of (m ((c.tc : Thread nD τ).loc main_arg1)) (m ((c.tc : Thread nD τ).loc main_arg0))
                  (m ((c.tc : Thread nD τ).loc main_arg3)) (m ((c.tc : Thread nD τ).loc main_arg4)) (m ((c.tc : Thread nD τ).loc main_arg5)))
                (m ((c.tc : Thread nD τ).loc main_arg6)) (m ((c.tc : Thread nD τ).loc main_arg7)) (m ((c.tc : Thread nD τ).loc main_arg8)))
              (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun _ h c => ?_)
    (run_seq scopedRefs_eq scopedSems_eq defs main (fun _ => ops) main_eq (fun _ => ops_sub) m ρ (fun _ => ops_fresh))
  obtain ⟨a0, a1, a2, a3, a4, a5, a6, a7, a8, a9, a10, a11⟩ := args_eq (F := F) (launchContents m c)
  exact ⟨(h c main_v87).trans (out_eq _), (h c main_arg0).trans a0, (h c main_arg1).trans a1, (h c main_arg2).trans a2, (h c main_arg3).trans a3, (h c main_arg4).trans a4, (h c main_arg5).trans a5, (h c main_arg6).trans a6, (h c main_arg7).trans a7, (h c main_arg8).trans a8, (h c main_arg9).trans a9, (h c main_arg10).trans a10, (h c main_arg11).trans a11⟩

end Cert.ReferenceIdeal.Hand

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibBroadcastInDim.lean ====
/-
  A host `broadcast_in_dim` between a vector, a one-row or one-column matrix and a matrix, read at an entry (general
  in the sizes): a vector laid along the columns of a one-row matrix or along the rows of a one-column matrix, and a
  one-row or one-column matrix spread over all rows or all columns. Each reads the operand at the coordinate that
  survives.
-/
import Idealize.ShloMosaic.Lib.Pipeline.Value
import Idealize.ShloMosaic.Lib.ValueIdx

namespace Idealize.ShloMosaic.ValueLayout

open Idealize.ShloMosaic.ValueIdx

variable {α : Type}

/-- A vector `[n]` laid as the one row of `[1, n]` reads, at `(u, i)`, the vector at `i`. -/
theorem bcast_n_1n_apply {n : ℕ} (h : (⟨1, ![n]⟩ : Shape).BroadcastsInDim ⟨2, ![1, n]⟩ (![1] : Fin 1 → Fin 2))
    (x : (⟨1, ![n]⟩ : Shape).Idx → α) (u : Fin 1) (i : Fin n) :
    broadcastInDim ⟨2, ![1, n]⟩ ![1] h x (ix2 u i) = x (ix1 i) :=
  broadcastInDim_apply _ h x _ _ (fun a => by
    match a with
    | ⟨0, _⟩ =>
      show i.val = if n = 1 then 0 else i.val
      split
      · have := i.isLt; omega
      · rfl)

/-- A vector `[n]` laid as the one column of `[n, 1]` reads, at `(i, u)`, the vector at `i`. -/
theorem bcast_n_n1_apply {n : ℕ} (h : (⟨1, ![n]⟩ : Shape).BroadcastsInDim ⟨2, ![n, 1]⟩ (![0] : Fin 1 → Fin 2))
    (x : (⟨1, ![n]⟩ : Shape).Idx → α) (i : Fin n) (u : Fin 1) :
    broadcastInDim ⟨2, ![n, 1]⟩ ![0] h x (ix2 i u) = x (ix1 i) :=
  broadcastInDim_apply _ h x _ _ (fun a => by
    match a with
    | ⟨0, _⟩ =>
      show i.val = if n = 1 then 0 else i.val
      split
      · have := i.isLt; omega
      · rfl)

/-- A one-row matrix `[1, n]` spread over `r` rows reads, at `(p, i)`, the row at `i`. -/
theorem bcast_1n_rn_apply {r n : ℕ} (h : (⟨2, ![1, n]⟩ : Shape).BroadcastsInDim ⟨2, ![r, n]⟩ (![0, 1] : Fin 2 → Fin 2))
    (x : (⟨2, ![1, n]⟩ : Shape).Idx → α) (p : Fin r) (i : Fin n) :
    broadcastInDim ⟨2, ![r, n]⟩ ![0, 1] h x (ix2 p i) = x (ix2 (0 : Fin 1) i) :=
  broadcastInDim_apply _ h x _ _ (fun a => by
    match a with
    | ⟨0, _⟩ => show (0 : ℕ) = if (1 : ℕ) = 1 then 0 else p.val; rw [if_pos rfl]
    | ⟨1, _⟩ =>
      show i.val = if n = 1 then 0 else i.val
      split
      · have := i.isLt; omega
      · rfl)

/-- A one-column matrix `[r, 1]` spread over `n` columns reads, at `(p, i)`, the column at `p`. -/
theorem bcast_r1_rn_apply {r n : ℕ} (h : (⟨2, ![r, 1]⟩ : Shape).BroadcastsInDim ⟨2, ![r, n]⟩ (![0, 1] : Fin 2 → Fin 2))
    (x : (⟨2, ![r, 1]⟩ : Shape).Idx → α) (p : Fin r) (i : Fin n) :
    broadcastInDim ⟨2, ![r, n]⟩ ![0, 1] h x (ix2 p i) = x (ix2 p (0 : Fin 1)) :=
  broadcastInDim_apply _ h x _ _ (fun a => by
    match a with
    | ⟨0, _⟩ =>
      show p.val = if r = 1 then 0 else p.val
      split
      · have := p.isLt; omega
      · rfl
    | ⟨1, _⟩ => show (0 : ℕ) = if (1 : ℕ) = 1 then 0 else i.val; rw [if_pos rfl])

end Idealize.ShloMosaic.ValueLayout
-- ==== Proof.RMathA.lean ====
/-
  The reference's affine part and its first two activations read at an entry: the two matrix products through
  transposed weights are rows against rows, the bias vector laid as a row and spread over all rows is its entry at the
  column, and the sum's two orders agree on the extended reals; the positive part and the exponential linear unit act
  entry by entry.
-/
import proofs.«133615_j36567351558183_1_alg».proof.Proof.RTerms
import proofs.«133615_j36567351558183_1_alg».proof.Proof.Spec
import proofs.«133615_j36567351558183_1_alg».proof.Proof.LibPlainDot
import proofs.«133615_j36567351558183_1_alg».proof.Proof.LibBroadcastInDim
import proofs.«133615_j36567351558183_1_alg».proof.Proof.LibERealArith
import Idealize.ShloMosaic.Lib.Pipeline.Value
import Idealize.ShloMosaic.Lib.ValueIdx
import Idealize.ShloMosaic.PureOps.Ideal.Laws

open scoped BigOperators

noncomputable section

namespace Cert.ReferenceIdeal.Hand

open Idealize.ShloMosaic Idealize.ShloMosaic.ValueIdx Cert.ReferenceIdeal Cert.ReferenceIdeal.Gen
open Idealize.ShloMosaic.PlainDot Idealize.ShloMosaic.ValueLayout

/-- The transposed square weight at (k, q) is the weight at (q, k). -/
private theorem transpose128_apply (w : FVec Ideal S128x128 .f32) (k q : Fin 128) :
    transpose S128x128 [1, 0] w transposes_S128x128_S128x128_1_0 (ix2 k q) = w (ix2 q k) :=
  transpose_apply [1, 0] w transposes_S128x128_S128x128_1_0 (ix2 k q) (ix2 q k) (fun b => by
    match b with
    | ⟨0, _⟩ => rfl
    | ⟨1, _⟩ => rfl)

/-- The transposed eight-row weight at (k, q) is the weight at (q, k). -/
private theorem transpose8_apply (w : FVec Ideal S8x128 .f32) (k : Fin 128) (q : Fin 8) :
    transpose S128x8 [1, 0] w transposes_S8x128_S128x8_1_0 (ix2 k q) = w (ix2 q k) :=
  transpose_apply [1, 0] w transposes_S8x128_S128x8_1_0 (ix2 k q) (ix2 q k) (fun b => by
    match b with
    | ⟨0, _⟩ => rfl
    | ⟨1, _⟩ => rfl)

/-- A wide layer's affine part at (p, q). -/
theorem lin128_apply (a h : FVec Ideal S50000x128 .f32) (wl : FVec Ideal S128x128 .f32) (b : FVec Ideal S128 .f32)
    (wr : FVec Ideal S128x128 .f32) (p : Fin 50000) (q : Fin 128) :
    lin128Of a h wl b wr (ix2 p q) = Cert.Sage.lin a h wl wr (fun q => b (ix1 q)) p q := by
  have hd : IsPlain (R := 50000) (K := 128) (N := 128) dot_S50000x128_S128x128_S50000x128_1_0_0_1_n_n :=
    ⟨rfl, rfl, rfl, rfl, rfl, rfl⟩
  -- entry by entry: (product with wlᵀ + bias spread over the rows) + product with wrᵀ
  show (FloatOps.dotGeneral dot_S50000x128_S128x128_S50000x128_1_0_0_1_n_n none .single a
          (transpose S128x128 [1, 0] wl transposes_S128x128_S128x128_1_0) (ix2 p q)
        + broadcastInDim S50000x128 ![0, 1] bcast_S1x128_S50000x128_0_1
            (broadcastInDim S1x128 ![1] bcast_S128_S1x128_1 b) (ix2 p q))
      + FloatOps.dotGeneral dot_S50000x128_S128x128_S50000x128_1_0_0_1_n_n none .single h
          (transpose S128x128 [1, 0] wr transposes_S128x128_S128x128_1_0) (ix2 p q) = _
  rw [dotGeneral_apply hd, dotGeneral_apply hd, bcast_1n_rn_apply, bcast_n_1n_apply]
  unfold Cert.Sage.lin
  -- (s + β) + t = (s + t) + β in a commutative additive monoid
  refine (add_right_comm (G := EReal) _ _ _).trans ?_
  rw [Finset.sum_congr rfl fun k _ => congrArg (a (ix2 p k) * ·) (transpose128_apply wl k q),
    Finset.sum_congr rfl fun k _ => congrArg (h (ix2 p k) * ·) (transpose128_apply wr k q)]

/-- The last layer's affine part at (p, q). -/
theorem lin8_apply (a h : FVec Ideal S50000x128 .f32) (wl : FVec Ideal S8x128 .f32) (b : FVec Ideal S8 .f32)
    (wr : FVec Ideal S8x128 .f32) (p : Fin 50000) (q : Fin 8) :
    lin8Of a h wl b wr (ix2 p q) = Cert.Sage.lin a h wl wr (fun q => b (ix1 q)) p q := by
  have hd : IsPlain (R := 50000) (K := 128) (N := 8) dot_S50000x128_S128x8_S50000x8_1_0_0_1_n_n :=
    ⟨rfl, rfl, rfl, rfl, rfl, rfl⟩
  show (FloatOps.dotGeneral dot_S50000x128_S128x8_S50000x8_1_0_0_1_n_n none .single a
          (transpose S128x8 [1, 0] wl transposes_S8x128_S128x8_1_0) (ix2 p q)
        + broadcastInDim S50000x8 ![0, 1] bcast_S1x8_S50000x8_0_1
            (broadcastInDim S1x8 ![1] bcast_S8_S1x8_1 b) (ix2 p q))
      + FloatOps.dotGeneral dot_S50000x128_S128x8_S50000x8_1_0_0_1_n_n none .single h
          (transpose S128x8 [1, 0] wr transposes_S8x128_S128x8_1_0) (ix2 p q) = _
  rw [dotGeneral_apply hd, dotGeneral_apply hd, bcast_1n_rn_apply, bcast_n_1n_apply]
  unfold Cert.Sage.lin
  refine (add_right_comm (G := EReal) _ _ _).trans ?_
  rw [Finset.sum_congr rfl fun k _ => congrArg (a (ix2 p k) * ·) (transpose8_apply wl k q),
    Finset.sum_congr rfl fun k _ => congrArg (h (ix2 p k) * ·) (transpose8_apply wr k q)]

/-- The positive part at an entry. -/
theorem reluOf_apply (x : FVec Ideal S50000x128 .f32) (j : S50000x128.Idx) :
    reluOf x j = max (x j) (Ideal.ofBits .f32 0x00000000#32) := rfl

/-- The exponential linear unit at an entry. -/
theorem eluOf_apply (x : FVec Ideal S50000x128 .f32) (j : S50000x128.Idx) :
    eluOf x j = Cert.Sage.eluAt (x j) := by
  -- entry by entry: the outer choice between the value and 1 · (exp − 1) of the inner choice
  show Scalar.select (Ideal.cmp .ogt (x j) (Ideal.ofBits .f32 0x00000000#32)) (x j)
      (Ideal.ofBits .f32 0x3F800000#32 *
        (Ideal.exp (Scalar.select (Ideal.cmp .ogt (x j) (Ideal.ofBits .f32 0x00000000#32))
          (Ideal.ofBits .f32 0x00000000#32) (x j)) - 1))
    = Scalar.select (Ideal.cmp .ogt (x j) (Ideal.ofBits .f32 0x00000000#32)) (x j) (Ideal.exp (x j) - 1)
  by_cases hc : Ideal.cmp .ogt (x j) (Ideal.ofBits .f32 0x00000000#32) = 1#1
  · -- above zero: both sides are the value
    rw [hc, select_one, select_one]
  · -- not above zero: the inner choice is the value, and the factor is one
    rw [eq_zero_of_ne_one hc, select_zero, select_zero, select_zero, Cert.Lib.ERealArith.ofBits_one, EReal.coe_one,
      one_mul]

end Cert.ReferenceIdeal.Hand

end
-- ==== Proof.RMathB.lean ====
/-
  The reference's logarithm of the softmax read at an entry: the row maximum and the row sum are the fold and the sum
  over the row's eight entries, the columns they are spread through keep the row's value, and one more maximum against
  `-∞` changes nothing.
-/
import proofs.«133615_j36567351558183_1_alg».proof.Proof.RTerms
import proofs.«133615_j36567351558183_1_alg».proof.Proof.Spec
import proofs.«133615_j36567351558183_1_alg».proof.Proof.LibRowReduce
import proofs.«133615_j36567351558183_1_alg».proof.Proof.LibBroadcastInDim
import Idealize.ShloMosaic.Lib.Pipeline.Value
import Idealize.ShloMosaic.Lib.ValueIdx
import Idealize.ShloMosaic.PureOps.Ideal.Laws
import Mathlib.Data.Finset.Fold

open scoped BigOperators

noncomputable section

namespace Cert.ReferenceIdeal.Hand

open Idealize.ShloMosaic Idealize.ShloMosaic.ValueIdx Cert.ReferenceIdeal Cert.ReferenceIdeal.Gen

/-- A host's logarithm read at an index is the logarithm of the element there. -/
theorem hostLog_apply {s : Shape} {φ : FTy} (v : FVec Ideal s φ) (i : s.Idx) : Host.log v i = Ideal.log (v i) := rfl

/-- A host's exponential read at an index is the exponential of the element there. -/
theorem hostExp_apply {s : Shape} {φ : FTy} (v : FVec Ideal s φ) (i : s.Idx) : Host.exp v i = Ideal.exp (v i) := rfl

/-- The second axis of a `[50000, 8]` matrix reduces away to a `[50000]` vector. -/
theorem reduces_S50000x8_S50000 : (⟨2, ![50000, 8]⟩ : Shape).Reduces [1] ⟨1, ![50000]⟩ := by decide

/-- The row maximum spread back over the row, read at (p, q): the maximum of row p from `-∞`. The column and the row it
    is spread through keep the value at p; the fold from `-∞` is at least `-∞`, so one more maximum against it changes
    nothing. -/
theorem rowMaxOf_apply (x : FVec Ideal S50000x8 .f32) (p : Fin 50000) (q : Fin 8) :
    rowMaxOf x (ix2 p q) = Cert.Sage.rowMax (fun j => x (ix2 p j)) := by
  unfold rowMaxOf Cert.Sage.rowMax
  refine (ValueLayout.bcast_r1_rn_apply bcast_S50000x1_S50000x8_0_1 _ p q).trans ?_
  refine (ValueLayout.bcast_n_n1_apply bcast_S50000_S50000x1_0 _ p 0).trans ?_
  rw [maximumf_apply]
  rw [RowReduce.hostReduce_max_row x _ reducesTo_S50000x8_S50000_d1 reduces_S50000x8_S50000 h_S_ p]
  exact max_eq_right ((Finset.le_fold_max _).mpr (Or.inl le_rfl))

/-- The logarithm of the softmax at (p, q) is that of row p at q. -/
theorem logSoftmaxOf_apply (x : FVec Ideal S50000x8 .f32) (p : Fin 50000) (q : Fin 8) :
    logSoftmaxOf x (ix2 p q) = Cert.Sage.logSoftmaxAt (fun j => x (ix2 p j)) q := by
  -- the row's sum of exponentials, from the initial value zero
  have hsum : Host.reduceAdd (Host.exp (subf x (rowMaxOf x))) (constant S_ .f32 0x00000000#32)
        reducesTo_S50000x8_S50000_d1 h_S_ (ix1 p)
      = ∑ j : Fin 8, Ideal.exp (x (ix2 p j) - Cert.Sage.rowMax (fun j => x (ix2 p j))) := by
    rw [RowReduce.hostReduceAdd_row _ _ reducesTo_S50000x8_S50000_d1 reduces_S50000x8_S50000 h_S_ p]
    show Ideal.ofBits .f32 0x00000000#32 + _ = _
    rw [Ideal.ofBits_zero_f32, zero_add]
    refine Finset.sum_congr rfl fun k _ => ?_
    rw [hostExp_apply, subf_apply, rowMaxOf_apply]
  -- its logarithm, spread through a column and back over the row
  have hlog : broadcastInDim S50000x8 ![0, 1] bcast_S50000x1_S50000x8_0_1
        (Host.log (broadcastInDim S50000x1 ![0] bcast_S50000_S50000x1_0
          (Host.reduceAdd (Host.exp (subf x (rowMaxOf x))) (constant S_ .f32 0x00000000#32)
            reducesTo_S50000x8_S50000_d1 h_S_))) (ix2 p q)
      = Ideal.log (∑ j : Fin 8, Ideal.exp (x (ix2 p j) - Cert.Sage.rowMax (fun j => x (ix2 p j)))) := by
    refine (ValueLayout.bcast_r1_rn_apply bcast_S50000x1_S50000x8_0_1 _ p q).trans ?_
    refine (hostLog_apply _ _).trans (congrArg Ideal.log ?_)
    exact (ValueLayout.bcast_n_n1_apply bcast_S50000_S50000x1_0 _ p 0).trans hsum
  unfold logSoftmaxOf Cert.Sage.logSoftmaxAt
  rw [subf_apply, subf_apply, rowMaxOf_apply, hlog]

end Cert.ReferenceIdeal.Hand

end
-- ==== Proof.RMath.lean ====
/-
  The reference's three layers are the specification's, and so is their sequence: each activation acts entry by entry
  (or row by row) on the affine part, whose entry (p, q) is the specification's `lin`.
-/
import proofs.«133615_j36567351558183_1_alg».proof.Proof.RMathA
import proofs.«133615_j36567351558183_1_alg».proof.Proof.RMathB

noncomputable section

namespace Cert.ReferenceIdeal.Hand

open Idealize.ShloMosaic Idealize.ShloMosaic.ValueIdx Cert.ReferenceIdeal Cert.ReferenceIdeal.Gen

/-- The first layer: the positive part of the affine part. -/
theorem relu_layer (a h : FVec Ideal S50000x128 .f32) (wl : FVec Ideal S128x128 .f32) (b : FVec Ideal S128 .f32)
    (wr : FVec Ideal S128x128 .f32) :
    reluOf (lin128Of a h wl b wr) = Cert.Sage.reluLayer a h wl wr (fun q => b (ix1 q)) := by
  funext j
  obtain ⟨p, q, rfl⟩ : ∃ (p : Fin 50000) (q : Fin 128), j = ix2 p q := ⟨j 0, j 1, eq_ix2 j⟩
  rw [reluOf_apply, lin128_apply]
  rfl

/-- The second layer: the exponential linear unit of the affine part. -/
theorem elu_layer (a h : FVec Ideal S50000x128 .f32) (wl : FVec Ideal S128x128 .f32) (b : FVec Ideal S128 .f32)
    (wr : FVec Ideal S128x128 .f32) :
    eluOf (lin128Of a h wl b wr) = Cert.Sage.eluLayer a h wl wr (fun q => b (ix1 q)) := by
  funext j
  obtain ⟨p, q, rfl⟩ : ∃ (p : Fin 50000) (q : Fin 128), j = ix2 p q := ⟨j 0, j 1, eq_ix2 j⟩
  rw [eluOf_apply, lin128_apply]
  rfl

/-- The third layer: the logarithm of the softmax along the rows of the affine part. -/
theorem logSoftmax_layer (a h : FVec Ideal S50000x128 .f32) (wl : FVec Ideal S8x128 .f32) (b : FVec Ideal S8 .f32)
    (wr : FVec Ideal S8x128 .f32) :
    logSoftmaxOf (lin8Of a h wl b wr) = Cert.Sage.logSoftmaxLayer a h wl wr (fun q => b (ix1 q)) := by
  funext j
  obtain ⟨p, q, rfl⟩ : ∃ (p : Fin 50000) (q : Fin 8), j = ix2 p q := ⟨j 0, j 1, eq_ix2 j⟩
  rw [logSoftmaxOf_apply]
  have hrow : (fun j => lin8Of a h wl b wr (ix2 p j)) = fun j => Cert.Sage.lin a h wl wr (fun q => b (ix1 q)) p j :=
    funext fun j => lin8_apply a h wl b wr p j
  rw [hrow]
  rfl

/-- The reference's result is the network over the reference's neighbourhood mean. -/
theorem out_eq_net (ei : IVec S2x800000 32) (x : FVec Ideal S50000x128 .f32)
    (w1l : FVec Ideal S128x128 .f32) (b1 : FVec Ideal S128 .f32) (w1r : FVec Ideal S128x128 .f32)
    (whl : FVec Ideal S128x128 .f32) (bh : FVec Ideal S128 .f32) (whr : FVec Ideal S128x128 .f32)
    (w2l : FVec Ideal S8x128 .f32) (b2 : FVec Ideal S8 .f32) (w2r : FVec Ideal S8x128 .f32) :
    outOf ei (h2Of ei (h1Of ei x w1l b1 w1r) whl bh whr) w2l b2 w2r
      = Cert.Sage.net (meanOf (F := Ideal) (srcOf ei) (dstOf ei)) x w1l w1r (fun q => b1 (ix1 q)) whl whr (fun q => bh (ix1 q))
          w2l w2r (fun q => b2 (ix1 q)) := by
  unfold outOf h2Of h1Of Cert.Sage.net
  rw [logSoftmax_layer, elu_layer, relu_layer]

end Cert.ReferenceIdeal.Hand

end
-- ==== Proof.LibRealArr.lean ====
/-
  Arrays of extended reals every entry of which is a REAL number, and the closure of that property under the array
  operations of the two programs at the ideal reading: entrywise arithmetic, quotients by entrywise nonzero
  divisors, square roots of entrywise signed arguments, constants, re-indexings (every entry of the result is an
  entry of an operand), and the finite sums (reductions, matrix products, accumulating scatters). With the sign
  facts carried alongside (entrywise positive, nonnegative, nonzero), a whole computation on real inputs stays
  real, and its values can be moved into ℝ entry by entry.
-/
import Idealize.ShloMosaic.PureOps.Ideal
import Idealize.ShloMosaic.PureOps.Ideal.Laws
import Idealize.ShloMosaic.Lib.ValueIdx
import proofs.«133615_j36567351558183_1_alg».proof.Proof.LibERealArith

noncomputable section

namespace Cert.Val

open Idealize.ShloMosaic
open Cert.Lib.ERealArith
open scoped BigOperators

/-! ### Real scalars -/

/-- An extended real that is (the coercion of) a real number. -/
def IsReal (x : EReal) : Prop := ∃ r : ℝ, x = (r : EReal)

/-- An array of extended reals every entry of which is a real number. -/
def IsRealArr {S : Shape} (x : S.Idx → EReal) : Prop := ∀ i, ∃ r : ℝ, x i = (r : EReal)

/-- A coercion is real. -/
theorem isReal_coe (r : ℝ) : IsReal (r : EReal) := ⟨r, rfl⟩

/-- Zero is real. -/
theorem isReal_zero : IsReal 0 := ⟨0, zero_eq_coe⟩

/-- One is real. -/
theorem isReal_one : IsReal 1 := ⟨1, one_eq_coe⟩

/-- A real extended real is the coercion of its real part. -/
theorem IsReal.coe_toReal {x : EReal} (hx : IsReal x) : x = ((x.toReal : ℝ) : EReal) := by
  obtain ⟨r, rfl⟩ := hx
  rw [EReal.toReal_coe]

/-- The sum of two reals is real. -/
theorem IsReal.add {x y : EReal} (hx : IsReal x) (hy : IsReal y) : IsReal (x + y) := by
  obtain ⟨a, rfl⟩ := hx; obtain ⟨b, rfl⟩ := hy; exact ⟨a + b, add_coe a b⟩

/-- The difference of two reals is real. -/
theorem IsReal.sub {x y : EReal} (hx : IsReal x) (hy : IsReal y) : IsReal (x - y) := by
  obtain ⟨a, rfl⟩ := hx; obtain ⟨b, rfl⟩ := hy; exact ⟨a - b, sub_coe a b⟩

/-- The product of two reals is real. -/
theorem IsReal.mul {x y : EReal} (hx : IsReal x) (hy : IsReal y) : IsReal (x * y) := by
  obtain ⟨a, rfl⟩ := hx; obtain ⟨b, rfl⟩ := hy; exact ⟨a * b, mul_coe a b⟩

/-- The negative of a real is real. -/
theorem IsReal.neg {x : EReal} (hx : IsReal x) : IsReal (-x) := by
  obtain ⟨a, rfl⟩ := hx; exact ⟨-a, neg_coe a⟩

/-- The maximum of two reals is real. -/
theorem IsReal.max {x y : EReal} (hx : IsReal x) (hy : IsReal y) : IsReal (max x y) := by
  obtain ⟨a, rfl⟩ := hx; obtain ⟨b, rfl⟩ := hy; exact ⟨Max.max a b, max_coe a b⟩

/-- A finite sum of reals is real. -/
theorem IsReal.sum {ι : Type*} (s : Finset ι) (g : ι → EReal) (h : ∀ i ∈ s, IsReal (g i)) : IsReal (∑ i ∈ s, g i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The quotient of a real by a nonzero real is real. -/
theorem IsReal.div {x y : EReal} (hx : IsReal x) (hy : ∃ r : ℝ, y = (r : EReal) ∧ r ≠ 0) : IsReal (Ideal.div x y) := by
  obtain ⟨a, rfl⟩ := hx; obtain ⟨b, rfl, hb⟩ := hy; exact ⟨a / b, div_coe hb a⟩

/-- The reciprocal square root of a positive real is a positive real. -/
theorem rsqrt_pos_real {x : EReal} (hx : ∃ r : ℝ, x = (r : EReal) ∧ 0 < r) :
    ∃ r : ℝ, Ideal.rsqrt x = (r : EReal) ∧ 0 < r := by
  obtain ⟨a, rfl, ha⟩ := hx
  exact ⟨(Real.sqrt a)⁻¹, rsqrt_coe ha, inv_pos.mpr (sqrt_pos' ha)⟩

/-- The square root of a nonnegative real is a nonnegative real. -/
theorem sqrt_nonneg_real {x : EReal} (hx : ∃ r : ℝ, x = (r : EReal) ∧ 0 ≤ r) :
    ∃ r : ℝ, Ideal.sqrt x = (r : EReal) ∧ 0 ≤ r := by
  obtain ⟨a, rfl, ha⟩ := hx
  exact ⟨Real.sqrt a, sqrt_coe ha, Real.sqrt_nonneg a⟩

/-- A positive real is a nonzero real. -/
theorem ne_zero_of_pos_real {x : EReal} (hx : ∃ r : ℝ, x = (r : EReal) ∧ 0 < r) : ∃ r : ℝ, x = (r : EReal) ∧ r ≠ 0 := by
  obtain ⟨a, h, ha⟩ := hx; exact ⟨a, h, ha.ne'⟩

/-- A positive real is a nonnegative real. -/
theorem nonneg_of_pos_real {x : EReal} (hx : ∃ r : ℝ, x = (r : EReal) ∧ 0 < r) : ∃ r : ℝ, x = (r : EReal) ∧ 0 ≤ r := by
  obtain ⟨a, h, ha⟩ := hx; exact ⟨a, h, ha.le⟩

/-- A real with a sign condition is real. -/
theorem isReal_of_pos_real {x : EReal} (hx : ∃ r : ℝ, x = (r : EReal) ∧ 0 < r) : IsReal x := by
  obtain ⟨a, h, _⟩ := hx; exact ⟨a, h⟩

/-- A nonnegative real is real. -/
theorem isReal_of_nonneg_real {x : EReal} (hx : ∃ r : ℝ, x = (r : EReal) ∧ 0 ≤ r) : IsReal x := by
  obtain ⟨a, h, _⟩ := hx; exact ⟨a, h⟩

/-- A nonzero real is real. -/
theorem isReal_of_ne_zero_real {x : EReal} (hx : ∃ r : ℝ, x = (r : EReal) ∧ r ≠ 0) : IsReal x := by
  obtain ⟨a, h, _⟩ := hx; exact ⟨a, h⟩

/-- The maximum of a real and a positive real is a positive real. -/
theorem max_pos_real_right {x c : EReal} (hx : IsReal x) (hc : ∃ r : ℝ, c = (r : EReal) ∧ 0 < r) :
    ∃ r : ℝ, max x c = (r : EReal) ∧ 0 < r := by
  obtain ⟨a, rfl⟩ := hx; obtain ⟨e, rfl, he⟩ := hc
  exact ⟨Max.max a e, max_coe a e, lt_of_lt_of_le he (le_max_right a e)⟩

/-- The maximum of a real and zero is a nonnegative real. -/
theorem max_zero_nonneg_real {x : EReal} (hx : IsReal x) : ∃ r : ℝ, max x 0 = (r : EReal) ∧ 0 ≤ r := by
  obtain ⟨a, rfl⟩ := hx
  exact ⟨Max.max a 0, by rw [zero_eq_coe, max_coe], le_max_right a 0⟩

/-- The sum of a nonnegative real and a positive real is a positive real. -/
theorem add_pos_real {x e : EReal} (hx : ∃ r : ℝ, x = (r : EReal) ∧ 0 ≤ r) (he : ∃ r : ℝ, e = (r : EReal) ∧ 0 < r) :
    ∃ r : ℝ, x + e = (r : EReal) ∧ 0 < r := by
  obtain ⟨a, rfl, ha⟩ := hx; obtain ⟨b, rfl, hb⟩ := he
  exact ⟨a + b, add_coe a b, add_pos_of_nonneg_of_pos ha hb⟩

/-- The product of a real with itself is a nonnegative real. -/
theorem mul_self_nonneg_real {x : EReal} (hx : IsReal x) : ∃ r : ℝ, x * x = (r : EReal) ∧ 0 ≤ r := by
  obtain ⟨a, rfl⟩ := hx; exact ⟨a * a, mul_coe a a, mul_self_nonneg a⟩

/-- A finite sum of nonnegative reals is a nonnegative real. -/
theorem sum_nonneg_real {ι : Type*} (s : Finset ι) (g : ι → EReal) (h : ∀ i ∈ s, ∃ r : ℝ, g i = (r : EReal) ∧ 0 ≤ r) :
    ∃ r : ℝ, (∑ i ∈ s, g i) = (r : EReal) ∧ 0 ≤ r := by
  classical
  induction s using Finset.induction_on with
  | empty => exact ⟨0, by simp, le_refl 0⟩
  | insert a s ha ih =>
    rw [Finset.sum_insert ha]
    obtain ⟨p, hp, hp0⟩ := h a (Finset.mem_insert_self a s)
    obtain ⟨q, hq, hq0⟩ := ih fun i hi => h i (Finset.mem_insert_of_mem hi)
    exact ⟨p + q, by rw [hp, hq, add_coe], add_nonneg hp0 hq0⟩

/-! ### The literals -/

/-- The literal 0.0 is real. -/
theorem isReal_ofBits_zero : IsReal (Ideal.ofBits .f32 0x00000000#32) := ⟨0, ofBits_zero⟩
/-- The literal 1.0 is a positive real. -/
theorem ofBits_one_pos : ∃ r : ℝ, Ideal.ofBits .f32 0x3F800000#32 = (r : EReal) ∧ 0 < r := ⟨1, ofBits_one, one_pos⟩
/-- The literal 100000.0 is a positive real. -/
theorem ofBits_100000_pos : ∃ r : ℝ, Ideal.ofBits .f32 0x47C35000#32 = (r : EReal) ∧ 0 < r :=
  ⟨100000, ofBits_100000, by norm_num⟩
/-- The literal 2000.0 is a positive real. -/
theorem ofBits_2000_pos : ∃ r : ℝ, Ideal.ofBits .f32 0x44FA0000#32 = (r : EReal) ∧ 0 < r := ⟨2000, ofBits_2000, by norm_num⟩
/-- The literal 5000.0 is a positive real. -/
theorem ofBits_5000_pos : ∃ r : ℝ, Ideal.ofBits .f32 0x459C4000#32 = (r : EReal) ∧ 0 < r := ⟨5000, ofBits_5000, by norm_num⟩
/-- The literal 3000.0 is a positive real. -/
theorem ofBits_3000_pos : ∃ r : ℝ, Ideal.ofBits .f32 0x453B8000#32 = (r : EReal) ∧ 0 < r := ⟨3000, ofBits_3000, by norm_num⟩
/-- The literal 1e-5 is a positive real. -/
theorem ofBits_eps5_pos : ∃ r : ℝ, Ideal.ofBits .f32 0x3727C5AC#32 = (r : EReal) ∧ 0 < r := ⟨eps5, ofBits_eps5, eps5_pos⟩
/-- The literal 1e-12 is a positive real. -/
theorem ofBits_eps12_pos : ∃ r : ℝ, Ideal.ofBits .f32 0x2B8CBCCC#32 = (r : EReal) ∧ 0 < r := ⟨eps12, ofBits_eps12, eps12_pos⟩

/-! ### Arrays: entrywise facts -/

section Arrays
variable {s t : Shape} {φ : FTy}

/-- A real array is entrywise the coercion of its real parts. -/
theorem IsRealArr.coe_toReal {x : s.Idx → EReal} (hx : IsRealArr x) (i : s.Idx) : x i = (((x i).toReal : ℝ) : EReal) :=
  IsReal.coe_toReal (hx i)

/-- The array of coercions of a real array is real. -/
theorem isRealArr_coe (f : s.Idx → ℝ) : IsRealArr (fun i => ((f i : ℝ) : EReal)) := fun i => ⟨f i, rfl⟩

/-- An array equal entrywise to coercions is real. -/
theorem isRealArr_of_eq {x : s.Idx → EReal} (f : s.Idx → ℝ) (h : ∀ i, x i = ((f i : ℝ) : EReal)) : IsRealArr x :=
  fun i => ⟨f i, h i⟩

/-- Entrywise positive reals are real. -/
theorem isRealArr_of_pos {x : s.Idx → EReal} (h : ∀ i, ∃ r : ℝ, x i = (r : EReal) ∧ 0 < r) : IsRealArr x :=
  fun i => isReal_of_pos_real (h i)

/-- Entrywise nonnegative reals are real. -/
theorem isRealArr_of_nonneg {x : s.Idx → EReal} (h : ∀ i, ∃ r : ℝ, x i = (r : EReal) ∧ 0 ≤ r) : IsRealArr x :=
  fun i => isReal_of_nonneg_real (h i)

/-- Entrywise positive reals are entrywise nonzero reals. -/
theorem ne_zero_of_pos_arr {x : s.Idx → EReal} (h : ∀ i, ∃ r : ℝ, x i = (r : EReal) ∧ 0 < r) :
    ∀ i, ∃ r : ℝ, x i = (r : EReal) ∧ r ≠ 0 := fun i => ne_zero_of_pos_real (h i)

/-! ### Entrywise arithmetic -/

/-- `addf` of real arrays is real. -/
theorem isRealArr_addf {x y : FVec Ideal s φ} (hx : IsRealArr x) (hy : IsRealArr y) : IsRealArr (addf x y) :=
  fun i => IsReal.add (hx i) (hy i)

/-- `subf` of real arrays is real. -/
theorem isRealArr_subf {x y : FVec Ideal s φ} (hx : IsRealArr x) (hy : IsRealArr y) : IsRealArr (subf x y) :=
  fun i => IsReal.sub (hx i) (hy i)

/-- `mulf` of real arrays is real. -/
theorem isRealArr_mulf {x y : FVec Ideal s φ} (hx : IsRealArr x) (hy : IsRealArr y) : IsRealArr (mulf x y) :=
  fun i => IsReal.mul (hx i) (hy i)

/-- `mulf` of a real array with itself (a square) is entrywise a nonnegative real. -/
theorem mulf_self_nonneg {x : FVec Ideal s φ} (hx : IsRealArr x) : ∀ i, ∃ r : ℝ, mulf x x i = (r : EReal) ∧ 0 ≤ r :=
  fun i => mul_self_nonneg_real (hx i)

/-- `maximumf` of real arrays is real. -/
theorem isRealArr_maximumf {x y : FVec Ideal s φ} (hx : IsRealArr x) (hy : IsRealArr y) : IsRealArr (maximumf x y) :=
  fun i => IsReal.max (hx i) (hy i)

/-- `maximumf` of a real array against an entrywise positive real array is entrywise a positive real. -/
theorem maximumf_pos_right {x c : FVec Ideal s φ} (hx : IsRealArr x) (hc : ∀ i, ∃ r : ℝ, c i = (r : EReal) ∧ 0 < r) :
    ∀ i, ∃ r : ℝ, maximumf x c i = (r : EReal) ∧ 0 < r := fun i => max_pos_real_right (hx i) (hc i)

/-- The kernel's `divf` of a real array by an entrywise nonzero real array is real. -/
theorem isRealArr_divf {x y : FVec Ideal s φ} (hx : IsRealArr x) (hy : ∀ i, ∃ r : ℝ, y i = (r : EReal) ∧ r ≠ 0) :
    IsRealArr (divf x y) := fun i => IsReal.div (hx i) (hy i)

/-- The host's quotient of a real array by an entrywise nonzero real array is real. -/
theorem isRealArr_hostDivf {x y : FVec Ideal s φ} (hx : IsRealArr x) (hy : ∀ i, ∃ r : ℝ, y i = (r : EReal) ∧ r ≠ 0) :
    IsRealArr (Host.divf x y) := fun i => IsReal.div (hx i) (hy i)

/-- The kernel's `divf` by the maximum of a real array with an entrywise positive real array is real. -/
theorem isRealArr_divf_max {x y c : FVec Ideal s φ} (hx : IsRealArr x) (hy : IsRealArr y)
    (hc : ∀ i, ∃ r : ℝ, c i = (r : EReal) ∧ 0 < r) : IsRealArr (divf x (maximumf y c)) :=
  isRealArr_divf hx (ne_zero_of_pos_arr (maximumf_pos_right hy hc))

/-- The host's quotient by the maximum of a real array with an entrywise positive real array is real. -/
theorem isRealArr_hostDivf_max {x y c : FVec Ideal s φ} (hx : IsRealArr x) (hy : IsRealArr y)
    (hc : ∀ i, ∃ r : ℝ, c i = (r : EReal) ∧ 0 < r) : IsRealArr (Host.divf x (maximumf y c)) :=
  isRealArr_hostDivf hx (ne_zero_of_pos_arr (maximumf_pos_right hy hc))

/-- The kernel's reciprocal square root of an entrywise positive real array is entrywise a positive real. -/
theorem rsqrt_pos_arr {x : FVec Ideal s φ} (hx : ∀ i, ∃ r : ℝ, x i = (r : EReal) ∧ 0 < r) :
    ∀ i, ∃ r : ℝ, rsqrt x i = (r : EReal) ∧ 0 < r := fun i => rsqrt_pos_real (hx i)

/-- The kernel's reciprocal square root of an entrywise positive real array is real. -/
theorem isRealArr_rsqrt {x : FVec Ideal s φ} (hx : ∀ i, ∃ r : ℝ, x i = (r : EReal) ∧ 0 < r) : IsRealArr (rsqrt x) :=
  isRealArr_of_pos (rsqrt_pos_arr hx)

/-- The host's reciprocal square root of an entrywise positive real array is entrywise a positive real. -/
theorem hostRsqrt_pos_arr {x : FVec Ideal s φ} (hx : ∀ i, ∃ r : ℝ, x i = (r : EReal) ∧ 0 < r) :
    ∀ i, ∃ r : ℝ, Host.rsqrt x i = (r : EReal) ∧ 0 < r := fun i => rsqrt_pos_real (hx i)

/-- The host's reciprocal square root of an entrywise positive real array is real. -/
theorem isRealArr_hostRsqrt {x : FVec Ideal s φ} (hx : ∀ i, ∃ r : ℝ, x i = (r : EReal) ∧ 0 < r) : IsRealArr (Host.rsqrt x) :=
  isRealArr_of_pos (hostRsqrt_pos_arr hx)

/-- The kernel's square root of an entrywise nonnegative real array is entrywise a nonnegative real. -/
theorem sqrt_nonneg_arr {x : FVec Ideal s φ} (hx : ∀ i, ∃ r : ℝ, x i = (r : EReal) ∧ 0 ≤ r) :
    ∀ i, ∃ r : ℝ, sqrt x i = (r : EReal) ∧ 0 ≤ r := fun i => sqrt_nonneg_real (hx i)

/-- The kernel's square root of an entrywise nonnegative real array is real. -/
theorem isRealArr_sqrt {x : FVec Ideal s φ} (hx : ∀ i, ∃ r : ℝ, x i = (r : EReal) ∧ 0 ≤ r) : IsRealArr (sqrt x) :=
  isRealArr_of_nonneg (sqrt_nonneg_arr hx)

/-- The host's square root of an entrywise nonnegative real array is entrywise a nonnegative real. -/
theorem hostSqrt_nonneg_arr {x : FVec Ideal s φ} (hx : ∀ i, ∃ r : ℝ, x i = (r : EReal) ∧ 0 ≤ r) :
    ∀ i, ∃ r : ℝ, Host.sqrt x i = (r : EReal) ∧ 0 ≤ r := fun i => sqrt_nonneg_real (hx i)

/-- The host's square root of an entrywise nonnegative real array is real. -/
theorem isRealArr_hostSqrt {x : FVec Ideal s φ} (hx : ∀ i, ∃ r : ℝ, x i = (r : EReal) ∧ 0 ≤ r) : IsRealArr (Host.sqrt x) :=
  isRealArr_of_nonneg (hostSqrt_nonneg_arr hx)

/-- A change of format is the identity: `truncf` of a real array is real. -/
theorem isRealArr_truncf {ψ : FTy} {a : FVec Ideal s φ} (h : ψ.bits < φ.bits) (ha : IsRealArr a) :
    IsRealArr (truncf ψ a h : FVec Ideal s ψ) := fun i => ha i

/-- A change of format is the identity: `extf` of a real array is real. -/
theorem isRealArr_extf {ψ : FTy} {a : FVec Ideal s φ} (h : φ.bits < ψ.bits) (ha : IsRealArr a) :
    IsRealArr (extf ψ a h : FVec Ideal s ψ) := fun i => ha i

/-- A signed integer array read as floats is real. -/
theorem isRealArr_sitofp {w : Nat} (x : IVec s w) : IsRealArr (sitofp (F := Ideal) φ x) :=
  fun i => ⟨((x i).toInt : ℝ), rfl⟩

/-- Where every condition bit is set, `select` is its first branch. -/
theorem select_of_one {α : Type} {c : IVec s 1} (a b : s.Idx → α) (hc : ∀ i, c i = 1#1) : select c a b = a := by
  funext i
  show Scalar.select (c i) (a i) (b i) = a i
  rw [hc i]; exact if_pos rfl

/-- `select` between two real arrays is real. -/
theorem isRealArr_select {c : IVec s 1} {a b : s.Idx → EReal} (ha : IsRealArr a) (hb : IsRealArr b) :
    IsRealArr (select c a b) := by
  intro i
  show ∃ r : ℝ, Scalar.select (c i) (a i) (b i) = (r : EReal)
  unfold Scalar.select
  split
  · exact ha i
  · exact hb i

/-- "Greater than" between entries that are reals in that order sets the bit. -/
theorem cmpf_ogt_one {a b : FVec Ideal s φ} {ra rb : ℝ} (i : s.Idx) (ha : a i = (ra : EReal)) (hb : b i = (rb : EReal))
    (h : rb < ra) : cmpf .ogt a b i = 1#1 := by
  show Ideal.cmp .ogt (a i) (b i) = 1#1
  rw [ha, hb]; exact cmp_ogt_coe_of_lt h

/-! ### Constants and broadcasts -/

/-- A broadcast scalar that is real is a real array. -/
theorem isRealArr_broadcast {x : EReal} (hx : IsReal x) : IsRealArr (broadcast t x) := fun _ => hx

/-- A broadcast positive real is entrywise a positive real. -/
theorem broadcast_pos {x : EReal} (hx : ∃ r : ℝ, x = (r : EReal) ∧ 0 < r) :
    ∀ i, ∃ r : ℝ, broadcast t x i = (r : EReal) ∧ 0 < r := fun _ => hx

/-- The constant array of 0.0 is real. -/
theorem isRealArr_constant_zero : IsRealArr (constant (F := Ideal) s .f32 0x00000000#32) := fun _ => isReal_ofBits_zero

/-- The constant array of 0.0 is entrywise the real zero. -/
theorem constant_zero_apply (i : s.Idx) : constant (F := Ideal) s .f32 0x00000000#32 i = ((0 : ℝ) : EReal) := ofBits_zero

/-- The constant array of 1.0 is entrywise a positive real. -/
theorem constant_one_pos : ∀ i, ∃ r : ℝ, constant (F := Ideal) s .f32 0x3F800000#32 i = (r : EReal) ∧ 0 < r :=
  fun _ => ofBits_one_pos

/-- The constant array of 100000.0 is entrywise a positive real. -/
theorem constant_100000_pos : ∀ i, ∃ r : ℝ, constant (F := Ideal) s .f32 0x47C35000#32 i = (r : EReal) ∧ 0 < r :=
  fun _ => ofBits_100000_pos

/-- The constant array of 2000.0 is entrywise a positive real. -/
theorem constant_2000_pos : ∀ i, ∃ r : ℝ, constant (F := Ideal) s .f32 0x44FA0000#32 i = (r : EReal) ∧ 0 < r :=
  fun _ => ofBits_2000_pos

/-- The constant array of 5000.0 is entrywise a positive real. -/
theorem constant_5000_pos : ∀ i, ∃ r : ℝ, constant (F := Ideal) s .f32 0x459C4000#32 i = (r : EReal) ∧ 0 < r :=
  fun _ => ofBits_5000_pos

/-- The constant array of 3000.0 is entrywise a positive real. -/
theorem constant_3000_pos : ∀ i, ∃ r : ℝ, constant (F := Ideal) s .f32 0x453B8000#32 i = (r : EReal) ∧ 0 < r :=
  fun _ => ofBits_3000_pos

/-- The constant array of 1e-5 is entrywise a positive real. -/
theorem constant_eps5_pos : ∀ i, ∃ r : ℝ, constant (F := Ideal) s .f32 0x3727C5AC#32 i = (r : EReal) ∧ 0 < r :=
  fun _ => ofBits_eps5_pos

/-- The constant array of 1e-12 is entrywise a positive real. -/
theorem constant_eps12_pos : ∀ i, ∃ r : ℝ, constant (F := Ideal) s .f32 0x2B8CBCCC#32 i = (r : EReal) ∧ 0 < r :=
  fun _ => ofBits_eps12_pos

/-- A constant array of a positive real literal is real. -/
theorem isRealArr_constant_of_pos {b : BitVec (FTy.f32).bits} (h : ∃ r : ℝ, Ideal.ofBits .f32 b = (r : EReal) ∧ 0 < r) :
    IsRealArr (constant (F := Ideal) s .f32 b) := fun _ => isReal_of_pos_real h

/-! ### Re-indexings: every entry of the result is an entry of an operand -/

/-- Reading a real array through any map of indices gives a real array. -/
theorem isRealArr_comp {x : s.Idx → EReal} (hx : IsRealArr x) (f : t.Idx → s.Idx) : IsRealArr (fun j => x (f j)) :=
  fun j => hx (f j)

/-- `broadcastInDim` of a real array is real. -/
theorem isRealArr_broadcastInDim {x : s.Idx → EReal} (dims : Fin s.rank → Fin t.rank) (h : s.BroadcastsInDim t dims)
    (hx : IsRealArr x) : IsRealArr (broadcastInDim t dims h x) := fun _ => hx _

/-- `broadcastInDim` of an entrywise positive real array is entrywise a positive real. -/
theorem broadcastInDim_pos {x : s.Idx → EReal} (dims : Fin s.rank → Fin t.rank) (h : s.BroadcastsInDim t dims)
    (hx : ∀ i, ∃ r : ℝ, x i = (r : EReal) ∧ 0 < r) : ∀ j, ∃ r : ℝ, broadcastInDim t dims h x j = (r : EReal) ∧ 0 < r :=
  fun _ => hx _

/-- `broadcastInDim` of an entrywise nonzero real array is entrywise a nonzero real. -/
theorem broadcastInDim_ne_zero {x : s.Idx → EReal} (dims : Fin s.rank → Fin t.rank) (h : s.BroadcastsInDim t dims)
    (hx : ∀ i, ∃ r : ℝ, x i = (r : EReal) ∧ r ≠ 0) : ∀ j, ∃ r : ℝ, broadcastInDim t dims h x j = (r : EReal) ∧ r ≠ 0 :=
  fun _ => hx _

/-- `broadcastTo` of a real array is real. -/
theorem isRealArr_broadcastTo {x : s.Idx → EReal} (h : s.Broadcasts t) (hx : IsRealArr x) : IsRealArr (broadcastTo t x h) :=
  fun _ => hx _

/-- `shapeCast` of a real array is real. -/
theorem isRealArr_shapeCast {x : s.Idx → EReal} (h : s.ShapeCasts t) (hx : IsRealArr x) : IsRealArr (shapeCast t x h) :=
  fun _ => hx _

/-- `extractStridedSlice` of a real array is real. -/
theorem isRealArr_extractStridedSlice {x : s.Idx → EReal} (off : Fin s.rank → Nat) (h : s.Slices off t) (hx : IsRealArr x) :
    IsRealArr (extractStridedSlice t off x h) := fun _ => hx _

/-- `transpose` of a real array is real. -/
theorem isRealArr_transpose {x : s.Idx → EReal} (perm : List (Fin s.rank)) (h : s.Transposes perm t) (hx : IsRealArr x) :
    IsRealArr (transpose t perm x h) := fun _ => hx _

/-- A gather from a real array is real: each result entry is an operand entry. -/
theorem isRealArr_gather {si : Shape} {w : Nat} (d : GatherDims s si t) {x : s.Idx → EReal} (idx : IVec si w) (hx : IsRealArr x) :
    IsRealArr (Host.gather d x idx) := fun _ => hx _

/-- A concatenation of real arrays is real. -/
theorem isRealArr_concatenate (a : Fin t.rank) (xs : List ((s : Shape) × (s.Idx → EReal)))
    (hc : Shape.Concatenates (xs.map (·.1)) t a) (h : ∀ p ∈ xs, IsRealArr p.2) : IsRealArr (concatenate t a xs hc) := by
  intro j
  unfold concatenate
  exact h _ (List.getElem_mem _) _

/-! ### Sums -/

/-- The host's sum of a real array from a real initial value is real. -/
theorem isRealArr_hostReduceAdd {axes : List (Fin s.rank)} {u : Shape} {x : FVec Ideal s φ} {init : u.Idx → Ideal φ}
    (h : s.ReducesTo axes t) (hu : 0 < u.numel) (hx : IsRealArr x) (hi : IsRealArr init) :
    IsRealArr (Host.reduceAdd x init h hu) := by
  intro j
  show IsReal (Ideal.hostReduceAdd h x (init (Shape.Idx.first hu)) j)
  unfold Ideal.hostReduceAdd
  exact IsReal.add (hi _) (IsReal.sum _ _ fun i _ => hx i)

/-- The host's sum of an entrywise nonnegative real array from a nonnegative real initial value is entrywise a nonnegative
    real. -/
theorem hostReduceAdd_nonneg {axes : List (Fin s.rank)} {u : Shape} {x : FVec Ideal s φ} {init : u.Idx → Ideal φ}
    (h : s.ReducesTo axes t) (hu : 0 < u.numel) (hx : ∀ i, ∃ r : ℝ, x i = (r : EReal) ∧ 0 ≤ r)
    (hi : ∀ i, ∃ r : ℝ, init i = (r : EReal) ∧ 0 ≤ r) :
    ∀ j, ∃ r : ℝ, Host.reduceAdd x init h hu j = (r : EReal) ∧ 0 ≤ r := by
  intro j
  show ∃ r : ℝ, Ideal.hostReduceAdd h x (init (Shape.Idx.first hu)) j = (r : EReal) ∧ 0 ≤ r
  unfold Ideal.hostReduceAdd
  obtain ⟨p, hp, hp0⟩ := hi (Shape.Idx.first hu)
  obtain ⟨q, hq, hq0⟩ := sum_nonneg_real (Finset.univ.filter (fun i => h.drop i = j)) x fun i _ => hx i
  exact ⟨p + q, by rw [hp, hq, add_coe], add_nonneg hp0 hq0⟩

/-- The kernel's sum (`vector.multi_reduction <add>`) of a real array is real. -/
theorem isRealArr_multiReduction_add {axes : List (Fin s.rank)} {src : FVec Ideal s φ} (acc : BitVec φ.bits)
    (h : s.Reduces axes t) (hφ : FKind.Formats φ) (hacc : acc = FKind.add.neutral φ hφ) (hx : IsRealArr src) :
    IsRealArr (multiReduction .add axes t src acc h hφ hacc) := by
  intro j
  show IsReal (Ideal.reduceAdd h src j)
  unfold Ideal.reduceAdd
  exact IsReal.sum _ _ fun i _ => hx i

/-- The kernel's matrix product of real operands onto a real accumulator is real. -/
theorem isRealArr_matmul {sl sr so : Shape} {φ₁ φ₂ : FTy} (d : DotDims sl sr so) (prec : Option ContractPrecision)
    {lhs : FVec Ideal sl φ₁} {rhs : FVec Ideal sr φ₂} {acc : FVec Ideal so .f32}
    (hl : IsRealArr lhs) (hr : IsRealArr rhs) (ha : IsRealArr acc) : IsRealArr (matmul d prec lhs rhs acc) := by
  intro j
  show IsReal (Ideal.matmul d lhs rhs acc j)
  unfold Ideal.matmul
  exact IsReal.add (ha j) (IsReal.sum _ _ fun k _ => IsReal.mul (hl _) (hr _))

/-- The host's matrix product of real operands is real. -/
theorem isRealArr_dotGeneral {sl sr so : Shape} {φ₁ φ₂ : FTy} (d : DotDims sl sr so) (prec : Option ContractPrecision)
    {lhs : FVec Ideal sl φ₁} {rhs : FVec Ideal sr φ₂} (hl : IsRealArr lhs) (hr : IsRealArr rhs) :
    IsRealArr (Host.dotGeneral d prec lhs rhs) := by
  intro j
  show IsReal (Ideal.matmul d lhs rhs (fun _ => 0) j)
  unfold Ideal.matmul
  exact IsReal.add isReal_zero (IsReal.sum _ _ fun k _ => IsReal.mul (hl _) (hr _))

/-- The host's accumulating scatter of real updates into a real operand is real. -/
theorem isRealArr_scatterAdd {si u : Shape} {w : Nat} (d : ScatterDims s si u) {x : FVec Ideal s φ} (idx : IVec si w)
    {upd : FVec Ideal u φ} (hx : IsRealArr x) (hu : IsRealArr upd) : IsRealArr (Host.scatterAdd d x idx upd) := by
  intro i
  show IsReal (Ideal.hostScatterAdd d x idx upd i)
  unfold Ideal.hostScatterAdd
  exact IsReal.add (hx i) (IsReal.sum _ _ fun j _ => hu j)

/-- The host's accumulating scatter of entrywise nonnegative real updates into an entrywise nonnegative real operand is
    entrywise a nonnegative real (a count of ones, for one). -/
theorem scatterAdd_nonneg {si u : Shape} {w : Nat} (d : ScatterDims s si u) {x : FVec Ideal s φ} (idx : IVec si w)
    {upd : FVec Ideal u φ} (hx : ∀ i, ∃ r : ℝ, x i = (r : EReal) ∧ 0 ≤ r) (hu : ∀ i, ∃ r : ℝ, upd i = (r : EReal) ∧ 0 ≤ r) :
    ∀ i, ∃ r : ℝ, Host.scatterAdd d x idx upd i = (r : EReal) ∧ 0 ≤ r := by
  intro i
  show ∃ r : ℝ, Ideal.hostScatterAdd d x idx upd i = (r : EReal) ∧ 0 ≤ r
  unfold Ideal.hostScatterAdd
  obtain ⟨p, hp, hp0⟩ := hx i
  obtain ⟨q, hq, hq0⟩ := sum_nonneg_real (Finset.univ.filter (fun j => d.resultIdx? j idx = some i)) upd fun j _ => hu j
  exact ⟨p + q, by rw [hp, hq, add_coe], add_nonneg hp0 hq0⟩

end Arrays

end Cert.Val

end
-- ==== Proof.Mean.lean ====
/-
  The two spellings of the neighbourhood mean are one function.

  The kernel's program multiplies the accumulated features by `1 / max(count, 1)`, the reference divides them by
  `max(count, 1)`. The count is a sum of ones, a real number, so `max(count, 1)` is a real `r ≥ 1`; for a nonzero real
  divisor the quotient of ANY extended real `s` is `s · (1/r)`, and `1 / r` is the real `1/r`: both spellings are
  `s · (1/r)`, whatever `s` is (finite or not).
-/
import proofs.«133615_j36567351558183_1_alg».proof.Proof.KTerms
import proofs.«133615_j36567351558183_1_alg».proof.Proof.RTerms
import proofs.«133615_j36567351558183_1_alg».proof.Proof.LibBroadcastInDim
import proofs.«133615_j36567351558183_1_alg».proof.Proof.LibRealArr
import Idealize.ShloMosaic.Lib.ValueIdx
import Idealize.ShloMosaic.PureOps.Ideal

noncomputable section

namespace Cert.Sage.Mean

open Idealize.ShloMosaic Idealize.ShloMosaic.ValueIdx Idealize.ShloMosaic.ValueLayout
open Cert.Val Cert.Lib.ERealArith

/-- For a real count, a product with the reciprocal of `max(count, 1)` is the quotient by it, on all of the extended
    reals. -/
theorem mul_inv_eq_div (s cnt one : EReal) (hone : one = Ideal.ofBits .f32 0x3F800000#32) (hcnt : IsReal cnt) :
    s * Ideal.div one (max cnt one) = Ideal.div s (max cnt one) := by
  subst hone
  obtain ⟨r, hr, hpos⟩ := max_pos_real_right hcnt ofBits_one_pos
  rw [hr, Ideal.div_coe hpos.ne', Ideal.div_coe hpos.ne', ofBits_one, EReal.coe_one, one_mul]

/-- The same for arrays, general in the sizes: features `[R, N]` times the column of reciprocals spread over the
    columns, against the features divided by the column of counts spread over the columns. -/
theorem mul_spread_inv_eq_div_spread {R N : ℕ} (s : FVec Ideal (⟨2, ![R, N]⟩ : Shape) .f32)
    (one cnt : FVec Ideal (⟨1, ![R]⟩ : Shape) .f32)
    (h1 : (⟨1, ![R]⟩ : Shape).BroadcastsInDim ⟨2, ![R, 1]⟩ (![0] : Fin 1 → Fin 2))
    (h2 : (⟨2, ![R, 1]⟩ : Shape).BroadcastsInDim ⟨2, ![R, N]⟩ (![0, 1] : Fin 2 → Fin 2))
    (hone : ∀ i, one i = Ideal.ofBits .f32 0x3F800000#32) (hcnt : IsRealArr cnt) :
    mulf s (broadcastInDim ⟨2, ![R, N]⟩ ![0, 1] h2 (broadcastInDim ⟨2, ![R, 1]⟩ ![0] h1 (Host.divf one (maximumf cnt one))))
      = Host.divf s (broadcastInDim ⟨2, ![R, N]⟩ ![0, 1] h2 (broadcastInDim ⟨2, ![R, 1]⟩ ![0] h1 (maximumf cnt one))) := by
  funext j
  obtain ⟨p, q, rfl⟩ : ∃ (p : Fin R) (q : Fin N), j = ix2 p q := ⟨j 0, j 1, eq_ix2 j⟩
  simp only [mulf, Host.divf, Ideal.mulf_def, Ideal.hostDivf_def]
  rw [bcast_r1_rn_apply, bcast_n_n1_apply, bcast_r1_rn_apply, bcast_n_n1_apply]
  simp only [maximumf, Ideal.maximumf_def]
  exact mul_inv_eq_div _ _ _ (hone _) (hcnt _)

open Cert.KernelIdeal

/-- The two programs read the edge list's rows, wrap the sources, count the arrivals and accumulate the source features
    by the same operations: these four are one term in either program's vocabulary. -/
theorem src_eq (ei : IVec S2x800000 32) : Cert.ReferenceIdeal.Hand.srcOf ei = Cert.KernelIdeal.Hand.srcOf ei := rfl
theorem dst_eq (ei : IVec S2x800000 32) : Cert.ReferenceIdeal.Hand.dstOf ei = Cert.KernelIdeal.Hand.dstOf ei := rfl
theorem count_eq {F : FTy → Type} [FloatOps F] (d : IVec S800000 32) :
    Cert.ReferenceIdeal.Hand.countOf (F := F) d = Cert.KernelIdeal.Hand.countOf d := rfl
theorem nbrSum_eq {F : FTy → Type} [FloatOps F] (s d : IVec S800000 32) (h : FVec F S50000x128 .f32) :
    Cert.ReferenceIdeal.Hand.nbrSumOf s d h = Cert.KernelIdeal.Hand.nbrSumOf s d h := by
  unfold Cert.ReferenceIdeal.Hand.nbrSumOf Cert.KernelIdeal.Hand.nbrSumOf
  rfl

/-- The arrival count is a real number at every node: a sum of ones onto zeros. -/
theorem count_real (dst : IVec S800000 32) : IsRealArr (Cert.KernelIdeal.Hand.countOf (F := Ideal) dst) :=
  isRealArr_scatterAdd _ _ (isRealArr_broadcastInDim _ _ isRealArr_constant_zero)
    (isRealArr_broadcastInDim _ _ (isRealArr_of_pos constant_one_pos))

/-- The kernel program's neighbourhood mean is the reference's, as functions of the feature array. -/
theorem agg_eq_mean (ei : IVec S2x800000 32) (h : FVec Ideal S50000x128 .f32) :
    Cert.KernelIdeal.Hand.aggOf (Cert.KernelIdeal.Hand.srcOf ei) (Cert.KernelIdeal.Hand.dstOf ei)
        (Cert.KernelIdeal.Hand.invCountOf (Cert.KernelIdeal.Hand.dstOf ei)) h
      = Cert.ReferenceIdeal.Hand.meanOf (Cert.ReferenceIdeal.Hand.srcOf ei) (Cert.ReferenceIdeal.Hand.dstOf ei) h := by
  rw [src_eq, dst_eq]
  unfold Cert.KernelIdeal.Hand.aggOf Cert.KernelIdeal.Hand.invCountOf Cert.ReferenceIdeal.Hand.meanOf
  rw [nbrSum_eq, count_eq]
  exact mul_spread_inv_eq_div_spread _ _ _ _ _ (fun _ => rfl) (count_real _)

end Cert.Sage.Mean

end
-- ==== Proof.Assemble.lean ====
/-
  The kernel program's result and the reference's are one function of the argument arrays: both are the network of
  three layers, the kernel's over `sum · (1 / max(count, 1))`, the reference's over `sum / max(count, 1)`, which are one
  neighbourhood mean; and a bias vector recast as a row has the vector's entries.
-/
import proofs.«133615_j36567351558183_1_alg».proof.Proof.RMath
import proofs.«133615_j36567351558183_1_alg».proof.Proof.Mean
import proofs.«133615_j36567351558183_1_alg».proof.Proof.LibRowSpread

noncomputable section

namespace Cert.Sage

open Idealize.ShloMosaic Idealize.ShloMosaic.ValueIdx Cert.KernelIdeal

/-- A bias of 128 entries recast as a row, read along the row. -/
theorem biasRow128_apply (b : FVec Ideal S128 .f32) :
    (fun q : Fin 128 => Cert.KernelIdeal.Hand.biasRow128 b (ix2 (0 : Fin 1) q)) = fun q => b (ix1 q) :=
  funext fun q => Cert.Lib.RowSpread.asRow_apply b _ 0 q

/-- A bias of 8 entries recast as a row, read along the row. -/
theorem biasRow8_apply (b : FVec Ideal S8 .f32) :
    (fun q : Fin 8 => Cert.KernelIdeal.Hand.biasRow8 b (ix2 (0 : Fin 1) q)) = fun q => b (ix1 q) :=
  funext fun q => Cert.Lib.RowSpread.asRow_apply b _ 0 q

/-- The network over the kernel program's mean and row biases is the reference's result. -/
theorem kernel_eq_reference (ei : IVec S2x800000 32) (x : FVec Ideal S50000x128 .f32)
    (w1l : FVec Ideal S128x128 .f32) (b1 : FVec Ideal S128 .f32) (w1r : FVec Ideal S128x128 .f32)
    (whl : FVec Ideal S128x128 .f32) (bh : FVec Ideal S128 .f32) (whr : FVec Ideal S128x128 .f32)
    (w2l : FVec Ideal S8x128 .f32) (b2 : FVec Ideal S8 .f32) (w2r : FVec Ideal S8x128 .f32) :
    Cert.ReferenceIdeal.Hand.outOf ei
        (Cert.ReferenceIdeal.Hand.h2Of ei (Cert.ReferenceIdeal.Hand.h1Of ei x w1l b1 w1r) whl bh whr) w2l b2 w2r
      = net (Cert.KernelIdeal.Hand.aggOf (F := Ideal) (Cert.KernelIdeal.Hand.srcOf ei) (Cert.KernelIdeal.Hand.dstOf ei)
            (Cert.KernelIdeal.Hand.invCountOf (Cert.KernelIdeal.Hand.dstOf ei)))
          x w1l w1r (fun q => Cert.KernelIdeal.Hand.biasRow128 b1 (ix2 (0 : Fin 1) q))
          whl whr (fun q => Cert.KernelIdeal.Hand.biasRow128 bh (ix2 (0 : Fin 1) q))
          w2l w2r (fun q => Cert.KernelIdeal.Hand.biasRow8 b2 (ix2 (0 : Fin 1) q)) := by
  rw [Cert.ReferenceIdeal.Hand.out_eq_net, biasRow128_apply, biasRow128_apply, biasRow8_apply,
    show Cert.KernelIdeal.Hand.aggOf (F := Ideal) (Cert.KernelIdeal.Hand.srcOf ei) (Cert.KernelIdeal.Hand.dstOf ei)
        (Cert.KernelIdeal.Hand.invCountOf (Cert.KernelIdeal.Hand.dstOf ei))
      = Cert.ReferenceIdeal.Hand.meanOf (F := Ideal) (Cert.ReferenceIdeal.Hand.srcOf ei) (Cert.ReferenceIdeal.Hand.dstOf ei)
      from funext (Cert.Sage.Mean.agg_eq_mean ei)]

end Cert.Sage

end
-- ==== Proof.lean ====
/-
  The certificate: a three-layer neighbourhood-mean graph convolution (positive part, exponential linear unit, logarithm
  of the softmax), computed by three row-blocked matrix kernels with the neighbourhood means taken on the host between
  them, against the same network written with whole-array host operations.

  Over the extended reals both programs compute `Cert.Sage.net`: layer by layer, entry (p, q) of
  `act (mean · wlᵀ + h · wrᵀ + b)`, the products as sums over the 128 feature columns. The kernel's side: each region
  leaves in its output array the layer of the arrays it was entered with (a row block of the layer reads only the same
  row block of its inputs, and the ten blocks cover the array), and the host operations between the regions hand each
  layer's output and its neighbourhood mean to the next. The reference's side: its operations composed, read entry by
  entry. Two differences are bridged: the kernel's program multiplies the neighbourhood sums by `1 / max(count, 1)` where
  the reference divides by `max(count, 1)` — one function, because the count is a real number at least zero, so the
  divisor is a nonzero real —, and the bias is added after both products where the reference adds it between them —
  addition on the extended reals is commutative and associative. No step needs the inputs to be finite: the
  precondition is never opened.
-/
import proofs.«133615_j36567351558183_1_alg».proof.Defs
import proofs.«133615_j36567351558183_1_alg».proof.Proof.Gen.Kernel
import proofs.«133615_j36567351558183_1_alg».proof.Proof.Gen.Kernel.Frame
import proofs.«133615_j36567351558183_1_alg».proof.Proof.Gen.KernelIdeal
import proofs.«133615_j36567351558183_1_alg».proof.Proof.Gen.KernelIdeal.Frame
import proofs.«133615_j36567351558183_1_alg».proof.Proof.Gen.ReferenceIdeal
import proofs.«133615_j36567351558183_1_alg».proof.Proof.Gen.Pre_finite_inputs
import proofs.«133615_j36567351558183_1_alg».proof.Proof.KChain
import proofs.«133615_j36567351558183_1_alg».proof.Proof.RRun
import proofs.«133615_j36567351558183_1_alg».proof.Proof.Assemble
import Idealize.ShloMosaic.Adequacy
import Idealize.ShloMosaic.Init

noncomputable section

namespace Cert.Proof

open Idealize.ShloMosaic Idealize.SL.Sem

/-- The kernel's program, read at the machine's words, runs and leaves its arguments unchanged. -/
theorem frame_k : Cert.frame_Kernel := fun m ρ _ => Cert.Kernel.Gen.frame m ρ

/-- The same read at the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories agreeing on the arguments both programs end with the same result array: the network of three
    layers over the one neighbourhood mean. -/
theorem algebraic : Cert.algebraic_KernelIdeal_ReferenceIdeal := by
  intro m ρ m' ρ' _ hagree
  refine ⟨fun c => Cert.KernelIdeal.Hand.outK m c, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, -, e3, e4, e5, e6, e7, e8, e9, e10, e11⟩ := hagree c
  rw [e0, e1, e3, e4, e5, e6, e7, e8, e9, e10, e11]
  show _ = Cert.KernelIdeal.Hand.outK m c
  rw [Cert.KernelIdeal.Hand.outK_eq]
  exact Cert.Sage.kernel_eq_reference _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
